-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S8192x16 : Shape := ⟨2, ![8192, 16]⟩
abbrev S80x64 : Shape := ⟨2, ![80, 64]⟩
abbrev S64 : Shape := ⟨1, ![64]⟩
abbrev S128x64 : Shape := ⟨2, ![128, 64]⟩
abbrev S8192 : Shape := ⟨1, ![8192]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S80x64 : S_.BroadcastsInDim S80x64 (![] : Fin 0 → Fin S80x64.rank)
  reducesTo_S80x64_S_d0_1 : S80x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg4 : FVec F S128x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S20000x64 .f32) (main_arg1 : FVec F S8192x16 .f32) (main_arg2 : FVec F S80x64 .f32) (main_arg3 : FVec F S64 .f32) (main_arg4 : FVec F S128x64 .f32) (main_arg5 : FVec F S64 .f32) (main_arg6 : IVec S8192 32) (main_arg7 : IVec S8192 32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_v9 : FVec F S80x64 .f32 := Host.absf main_arg2
  let main_cst_2 : FVec F S_ .f32 := constant S_ .f32 0x7F800000#32
  let main_v10 : FVec F S80x64 .f32 := broadcastInDim S80x64 ![] bcast_S_S80x64 main_cst_2
  let main_v11 : IVec S80x64 1 := cmpf .olt main_v9 main_v10
  let main_c_3 : IVec S_ 1 := constantI S_ 1 1#1
  let main_v12 : IVec S_ 1 := (fun x v => Host.reduce IntOp.andi x v reducesTo_S80x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S20000x64 : Shape := ⟨2, ![20000, 64]⟩
abbrev S8192x16 : Shape := ⟨2, ![8192, 16]⟩
abbrev S80x64 : Shape := ⟨2, ![80, 64]⟩
abbrev S64 : Shape := ⟨1, ![64]⟩
abbrev S128x64 : Shape := ⟨2, ![128, 64]⟩
abbrev S8192 : Shape := ⟨1, ![8192]⟩
abbrev S_ : Shape := ⟨0, ![]⟩
abbrev S8192x1 : Shape := ⟨2, ![8192, 1]⟩
abbrev S8192x64 : Shape := ⟨2, ![8192, 64]⟩
abbrev S64x64 : Shape := ⟨2, ![64, 64]⟩
abbrev S16x64 : Shape := ⟨2, ![16, 64]⟩
abbrev S1x64 : Shape := ⟨2, ![1, 64]⟩
abbrev S2048x64 : Shape := ⟨2, ![2048, 64]⟩
abbrev S2048x16 : Shape := ⟨2, ![2048, 16]⟩
abbrev S1x8192 : Shape := ⟨2, ![1, 8192]⟩
abbrev S1024x1 : Shape := ⟨2, ![1024, 1]⟩
abbrev S1x1024 : Shape := ⟨2, ![1, 1024]⟩
abbrev S1024x64 : Shape := ⟨2, ![1024, 64]⟩
abbrev S1024x1024 : Shape := ⟨2, ![1024, 1024]⟩

abbrev nBuf : Space → Nat
  | .hbm => 44
  | .vmem => 31
  | .smem => 0
  | _ => 0

abbrev bufTy : (tb : Table) → Fin (tcTables nBuf tb) → BufTy
  | .hbm, ⟨0, _⟩ => ⟨S20000x64, .f32⟩
  | .hbm, ⟨1, _⟩ => ⟨S8192x16, .f32⟩
  | .hbm, ⟨2, _⟩ => ⟨S80x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x64, .f32⟩
  | .hbm, ⟨17, _⟩ => ⟨S64x64, .f32⟩
  | .hbm, ⟨18, _⟩ => ⟨S16x64, .f32⟩
  | .hbm, ⟨19, _⟩ => ⟨S1x64, .f32⟩
  | .hbm, ⟨20, _⟩ => ⟨S8192x64, .f32⟩
  | .hbm, ⟨21, _⟩ => ⟨S_, .f32⟩
  | .hbm, ⟨22, _⟩ => ⟨S20000x64, .f32⟩
  | .hbm, ⟨23, _⟩ => ⟨S8192x1, .i32⟩
  | .hbm, ⟨24, _⟩ => ⟨S20000x64, .f32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x64, .f32⟩
  | .hbm, ⟨34, _⟩ => ⟨S8192x1, .i32⟩
  | .hbm, ⟨35, _⟩ => ⟨S8192x1, .i32⟩
  | .hbm, ⟨36, _⟩ => ⟨S1x8192, .i32⟩
  | .hbm, ⟨37, _⟩ => ⟨S1x8192, .i32⟩
  | .hbm, ⟨38, _⟩ => ⟨S8192x64, .f32⟩
  | .hbm, ⟨39, _⟩ => ⟨S8192x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S8192x64, .f32⟩
  | .local _ .vmem, ⟨0, _⟩ => ⟨S2048x64, .f32⟩
  | .local _ .vmem, ⟨1, _⟩ => ⟨S2048x64, .f32⟩
  | .local _ .vmem, ⟨2, _⟩ => ⟨S2048x16, .f32⟩
  | .local _ .vmem, ⟨3, _⟩ => ⟨S2048x16, .f32⟩
  | .local _ .vmem, ⟨4, _⟩ => ⟨S64x64, .f32⟩
  | .local _ .vmem, ⟨5, _⟩ => ⟨S16x64, .f32⟩
  | .local _ .vmem, ⟨6, _⟩ => ⟨S1x64, .f32⟩
  | .local _ .vmem, ⟨7, _⟩ => ⟨S2048x64, .f32⟩
  | .local _ .vmem, ⟨8, _⟩ => ⟨S2048x64, .f32⟩
  | .local _ .vmem, ⟨9, _⟩ => ⟨S1024x1, .i32⟩
  | .local _ .vmem, ⟨10, _⟩ => ⟨S1024x1, .i32⟩
  | .local _ .vmem, ⟨11, _⟩ => ⟨S1024x1, .i32⟩
  | .local _ .vmem, ⟨12, _⟩ => ⟨S1024x1, .i32⟩
  | .local _ .vmem, ⟨13, _⟩ => ⟨S1x1024, .i32⟩
  | .local _ .vmem, ⟨14, _⟩ => ⟨S1x1024, .i32⟩
  | .local _ .vmem, ⟨15, _⟩ => ⟨S1x1024, .i32⟩
  | .local _ .vmem, ⟨16, _⟩ => ⟨S1x1024, .i32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1024x64, .f32⟩
  | .local _ .vmem, ⟨21, _⟩ => ⟨S1024x64, .f32⟩
  | .local _ .vmem, ⟨22, _⟩ => ⟨S2048x64, .f32⟩
  | .local _ .vmem, ⟨23, _⟩ => ⟨S2048x64, .f32⟩
  | .local _ .vmem, ⟨24, _⟩ => ⟨S2048x64, .f32⟩
  | .local _ .vmem, ⟨25, _⟩ => ⟨S2048x64, .f32⟩
  | .local _ .vmem, ⟨26, _⟩ => ⟨S64x64, .f32⟩
  | .local _ .vmem, ⟨27, _⟩ => ⟨S64x64, .f32⟩
  | .local _ .vmem, ⟨28, _⟩ => ⟨S1x64, .f32⟩
  | .local _ .vmem, ⟨29, _⟩ => ⟨S2048x64, .f32⟩
  | .local _ .vmem, ⟨30, _⟩ => ⟨S2048x64, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_14 : BitVec 32 := 0#32
  let v32 : BitVec 1 := Scalar.cmpi .ne v31 c0_i32_14
  v32

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2048x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S80x64_S64x64_0_0 : S80x64.Slices ![0, 0] S64x64
  slices_S80x64_S16x64_64_0 : S80x64.Slices ![64, 0] S16x64
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  bcast_S_S20000x64 : S_.BroadcastsInDim S20000x64 (![] : Fin 0 → Fin S20000x64.rank)
  shapeCasts_S8192_S8192x1 : S8192.ShapeCasts S8192x1
  shapeCasts_S8192_S1x8192 : S8192.ShapeCasts S1x8192
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  slices_S128x64_S64x64_0_0 : S128x64.Slices ![0, 0] S64x64
  slices_S128x64_S64x64_64_0 : S128x64.Slices ![64, 0] S64x64
  gather_S20000x64_S8192x1_S8192x64_1_0_n_n_0_1_164_wf : GatherDims.WF S20000x64 S8192x1 S8192x64 [1] [0] [] [0] [] 1 ![1, 64]
  dot_S2048x64_S64x64_S2048x64_1_0_0_1_n_n_wf : DotDims.WF S2048x64 S64x64 S2048x64 [1] [0] [0] [1] [] []
  dot_S2048x16_S16x64_S2048x64_1_0_0_1_n_n_wf : DotDims.WF S2048x16 S16x64 S2048x64 [1] [0] [0] [1] [] []
  scatter_S20000x64_S8192x1_S8192x64_1_0_0_1_wf : ScatterDims.WF S20000x64 S8192x1 S8192x64 [1] [0] [0] 1
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S8192x64.size a
  hwx0_0 : ∀ i : grid0.Coords, EltTy.bits .f32 = 32 ∨ (Rect.block (s := S8192x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S8192x16.size a
  hwx0_1 : ∀ i : grid0.Coords, EltTy.bits .f32 = 32 ∨ (Rect.block (s := S8192x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .f32 = 32 ∨ (Rect.block (s := S16x64) S16x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x64.size a ≤ S8192x64.size a
  hwx0_5 : ∀ i : grid0.Coords, EltTy.bits .f32 = 32 ∨ (Rect.block (s := S8192x64) S2048x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S8192x1.size a
  hwx1_0 : ∀ i : grid1.Coords, EltTy.bits .i32 = 32 ∨ (Rect.block (s := S8192x1) S1024x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S8192x1.size a
  hwx1_1 : ∀ i : grid1.Coords, EltTy.bits .i32 = 32 ∨ (Rect.block (s := S8192x1) S1024x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x8192.size a
  hwx1_2 : ∀ i : grid1.Coords, EltTy.bits .i32 = 32 ∨ (Rect.block (s := S1x8192) S1x1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .i32 = 32 ∨ (Rect.block (s := S1x8192) S1x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S8192x64.size a
  hwx1_4 : ∀ i : grid1.Coords, EltTy.bits .f32 = 32 ∨ (Rect.block (s := S8192x64) S1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S8192x64.size a
  hwx2_0 : ∀ i : grid2.Coords, EltTy.bits .f32 = 32 ∨ (Rect.block (s := S8192x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x64.size a ≤ S8192x64.size a
  hwx2_1 : ∀ i : grid2.Coords, EltTy.bits .f32 = 32 ∨ (Rect.block (s := S8192x64) S2048x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x64.size a ≤ S8192x64.size a
  hwx2_5 : ∀ i : grid2.Coords, EltTy.bits .f32 = 32 ∨ (Rect.block (s := S8192x64) S2048x64.size (cc2_transform_5 i) (hinb2_5 i)).WholeWords (EltTy.packing .f32)

variable [Facts₀]

def gather_S20000x64_S8192x1_S8192x64_1_0_n_n_0_1_164 : GatherDims S20000x64 S8192x1 S8192x64 where
  offsetDims := [1]
  collapsedSliceDims := [0]
  operandBatchingDims := []
  startIndicesBatchingDims := []
  startIndexMap := [0]
  indexVectorDim := 1
  sliceSizes := ![1, 64]
  wf := gather_S20000x64_S8192x1_S8192x64_1_0_n_n_0_1_164_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x16_S16x64_S2048x64_1_0_0_1_n_n : DotDims S2048x16 S16x64 S2048x64 where
  lhsContracting := [1]
  rhsContracting := [0]
  lhsNonContracting := [0]
  rhsNonContracting := [1]
  lhsBatch := []
  rhsBatch := []
  wf := dot_S2048x16_S16x64_S2048x64_1_0_0_1_n_n_wf
def scatter_S20000x64_S8192x1_S8192x64_1_0_0_1 : ScatterDims S20000x64 S8192x1 S8192x64 where
  updateWindowDims := [1]
  insertedWindowDims := [0]
  scatterDimsToOperandDims := [0]
  indexVectorDim := 1
  wf := scatter_S20000x64_S8192x1_S8192x64_1_0_0_1_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v6) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1024x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1024x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v10) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2048x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S2048x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S20000x64 : Shape := ⟨2, ![20000, 64]⟩
abbrev S8192x16 : Shape := ⟨2, ![8192, 16]⟩
abbrev S80x64 : Shape := ⟨2, ![80, 64]⟩
abbrev S64 : Shape := ⟨1, ![64]⟩
abbrev S128x64 : Shape := ⟨2, ![128, 64]⟩
abbrev S8192 : Shape := ⟨1, ![8192]⟩
abbrev S_ : Shape := ⟨0, ![]⟩
abbrev S8192x1 : Shape := ⟨2, ![8192, 1]⟩
abbrev S8192x64 : Shape := ⟨2, ![8192, 64]⟩
abbrev S8192x80 : Shape := ⟨2, ![8192, 80]⟩
abbrev S1x64 : Shape := ⟨2, ![1, 64]⟩
abbrev S1x8192 : Shape := ⟨2, ![1, 8192]⟩
abbrev S8192x8192 : Shape := ⟨2, ![8192, 8192]⟩
abbrev S8192x128 : Shape := ⟨2, ![8192, 128]⟩

abbrev nBuf : Space → Nat
  | .hbm => 54
  | .vmem => 0
  | .smem => 0
  | _ => 0

abbrev bufTy : (tb : Table) → Fin (tcTables nBuf tb) → BufTy
  | .hbm, ⟨0, _⟩ => ⟨S20000x64, .f32⟩
  | .hbm, ⟨1, _⟩ => ⟨S8192x16, .f32⟩
  | .hbm, ⟨2, _⟩ => ⟨S80x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i1⟩
  | .hbm, ⟨11, _⟩ => ⟨S_, .i32⟩
  | .hbm, ⟨12, _⟩ => ⟨S8192, .i32⟩
  | .hbm, ⟨13, _⟩ => ⟨S8192, .i32⟩
  | .hbm, ⟨14, _⟩ => ⟨S8192, .i32⟩
  | .hbm, ⟨15, _⟩ => ⟨S8192x1, .i32⟩
  | .hbm, ⟨16, _⟩ => ⟨S8192x64, .f32⟩
  | .hbm, ⟨17, _⟩ => ⟨S8192x80, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S_, .f32⟩
  | .hbm, ⟨23, _⟩ => ⟨S20000x64, .f32⟩
  | .hbm, ⟨24, _⟩ => ⟨S8192x1, .i32⟩
  | .hbm, ⟨25, _⟩ => ⟨S20000x64, .f32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S8192x1, .i32⟩
  | .hbm, ⟨34, _⟩ => ⟨S8192x64, .f32⟩
  | .hbm, ⟨35, _⟩ => ⟨S8192x1, .i32⟩
  | .hbm, ⟨36, _⟩ => ⟨S1x8192, .i32⟩
  | .hbm, ⟨37, _⟩ => ⟨S8192x8192, .i32⟩
  | .hbm, ⟨38, _⟩ => ⟨S8192x8192, .i32⟩
  | .hbm, ⟨39, _⟩ => ⟨S8192x8192, .i1⟩
  | .hbm, ⟨40, _⟩ => ⟨S8192x1, .i32⟩
  | .hbm, ⟨41, _⟩ => ⟨S1x8192, .i32⟩
  | .hbm, ⟨42, _⟩ => ⟨S8192x8192, .i32⟩
  | .hbm, ⟨43, _⟩ => ⟨S8192x8192, .i32⟩
  | .hbm, ⟨44, _⟩ => ⟨S8192x8192, .i1⟩
  | .hbm, ⟨45, _⟩ => ⟨S8192x8192, .i1⟩
  | .hbm, ⟨46, _⟩ => ⟨S8192x8192, .f32⟩
  | .hbm, ⟨47, _⟩ => ⟨S8192x64, .f32⟩
  | .hbm, ⟨48, _⟩ => ⟨S8192x64, .f32⟩
  | .hbm, ⟨49, _⟩ => ⟨S8192x128, .f32⟩
  | .hbm, ⟨50, _⟩ => ⟨S8192x64, .f32⟩
  | .hbm, ⟨51, _⟩ => ⟨S1x64, .f32⟩
  | .hbm, ⟨52, _⟩ => ⟨S8192x64, .f32⟩
  | .hbm, ⟨53, _⟩ => ⟨S8192x64, .f32⟩
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  concatenates_S8192x64_S8192x16_S8192x80_d1 : Shape.Concatenates [S8192x64, S8192x16] S8192x80 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S20000x64 : S_.BroadcastsInDim S20000x64 (![] : Fin 0 → Fin S20000x64.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  concatenates_S8192x64_S8192x64_S8192x128_d1 : Shape.Concatenates [S8192x64, S8192x64] S8192x128 1
  gather_S20000x64_S8192x1_S8192x64_1_0_n_n_0_1_164_wf : GatherDims.WF S20000x64 S8192x1 S8192x64 [1] [0] [] [0] [] 1 ![1, 64]
  dot_S8192x80_S80x64_S8192x64_1_0_0_1_n_n_wf : DotDims.WF S8192x80 S80x64 S8192x64 [1] [0] [0] [1] [] []
  scatter_S20000x64_S8192x1_S8192x64_1_0_0_1_wf : ScatterDims.WF S20000x64 S8192x1 S8192x64 [1] [0] [0] 1
  dot_S8192x8192_S8192x64_S8192x64_1_0_0_1_n_n_wf : DotDims.WF S8192x8192 S8192x64 S8192x64 [1] [0] [0] [1] [] []
  dot_S8192x128_S128x64_S8192x64_1_0_0_1_n_n_wf : DotDims.WF S8192x128 S128x64 S8192x64 [1] [0] [0] [1] [] []

variable [Facts₀]

def gather_S20000x64_S8192x1_S8192x64_1_0_n_n_0_1_164 : GatherDims S20000x64 S8192x1 S8192x64 where
  offsetDims := [1]
  collapsedSliceDims := [0]
  operandBatchingDims := []
  startIndicesBatchingDims := []
  startIndexMap := [0]
  indexVectorDim := 1
  sliceSizes := ![1, 64]
  wf := gather_S20000x64_S8192x1_S8192x64_1_0_n_n_0_1_164_wf
def dot_S8192x80_S80x64_S8192x64_1_0_0_1_n_n : DotDims S8192x80 S80x64 S8192x64 where
  lhsContracting := [1]
  rhsContracting := [0]
  lhsNonContracting := [0]
  rhsNonContracting := [1]
  lhsBatch := []
  rhsBatch := []
  wf := dot_S8192x80_S80x64_S8192x64_1_0_0_1_n_n_wf
def scatter_S20000x64_S8192x1_S8192x64_1_0_0_1 : ScatterDims S20000x64 S8192x1 S8192x64 where
  updateWindowDims := [1]
  insertedWindowDims := [0]
  scatterDimsToOperandDims := [0]
  indexVectorDim := 1
  wf := scatter_S20000x64_S8192x1_S8192x64_1_0_0_1_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.KB.DenseInit.lean ====
/-
  The first dense layer's region: at each of its 4 grid points the body reads a 2048-row block of each
  left factor and the two weight blocks and the bias whole, and stores the 2048-row block of
  `a · wa + b · wb + bias`. Nothing is carried from point to point, so the proof data is: every input
  window's staging buffer holds its array's block, the output window's holds the body's one stored value
  of those blocks. Stated at the region's entry contents `V`.
-/
import proofs.«156653_j12429635354789_1_alg».proof.Proof.Gen.Kernel.Launch
import proofs.«156653_j12429635354789_1_alg».proof.Proof.Gen.Kernel.Skeleton
import proofs.«156653_j12429635354789_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- What the body stores into the output block, of the five input blocks. -/
abbrev outBlock0 (x0 : Vec F S2048x64 .f32) (x1 : Vec F S2048x16 .f32) (x2 : Vec F S64x64 .f32) (x3 : Vec F S16x64 .f32) (x4 : Vec F S1x64 .f32) : Vec F S2048x64 .f32 :=
  k0_pay1 x0 x1 x2 x3 x4

set_option maxHeartbeats 4000000 in
/-- The body on whole staging memrefs, the inputs' at contents `x0 … x4` and the output's at anything, runs to the
    continuation with the inputs as they were and the output's buffer at `outBlock0` of them. -/
theorem sound_kernel0 (c : Dev nD) (E : Set ℕ) (i : grid0.Coords)
    (arg1 : Memref sig .tc .vmem S2048x64 .f32) (harg1 : arg1.IsWhole) (arg2 : Memref sig .tc .vmem S2048x16 .f32) (harg2 : arg2.IsWhole)
    (arg3 : Memref sig .tc .vmem S64x64 .f32) (harg3 : arg3.IsWhole) (arg4 : Memref sig .tc .vmem S16x64 .f32) (harg4 : arg4.IsWhole)
    (arg5 : Memref sig .tc .vmem S1x64 .f32) (harg5 : arg5.IsWhole) (arg6 : Memref sig .tc .vmem S2048x64 .f32) (harg6 : arg6.IsWhole)
    (x0 : Vec F S2048x64 .f32) (x1 : Vec F S2048x16 .f32) (x2 : Vec F S64x64 .f32) (x3 : Vec F S16x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock0 x0 x1 x2 x3 x4)) -∗ K ⟨⟩))
      ⊢ wp frame (wpE (defs₀ (F := F)) Variants.none c none) E (cc0__dense2_kernel i arg1 harg1 arg2 harg2 arg3 harg3 arg4 harg4 arg5 harg5 arg6 harg6) K := by
  simp only [cc0__dense2_kernel_eq_skeleton]; unfold cc0__dense2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ ?_).trans ?_
  · intro y; refine ⟨_, List.mem_singleton_self _, ?_⟩; dsimp only; exact View.mem_set_unit_zero hz _ y
  · rw [View.canon_unit_zero hz]
    simp only [View.readAt_eq_ld, View.ld_unit_zero (S := S2048x64) hz, View.ld_unit_zero (S := S2048x16) hz,
      View.ld_unit_zero (S := S64x64) hz, View.ld_unit_zero (S := S16x64) hz, View.ld_unit_zero (S := S1x64) hz]

/-- The proof data of this pipeline on core `c`: the arrays as the region finds them; after the body at point `t`
    each input's buffer at its block and the output's at `outBlock0` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outBlock0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = outBlock0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.ReverseAcc.lean ====
/-
  The reverse-edge region: a grid of 8 row blocks by 8 reduction steps. At reduction step 0 the body zeroes
  its accumulator; at every step it adds to it the product of the step's 1024 by 1024 block of 0/1 weights
  with the step's 1024 rows of edge states; at step 7 it copies the accumulator to the output block, which
  the pipeline then writes back. So the accumulator is carried from point to point, and the output window
  is left untouched at the seven earlier steps of each row block.
-/
import proofs.«156653_j12429635354789_1_alg».proof.Proof.Gen.Kernel.Launch
import proofs.«156653_j12429635354789_1_alg».proof.Proof.Gen.Kernel.Skeleton
import proofs.«156653_j12429635354789_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two branch conditions, in closed form over the grid -/

/-- The reduction step is the first: the accumulator is zeroed. -/
abbrev isFirst (i : grid1.Coords) : Prop :=
  (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)
/-- The reduction step is the last: the accumulator is copied out. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-- The output window is idle exactly off the last step, and there the pipeline does not write it back. -/
theorem idle5_of_not_last : ∀ t : Fin cfg1.N, ¬isLast (grid1.coords t) → cfg1.idle 5 (grid1.coords t) = true := by decide +kernel
theorem noFlush5_of_not_last : ∀ t : Fin cfg1.N, ¬isLast (grid1.coords t) → (cfg1.win 5).flush t = false := by decide +kernel
theorem live5_of_last : ∀ t : Fin cfg1.N, isLast (grid1.coords t) → cfg1.idle 5 (grid1.coords t) = false := by decide +kernel

/-! ## The body's triple, case by case -/

/-- The accumulator after a step that found `prev` in it (at step 0: the zeros just stored). -/
abbrev accStep (x0 x1 : Vec F S1024x1 .i32) (x2 x3 : Vec F S1x1024 .i32) (x4 prev : Vec F S1024x64 .f32) : Vec F S1024x64 .f32 :=
  k1_pay2 x0 x1 x2 x3 x4 prev

set_option maxHeartbeats 4000000 in
/-- Step 0 of a row block: whatever the accumulator held, it ends at one step over zeros; the output's buffer is not touched. -/
theorem sound_first (c : Dev nD) (E : Set ℕ) (i : grid1.Coords) (hF : isFirst i) (hL : ¬isLast i)
    (arg2 : Memref sig .tc .vmem S1024x1 .i32) (harg2 : arg2.IsWhole) (arg3 : Memref sig .tc .vmem S1024x1 .i32) (harg3 : arg3.IsWhole)
    (arg4 : Memref sig .tc .vmem S1x1024 .i32) (harg4 : arg4.IsWhole) (arg5 : Memref sig .tc .vmem S1x1024 .i32) (harg5 : arg5.IsWhole)
    (arg6 : Memref sig .tc .vmem S1024x64 .f32) (harg6 : arg6.IsWhole) (arg7 : Memref sig .tc .vmem S1024x64 .f32) (harg7 : arg7.IsWhole)
    (arg8 : Memref sig .tc .vmem S1024x64 .f32) (harg8 : arg8.IsWhole)
    (x0 x1 : Vec F S1024x1 .i32) (x2 x3 : Vec F S1x1024 .i32) (x4 : Vec F S1024x64 .f32) (xo : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xo ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xo ∗ owns (c : Thread nD τ) arg8 fullShare (accStep x0 x1 x2 x3 x4 (k1_pay1 (F := F)))) -∗ K ⟨⟩))
      ⊢ wp frame (wpE (defs₀ (F := F)) Variants.none c none) E (cc1__reverse_kernel i arg2 harg2 arg3 harg3 arg4 harg4 arg5 harg5 arg6 harg6 arg7 harg7 arg8 harg8) K := by
  simp only [cc1__reverse_kernel_eq_skeleton]; unfold cc1__reverse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | exact hF | exact hL)
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  sl_unfold_words
  refine (View.read_writes_eq_canon _ _ _ ?_).trans ?_
  · intro y; refine ⟨_, List.mem_cons.mpr (Or.inl rfl), ?_⟩; dsimp only; exact View.mem_set_unit_zero hz _ y
  · rw [View.canon_cons_unit_zero hz]
    simp only [View.readAt_eq_ld, View.ld_unit_zero (S := S1024x1) hz, View.ld_unit_zero (S := S1x1024) hz,
      View.ld_unit_zero (S := S1024x64) hz, View.readCov_unit_zero (S := S1024x64) _ hz]

set_option maxHeartbeats 4000000 in
/-- A middle step: the accumulator goes from `xs` to one step over `xs`; the output's buffer is not touched. -/
theorem sound_mid (c : Dev nD) (E : Set ℕ) (i : grid1.Coords) (hF : ¬isFirst i) (hL : ¬isLast i)
    (arg2 : Memref sig .tc .vmem S1024x1 .i32) (harg2 : arg2.IsWhole) (arg3 : Memref sig .tc .vmem S1024x1 .i32) (harg3 : arg3.IsWhole)
    (arg4 : Memref sig .tc .vmem S1x1024 .i32) (harg4 : arg4.IsWhole) (arg5 : Memref sig .tc .vmem S1x1024 .i32) (harg5 : arg5.IsWhole)
    (arg6 : Memref sig .tc .vmem S1024x64 .f32) (harg6 : arg6.IsWhole) (arg7 : Memref sig .tc .vmem S1024x64 .f32) (harg7 : arg7.IsWhole)
    (arg8 : Memref sig .tc .vmem S1024x64 .f32) (harg8 : arg8.IsWhole)
    (x0 x1 : Vec F S1024x1 .i32) (x2 x3 : Vec F S1x1024 .i32) (x4 : Vec F S1024x64 .f32) (xo xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xo ∗ owns (c : Thread nD τ) arg8 fullShare (accStep x0 x1 x2 x3 x4 xs)) -∗ K ⟨⟩))
      ⊢ wp frame (wpE (defs₀ (F := F)) Variants.none c none) E (cc1__reverse_kernel i arg2 harg2 arg3 harg3 arg4 harg4 arg5 harg5 arg6 harg6 arg7 harg7 arg8 harg8) K := by
  simp only [cc1__reverse_kernel_eq_skeleton]; unfold cc1__reverse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | exact hF | exact hL)
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  refine (View.read_writes_eq_canon _ _ _ ?_).trans ?_
  · intro y; refine ⟨_, List.mem_singleton_self _, ?_⟩; dsimp only; exact View.mem_set_unit_zero hz _ y
  · rw [View.canon_unit_zero hz]
    simp only [View.readAt_eq_ld, View.ld_unit_zero (S := S1024x1) hz, View.ld_unit_zero (S := S1x1024) hz,
      View.ld_unit_zero (S := S1024x64) hz, View.readCov_unit_zero (S := S1024x64) _ hz]

set_option maxHeartbeats 4000000 in
/-- The last step: the accumulator goes from `xs` to one step over `xs`, and the output's buffer ends holding the same. -/
theorem sound_last (c : Dev nD) (E : Set ℕ) (i : grid1.Coords) (hF : ¬isFirst i) (hL : isLast i)
    (arg2 : Memref sig .tc .vmem S1024x1 .i32) (harg2 : arg2.IsWhole) (arg3 : Memref sig .tc .vmem S1024x1 .i32) (harg3 : arg3.IsWhole)
    (arg4 : Memref sig .tc .vmem S1x1024 .i32) (harg4 : arg4.IsWhole) (arg5 : Memref sig .tc .vmem S1x1024 .i32) (harg5 : arg5.IsWhole)
    (arg6 : Memref sig .tc .vmem S1024x64 .f32) (harg6 : arg6.IsWhole) (arg7 : Memref sig .tc .vmem S1024x64 .f32) (harg7 : arg7.IsWhole)
    (arg8 : Memref sig .tc .vmem S1024x64 .f32) (harg8 : arg8.IsWhole)
    (x0 x1 : Vec F S1024x1 .i32) (x2 x3 : Vec F S1x1024 .i32) (x4 : Vec F S1024x64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (accStep x0 x1 x2 x3 x4 xs) ∗ owns (c : Thread nD τ) arg8 fullShare (accStep x0 x1 x2 x3 x4 xs)) -∗ K ⟨⟩))
      ⊢ wp frame (wpE (defs₀ (F := F)) Variants.none c none) E (cc1__reverse_kernel i arg2 harg2 arg3 harg3 arg4 harg4 arg5 harg5 arg6 harg6 arg7 harg7 arg8 harg8) K := by
  simp only [cc1__reverse_kernel_eq_skeleton]; unfold cc1__reverse_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | exact hF | exact hL)
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_words
    refine (View.read_writes_eq_canon _ _ _ ?_).trans ?_
    · intro y; refine ⟨_, List.mem_singleton_self _, ?_⟩; dsimp only; exact View.mem_set_unit_zero hz _ y
    · rw [View.canon_unit_zero hz]
      simp only [View.readAt_eq_ld, View.ld_unit_zero (S := S1024x1) hz, View.ld_unit_zero (S := S1x1024) hz,
      View.ld_unit_zero (S := S1024x64) hz, View.readCov_unit_zero (S := S1024x64) _ hz]
  iexists _; isplitr
  swap; · iexact H6
  ipureintro
  sl_unfold_words
  refine (View.read_writes_eq_canon _ _ _ ?_).trans ?_
  · intro y; refine ⟨_, List.mem_singleton_self _, ?_⟩; dsimp only; exact View.mem_set_unit_zero hz _ y
  · rw [View.canon_unit_zero hz]
    simp only [View.readAt_eq_ld, View.ld_unit_zero (S := S1024x1) hz, View.ld_unit_zero (S := S1x1024) hz,
      View.ld_unit_zero (S := S1024x64) hz, View.readCov_unit_zero (S := S1024x64) _ hz]

/-! ## The windows' blocks, the accumulator point by point, the invariant, the proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- One step at point `t`'s input blocks over an accumulator `prev`. -/
abbrev stepAt (c : Dev nD) (t : Fin cfg1.N) (prev : Vec F S1024x64 .f32) : Vec F S1024x64 .f32 :=
  accStep (iblk1 V c 0 t) (iblk1 V c 1 t) (iblk1 V c 2 t) (iblk1 V c 3 t) (iblk1 V c 4 t) prev

/-- THE ACCUMULATION: what the accumulator holds after the body at position `n`. At a first reduction step it is
    one step over zeros; otherwise one step over what position `n - 1` left. -/
def accAt (c : Dev nD) : (n : ℕ) → n < cfg1.N → Vec F S1024x64 .f32
  | 0, hn => stepAt V c ⟨0, hn⟩ (k1_pay1 (F := F))
  | n + 1, hn => stepAt V c ⟨n + 1, hn⟩ (if (n + 1) % 8 = 0 then k1_pay1 (F := F) else accAt c n (Nat.lt_of_succ_lt hn))

theorem accAt_first (c : Dev nD) (t : Fin cfg1.N) (h : t.val % 8 = 0) :
    accAt V c t.val t.isLt = stepAt V c t (k1_pay1 (F := F)) := by
  obtain ⟨n, hn⟩ := t
  cases n with
  | zero => rfl
  | succ n => show stepAt V c ⟨n + 1, hn⟩ (if (n + 1) % 8 = 0 then _ else _) = _; rw [if_pos h]

theorem accAt_next (c : Dev nD) (t : Fin cfg1.N) (h : ¬t.val % 8 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => show stepAt V c ⟨n + 1, hn⟩ (if (n + 1) % 8 = 0 then _ else _) = _; rw [if_neg h]; rfl

/-- The accumulator as a memref: the kernel's own scoped buffer, passed whole beside the windows. -/
abbrev accM : Memref sig .tc .vmem S1024x64 .f32 := Memref.whole cc1_scratch0

/-- The core's scoped buffers other than this region's staging buffers and its accumulator, at anything. -/
abbrev restBut (c : Dev nD) : sProp 𝕄 :=
  Pipeline.scopedRestBut (Ix := Unit) (Name := ℕ) (U := UR sig nD τ) (Lvl := ℕ) (Val := Elt F) spec1 c [cc1_scratch0]

/-- The class invariant with the accumulator split out of the scoped rest. -/
theorem PhiA1_eq (c : Dev nD) :
    (Pipeline.ΦA spec1 c : sProp 𝕄)
      = iprop(iprop((∃ d, owns (c : Thread nD τ) accM fullShare d) ∗ restBut c) ∗ (∃ r, prngReg c r)) := by
  unfold Pipeline.ΦA
  rw [Pipeline.scopedRest_split_of_list (win := spec1) (c := c) [cc1_scratch0] (by decide) (by decide)]
  simp only [bigSepL_singleton, accM, owns_whole]
  try rfl

/-- The region's invariant before position `n`: before the first point the class's (the accumulator at anything);
    afterwards the accumulator at what the point before left in it, the other scoped buffers at anything, the
    generator register at some state. -/
def PhiS (c : Dev nD) : (n : ℕ) → n ≤ cfg1.N → sProp 𝕄
  | 0, _ => Pipeline.ΦA spec1 c
  | n + 1, hn => iprop(iprop(owns (c : Thread nD τ) accM fullShare (accAt V c n hn) ∗ restBut c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) accM fullShare (accAt V c n hn) ∗ restBut c) ∗ (∃ r, prngReg c r)) := rfl
theorem PhiS_pos (c : Dev nD) (n : ℕ) (h : n ≤ cfg1.N) (hz : n ≠ 0) :
    PhiS V c n h = iprop(iprop(owns (c : Thread nD τ) accM fullShare (accAt V c (n - 1) (by omega)) ∗ restBut c) ∗ (∃ r, prngReg c r)) := by
  cases n with
  | zero => exact absurd rfl hz
  | succ n => rfl

/-- The proof data of this pipeline on core `c`: the arrays as the region finds them; after the body at point `t`
    each input's buffer at its block and the output's at the accumulator's contents there (read only at the last
    reduction steps: elsewhere the window is idle); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem PhiS_castSucc (c : Dev nD) (t : Fin cfg1.N) :
    (dat1 V c).Φ t.castSucc = PhiS V c t.val (Nat.le_of_lt t.isLt) := by
  dsimp only [dat1]; simp only [Fin.coe_castSucc]

/-- What the launch hands the region is the invariant before the first point. -/
theorem Phi_in1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem Phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HS, Hr⟩, Hg⟩
  isplitl [HS Hr]
  · isplitl [HS]
    · iexists _; iexact HS
    iexact Hr
  iexact Hg

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: each window's buffer at what the body leaves, the output's handed back as found where the
    window is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' memrefs hold their blocks; the point's place in its row block's eight
    reduction steps says which case of the body's triple applies; the invariant hands the body the accumulator at
    what the point before left (at anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [
    show (dat1 V c).leavesExact 0 t = owns (c : Thread nD τ) (st1_0 t) fullShare ((dat1 V c).after 0 t) from by
      unfold Dat.leavesExact; rfl,
    show (dat1 V c).leavesExact 1 t = owns (c : Thread nD τ) (st1_1 t) fullShare ((dat1 V c).after 1 t) from by
      unfold Dat.leavesExact; rfl,
    show (dat1 V c).leavesExact 2 t = owns (c : Thread nD τ) (st1_2 t) fullShare ((dat1 V c).after 2 t) from by
      unfold Dat.leavesExact; rfl,
    show (dat1 V c).leavesExact 3 t = owns (c : Thread nD τ) (st1_3 t) fullShare ((dat1 V c).after 3 t) from by
      unfold Dat.leavesExact; rfl,
    show (dat1 V c).leavesExact 4 t = owns (c : Thread nD τ) (st1_4 t) fullShare ((dat1 V c).after 4 t) from by
      unfold Dat.leavesExact; rfl]
  rw [after1_0, after1_1, after1_2, after1_3, after1_4]
  have hN : t.val < 64 := lt_of_lt_of_eq t.isLt (show cfg1.N = 64 from N_1)
  by_cases hF : t.val % 8 = 0
  · have hL : ¬t.val % 8 = 7 := by omega
    have hF' : isFirst (grid1.coords t) := (isFirst_iff t).mpr hF
    have hL' : ¬isLast (grid1.coords t) := fun h => hL ((isLast_iff t).mp h)
    rw [Dat.leavesExact_idle (dat1 V c) 5 t (idle5_of_not_last t hL') (noFlush5_of_not_last t hL')]
    rw [accAt_first V c t hF]
    by_cases hz : t.val = 0
    · rw [PhiS_castSucc V c t, PhiS_zero V c _ _ hz, PhiA1_eq]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_first c Set.univ (grid1.coords t) hF' hL' _ _ _ _ _ _ _ _ _ _ _ _ _ _ (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_first c Set.univ (grid1.coords t) hF' hL' _ _ _ _ _ _ _ _ _ _ _ _ _ _ (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hF' : ¬isFirst (grid1.coords t) := fun h => hF ((isFirst_iff t).mp h)
    have hz : t.val ≠ 0 := fun h => hF (by rw [h])
    by_cases hL : t.val % 8 = 7
    · have hL' : isLast (grid1.coords t) := (isLast_iff t).mpr hL
      rw [show (dat1 V c).leavesExact 5 t = owns (c : Thread nD τ) (st1_5 t) fullShare ((dat1 V c).after 5 t) from by
        unfold Dat.leavesExact; rw [live5_of_last t hL'], after1_5]
      rw [accAt_next V c t hF]
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_last c Set.univ (grid1.coords t) hF' hL' _ _ _ _ _ _ _ _ _ _ _ _ _ _ (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL' : ¬isLast (grid1.coords t) := fun h => hL ((isLast_iff t).mp h)
      rw [Dat.leavesExact_idle (dat1 V c) 5 t (idle5_of_not_last t hL') (noFlush5_of_not_last t hL')]
      rw [accAt_next V c t hF]
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_mid c Set.univ (grid1.coords t) hF' hL' _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.DenseUpd.lean ====
/-
  The last dense layer's region: at each of its 4 grid points the body reads a 2048-row block of each
  left factor and the two weight blocks and the bias whole, and stores the 2048-row block of
  `a · wa + b · wb + bias`. Nothing is carried from point to point, so the proof data is: every input
  window's staging buffer holds its array's block, the output window's holds the body's one stored value
  of those blocks. Stated at the region's entry contents `V`.
-/
import proofs.«156653_j12429635354789_1_alg».proof.Proof.Gen.Kernel.Launch
import proofs.«156653_j12429635354789_1_alg».proof.Proof.Gen.Kernel.Skeleton
import proofs.«156653_j12429635354789_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body stores into the output block, of the five input blocks. -/
abbrev outBlock2 (x0 : Vec F S2048x64 .f32) (x1 : Vec F S2048x64 .f32) (x2 : Vec F S64x64 .f32) (x3 : Vec F S64x64 .f32) (x4 : Vec F S1x64 .f32) : Vec F S2048x64 .f32 :=
  k2_pay1 x0 x1 x2 x3 x4

set_option maxHeartbeats 4000000 in
/-- The body on whole staging memrefs, the inputs' at contents `x0 … x4` and the output's at anything, runs to the
    continuation with the inputs as they were and the output's buffer at `outBlock2` of them. -/
theorem sound_kernel2 (c : Dev nD) (E : Set ℕ) (i : grid2.Coords)
    (arg1 : Memref sig .tc .vmem S2048x64 .f32) (harg1 : arg1.IsWhole) (arg2 : Memref sig .tc .vmem S2048x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S2048x64 .f32) (harg6 : arg6.IsWhole)
    (x0 : Vec F S2048x64 .f32) (x1 : Vec F S2048x64 .f32) (x2 : Vec F S64x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock2 x0 x1 x2 x3 x4)) -∗ K ⟨⟩))
      ⊢ wp frame (wpE (defs₀ (F := F)) Variants.none c none) E (cc2__dense2_kernel i arg1 harg1 arg2 harg2 arg3 harg3 arg4 harg4 arg5 harg5 arg6 harg6) K := by
  simp only [cc2__dense2_kernel_eq_skeleton]; unfold cc2__dense2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ ?_).trans ?_
  · intro y; refine ⟨_, List.mem_singleton_self _, ?_⟩; dsimp only; exact View.mem_set_unit_zero hz _ y
  · rw [View.canon_unit_zero hz]
    simp only [View.readAt_eq_ld, View.ld_unit_zero (S := S2048x64) hz, View.ld_unit_zero (S := S2048x64) hz,
      View.ld_unit_zero (S := S64x64) hz, View.ld_unit_zero (S := S64x64) hz, View.ld_unit_zero (S := S1x64) hz]

/-- The proof data of this pipeline on core `c`: the arrays as the region finds them; after the body at point `t`
    each input's buffer at its block and the output's at `outBlock2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outBlock2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = outBlock2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KB.ThreeRegions.lean ====
/-
  The whole program as six items in order: host stretch, first dense layer, host stretch, reverse-edge
  region, host stretch, last dense layer. The buffers' contents at every boundary are a fold from the launch
  memory: a host stretch applies its operations; a region leaves its output array at what its write-backs fold
  to and everything else as it found it. Every weakly fair execution terminates with every unscoped buffer at
  the last boundary's contents: the arguments as launched, the result at the last layer's output.
-/
import proofs.«156653_j12429635354789_1_alg».proof.Proof.KB.DenseInit
import proofs.«156653_j12429635354789_1_alg».proof.Proof.KB.ReverseAcc
import proofs.«156653_j12429635354789_1_alg».proof.Proof.KB.DenseUpd
import proofs.«156653_j12429635354789_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev bnd0 (c : Dev nD) : Valuation τ sig (Elt F) := fun b => m (c, b)

/-- After host stretch 0 (region 0's entry). -/
abbrev bnd1 (c : Dev nD) : Valuation τ sig (Elt F) := StableHlo.after hostOps0 (bnd0 m c)
/-- The same read at the TensorCore's references: what region 0's proof data take. -/
abbrev ent1 : (c : Dev nD) → (b : Ref sig .tc) → Buf (Elt F) ((c : Thread nD τ).loc b) := fun c b => bnd1 m c b
/-- At region 0's exit: its arrays at what the pipeline leaves (the inputs as entered, the output's write-backs
    folded), every other buffer as entered. -/
def bnd2 (c : Dev nD) : Valuation τ sig (Elt F) :=
  Pipeline.withArrays spec0 c (bnd1 m c) fun w => (dat0 (ent1 m) c).arrAt w cfg0.N
theorem bnd2_arr (c : Dev nD) (w : Fin cfg0.W) :
    bnd2 m c (Proc.devRef .tc (Pipeline.arrRef spec0 w)) = (dat0 (ent1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
/-- The same read at the TensorCore's references (region 0's exit contents). -/
abbrev ext2 : (c : Dev nD) → (b : Ref sig .tc) → Buf (Elt F) ((c : Thread nD τ).loc b) := fun c b => bnd2 m c b
theorem hexit0_arr (c : Dev nD) (w : Fin cfg0.W) : (dat0 (ent1 m) c).arrAt w cfg0.N = ext2 m c (Pipeline.arrRef spec0 w) :=
  (bnd2_arr m c w).symm
theorem hexit0_rest (c : Dev nD) : ∀ b, b ∉ Finset.univ.image (Pipeline.arrRef spec0) → ext2 m c b = ent1 m c b :=
  fun b hb => bnd2_of_ne m c b fun w e => hb (Finset.mem_image.mpr ⟨w, Finset.mem_univ _, e⟩)

/-- After host stretch 1 (region 1's entry). -/
abbrev bnd3 (c : Dev nD) : Valuation τ sig (Elt F) := StableHlo.after hostOps1 (bnd2 m c)
/-- The same read at the TensorCore's references: what region 1's proof data take. -/
abbrev ent3 : (c : Dev nD) → (b : Ref sig .tc) → Buf (Elt F) ((c : Thread nD τ).loc b) := fun c b => bnd3 m c b
/-- At region 1's exit: its arrays at what the pipeline leaves (the inputs as entered, the output's write-backs
    folded), every other buffer as entered. -/
def bnd4 (c : Dev nD) : Valuation τ sig (Elt F) :=
  Pipeline.withArrays spec1 c (bnd3 m c) fun w => (dat1 (ent3 m) c).arrAt w cfg1.N
theorem bnd4_arr (c : Dev nD) (w : Fin cfg1.W) :
    bnd4 m c (Proc.devRef .tc (Pipeline.arrRef spec1 w)) = (dat1 (ent3 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
/-- The same read at the TensorCore's references (region 1's exit contents). -/
abbrev ext4 : (c : Dev nD) → (b : Ref sig .tc) → Buf (Elt F) ((c : Thread nD τ).loc b) := fun c b => bnd4 m c b
theorem hexit1_arr (c : Dev nD) (w : Fin cfg1.W) : (dat1 (ent3 m) c).arrAt w cfg1.N = ext4 m c (Pipeline.arrRef spec1 w) :=
  (bnd4_arr m c w).symm
theorem hexit1_rest (c : Dev nD) : ∀ b, b ∉ Finset.univ.image (Pipeline.arrRef spec1) → ext4 m c b = ent3 m c b :=
  fun b hb => bnd4_of_ne m c b fun w e => hb (Finset.mem_image.mpr ⟨w, Finset.mem_univ _, e⟩)

/-- After host stretch 2 (region 2's entry). -/
abbrev bnd5 (c : Dev nD) : Valuation τ sig (Elt F) := StableHlo.after hostOps2 (bnd4 m c)
/-- The same read at the TensorCore's references: what region 2's proof data take. -/
abbrev ent5 : (c : Dev nD) → (b : Ref sig .tc) → Buf (Elt F) ((c : Thread nD τ).loc b) := fun c b => bnd5 m c b
/-- At region 2's exit: its arrays at what the pipeline leaves (the inputs as entered, the output's write-backs
    folded), every other buffer as entered. -/
def bnd6 (c : Dev nD) : Valuation τ sig (Elt F) :=
  Pipeline.withArrays spec2 c (bnd5 m c) fun w => (dat2 (ent5 m) c).arrAt w cfg2.N
theorem bnd6_arr (c : Dev nD) (w : Fin cfg2.W) :
    bnd6 m c (Proc.devRef .tc (Pipeline.arrRef spec2 w)) = (dat2 (ent5 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb
/-- The same read at the TensorCore's references (region 2's exit contents). -/
abbrev ext6 : (c : Dev nD) → (b : Ref sig .tc) → Buf (Elt F) ((c : Thread nD τ).loc b) := fun c b => bnd6 m c b
theorem hexit2_arr (c : Dev nD) (w : Fin cfg2.W) : (dat2 (ent5 m) c).arrAt w cfg2.N = ext6 m c (Pipeline.arrRef spec2 w) :=
  (bnd6_arr m c w).symm
theorem hexit2_rest (c : Dev nD) : ∀ b, b ∉ Finset.univ.image (Pipeline.arrRef spec2) → ext6 m c b = ent5 m c b :=
  fun b hb => bnd6_of_ne m c b fun w e => hb (Finset.mem_image.mpr ⟨w, Finset.mem_univ _, e⟩)

/-! ## The proof data family and what rides beside the buffers -/

/-- No pipeline has a prefetched table. -/
abbrev noTables : (p : Fin 3) → (pcfgs (F := F) p).Adm := fun p => (cfgs p).toPCfg_adm
/-- Every pipeline's proof data, each at its region's entry contents. -/
def pdat : (p : Fin 3) → (c : Dev nD) → Dat τ (Elt F) Unit ℕ (UR sig nD τ) ℕ (Pipeline.pin (pcfgs (F := F)) noTables p) c
  | ⟨0, _⟩ => fun c => dat0 (ent1 m) c
  | ⟨1, _⟩ => fun c => dat1 (ent3 m) c
  | ⟨2, _⟩ => fun c => dat2 (ent5 m) c
abbrev 𝒱n : Variants := Variants.none
/-- No core owes another anything: no level is assigned. -/
abbrev Ln : GSem nD τ sig → Finset Unit := fun _ => ∅
abbrev lvn : GSem nD τ sig → Unit → ℕ := fun _ _ => 0
/-- Beside the buffers through every item: the generator register at some state and the core's dues, at nothing. -/
abbrev Rest (c : Dev nD) : sProp 𝕄 := iprop((∃ r, prngReg c r) ∗ ∃ W, owes (c : Thread nD τ) (0 : CellTallies nD τ sig Unit) W)
/-- A host stretch as an item, over the unscoped references from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- The last thread state without the dues: every unscoped buffer at the last boundary's contents, the register at some state. -/
abbrev Tlast (c : Dev nD) : sProp 𝕄 := iprop(StableHlo.held (c : Thread nD τ) (Pipeline.ucRefs τ sig) (bnd6 m c) ∗ ∃ r, prngReg c r)

/-! ## The regions as items -/

set_option backward.isDefEq.respectTransparency.types false in
/-- Region 0 over the thread state: entered from every unscoped buffer at `bnd1`, left at `bnd2`. Its arrays are
    split out of the unscoped buffers and put back at the exit contents; the generator register and the scoped rest go
    into the region's invariant and come back; nothing is owed; the kernel has no semaphore of its own. -/
def reg0 : Pipeline.RegionSeg (pcfgs (F := F)) noTables (pdat m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (ent1 m) c).loose
  hwaits := Pipeline.hwaits_of_owed_zero _ _ _ _ Ln lvn 0 fun _ _ => rfl
  pre c := iprop(StableHlo.held (c : Thread nD τ) (Pipeline.ucRefs τ sig) (bnd1 m c) ∗ Rest c)
  post c := iprop(StableHlo.held (c : Thread nD τ) (Pipeline.ucRefs τ sig) (bnd2 m c) ∗ Rest c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) noTables (pdat m) launch0.win launch0.arr_whole c
      ((pdat m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdat m) ((pdat m 0 c).share_full fun _ => rfl)
      (ent1 m c) (ext2 m c) ((pdat m 0 c).arrAt · cfg0.N) (hexit0_arr m c) (hexit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `bnd3`, left at `bnd4`. Its arrays are
    split out of the unscoped buffers and put back at the exit contents; the generator register and the scoped rest go
    into the region's invariant and come back; nothing is owed; the kernel has no semaphore of its own. -/
def reg1 : Pipeline.RegionSeg (pcfgs (F := F)) noTables (pdat m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (ent3 m) c).loose
  hwaits := Pipeline.hwaits_of_owed_zero _ _ _ _ Ln lvn 1 fun _ _ => rfl
  pre c := iprop(StableHlo.held (c : Thread nD τ) (Pipeline.ucRefs τ sig) (bnd3 m c) ∗ Rest c)
  post c := iprop(StableHlo.held (c : Thread nD τ) (Pipeline.ucRefs τ sig) (bnd4 m c) ∗ Rest c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) noTables (pdat m) launch1.win launch1.arr_whole c
      ((pdat m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = (dat1 (ent3 m) c).Φ 0 from rfl]
    have h := Phi_in1 (ent3 m) c
    unfold Pipeline.ΦA at h
    iintro ⟨Hp, -, Hr⟩
    iapply h
    isplitl [Hr]; · iexact Hr
    iexact Hp
  hout c := by
    rw [Pipeline.ownSems0_none, show (pdat m 1 c).Φ (Fin.last _) = (dat1 (ent3 m) c).Φ (Fin.last cfg1.N) from rfl]
    have h := Phi_out1 (ent3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdat m) ((pdat m 1 c).share_full fun _ => rfl)
      (ent3 m c) (ext4 m c) ((pdat m 1 c).arrAt · cfg1.N) (hexit1_arr m c) (hexit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `bnd5`, left at `bnd6`. Its arrays are
    split out of the unscoped buffers and put back at the exit contents; the generator register and the scoped rest go
    into the region's invariant and come back; nothing is owed; the kernel has no semaphore of its own. -/
def reg2 : Pipeline.RegionSeg (pcfgs (F := F)) noTables (pdat m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (ent5 m) c).loose
  hwaits := Pipeline.hwaits_of_owed_zero _ _ _ _ Ln lvn 2 fun _ _ => rfl
  pre c := iprop(StableHlo.held (c : Thread nD τ) (Pipeline.ucRefs τ sig) (bnd5 m c) ∗ Rest c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (ent5 m c)
  hentry c := by
    rw [Pipeline.ownSems0_none]
    have hsplit := Pipeline.arrays_of_unscopedBufs (p := 2) (pcfgs (F := F)) noTables (pdat m) launch2.win launch2.arr_whole c
      ((pdat m 2 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdat m) ((pdat m 2 c).share_full fun _ => rfl)
      (ent5 m c) (ext6 m c) ((pdat m 2 c).arrAt · cfg2.N) (hexit2_arr m c) (hexit2_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the run -/

abbrev items : List (Pipeline.Seg (pcfgs (F := F)) noTables (pdat m) () defs₀ 𝒱n Ln lvn) :=
  [ .host (hostItem hostOps0 hostOps0_sub hostOps0_fresh (bnd0 m)),
    .region (reg0 m),
    .host (hostItem hostOps1 hostOps1_sub hostOps1_fresh (bnd2 m)),
    .region (reg1 m),
    .host (hostItem hostOps2 hostOps2_sub hostOps2_fresh (bnd4 m)),
    .region (reg2 m) ]

theorem main_items (c : Dev nD) : main (F := F) c = Pipeline.Seg.run (items m) := (main_chain c).trans (by chain_rfl)

set_option backward.isDefEq.respectTransparency.types false in
/-- THE RUN: from any memory with zero counters every weakly fair execution of the program terminates, nothing
    faulting, and every final state holds every unscoped buffer at the last boundary's contents. -/
theorem run_named (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = bnd6 m c b) :=
  Pipeline.θ_run_regions_kit (pcfgs (F := F)) noTables (pdat m) () cellOf_inj emb₁ defs₀ 𝒱n Ln lvn m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ Rest c)) (Tₙ := Tlast m)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd6 m c b)
    (hfin := fun c s' => by
      iintro ⟨⟨Hh, -⟩, HSI⟩
      unfold StableHlo.held
      imodintro
      iapply (pointsTo_read_all (Pipeline.ucRefs τ sig) (fun b => (((c : Thread nD τ)).1, b)) (bnd6 m c) s')
      isplitl [Hh] <;> iassumption)
    (hQ := fun s h c => h c)

end Cert.Kernel.Hand

end
-- ==== Proof.KB.ArgsKept.lean ====
/-
  What the run leaves where the claims look: no host stretch writes an argument array and no region's
  output window is one, so each argument is read back through the boundaries to its launch contents; the
  result array is the last dense layer's output window at the last boundary.
-/
import proofs.«156653_j12429635354789_1_alg».proof.Proof.KB.ThreeRegions

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A host stretch leaves every buffer it does not write. -/
theorem bnd1_keep (c : Dev nD) (r : Ref sig .tc) (h : r ∉ hostOps0_W) : bnd1 m c r = bnd0 m c r :=
  StableHlo.after_of_writes_sub hostOps0 _ hostOps0_writes h
theorem bnd3_keep (c : Dev nD) (r : Ref sig .tc) (h : r ∉ hostOps1_W) : bnd3 m c r = bnd2 m c r :=
  StableHlo.after_of_writes_sub hostOps1 _ hostOps1_writes h
theorem bnd5_keep (c : Dev nD) (r : Ref sig .tc) (h : r ∉ hostOps2_W) : bnd5 m c r = bnd4 m c r :=
  StableHlo.after_of_writes_sub hostOps2 _ hostOps2_writes h

theorem kept_main_arg0 (c : Dev nD) : bnd6 m c (Proc.devRef .tc main_arg0) = m ((c : Thread nD τ).loc main_arg0) :=
  (bnd6_of_ne m c main_arg0 (by decide)).trans <| (bnd5_keep m c main_arg0 (by decide)).trans <| (bnd4_of_ne m c main_arg0 (by decide)).trans <|
    (bnd3_keep m c main_arg0 (by decide)).trans <| (bnd2_of_ne m c main_arg0 (by decide)).trans <| (bnd1_keep m c main_arg0 (by decide)).trans rfl

theorem kept_main_arg1 (c : Dev nD) : bnd6 m c (Proc.devRef .tc main_arg1) = m ((c : Thread nD τ).loc main_arg1) :=
  (bnd6_of_ne m c main_arg1 (by decide)).trans <| (bnd5_keep m c main_arg1 (by decide)).trans <| (bnd4_of_ne m c main_arg1 (by decide)).trans <|
    (bnd3_keep m c main_arg1 (by decide)).trans <|
    ((bnd2_arr m c 1).trans (((dat0 (ent1 m) c).arrAt_in 1 rfl _).trans (A_eq0 (ent1 m) c 1))).trans <| (bnd1_keep m c main_arg1 (by decide)).trans rfl

theorem kept_main_arg2 (c : Dev nD) : bnd6 m c (Proc.devRef .tc main_arg2) = m ((c : Thread nD τ).loc main_arg2) :=
  (bnd6_of_ne m c main_arg2 (by decide)).trans <| (bnd5_keep m c main_arg2 (by decide)).trans <| (bnd4_of_ne m c main_arg2 (by decide)).trans <|
    (bnd3_keep m c main_arg2 (by decide)).trans <| (bnd2_of_ne m c main_arg2 (by decide)).trans <| (bnd1_keep m c main_arg2 (by decide)).trans rfl

theorem kept_main_arg3 (c : Dev nD) : bnd6 m c (Proc.devRef .tc main_arg3) = m ((c : Thread nD τ).loc main_arg3) :=
  (bnd6_of_ne m c main_arg3 (by decide)).trans <| (bnd5_keep m c main_arg3 (by decide)).trans <| (bnd4_of_ne m c main_arg3 (by decide)).trans <|
    (bnd3_keep m c main_arg3 (by decide)).trans <| (bnd2_of_ne m c main_arg3 (by decide)).trans <| (bnd1_keep m c main_arg3 (by decide)).trans rfl

theorem kept_main_arg4 (c : Dev nD) : bnd6 m c (Proc.devRef .tc main_arg4) = m ((c : Thread nD τ).loc main_arg4) :=
  (bnd6_of_ne m c main_arg4 (by decide)).trans <| (bnd5_keep m c main_arg4 (by decide)).trans <| (bnd4_of_ne m c main_arg4 (by decide)).trans <|
    (bnd3_keep m c main_arg4 (by decide)).trans <| (bnd2_of_ne m c main_arg4 (by decide)).trans <| (bnd1_keep m c main_arg4 (by decide)).trans rfl

theorem kept_main_arg5 (c : Dev nD) : bnd6 m c (Proc.devRef .tc main_arg5) = m ((c : Thread nD τ).loc main_arg5) :=
  (bnd6_of_ne m c main_arg5 (by decide)).trans <| (bnd5_keep m c main_arg5 (by decide)).trans <| (bnd4_of_ne m c main_arg5 (by decide)).trans <|
    (bnd3_keep m c main_arg5 (by decide)).trans <| (bnd2_of_ne m c main_arg5 (by decide)).trans <| (bnd1_keep m c main_arg5 (by decide)).trans rfl

theorem kept_main_arg6 (c : Dev nD) : bnd6 m c (Proc.devRef .tc main_arg6) = m ((c : Thread nD τ).loc main_arg6) :=
  (bnd6_of_ne m c main_arg6 (by decide)).trans <| (bnd5_keep m c main_arg6 (by decide)).trans <| (bnd4_of_ne m c main_arg6 (by decide)).trans <|
    (bnd3_keep m c main_arg6 (by decide)).trans <| (bnd2_of_ne m c main_arg6 (by decide)).trans <| (bnd1_keep m c main_arg6 (by decide)).trans rfl

theorem kept_main_arg7 (c : Dev nD) : bnd6 m c (Proc.devRef .tc main_arg7) = m ((c : Thread nD τ).loc main_arg7) :=
  (bnd6_of_ne m c main_arg7 (by decide)).trans <| (bnd5_keep m c main_arg7 (by decide)).trans <| (bnd4_of_ne m c main_arg7 (by decide)).trans <|
    (bnd3_keep m c main_arg7 (by decide)).trans <| (bnd2_of_ne m c main_arg7 (by decide)).trans <| (bnd1_keep m c main_arg7 (by decide)).trans rfl

/-- The result array at the last boundary is the last dense layer's output after its four write-backs. -/
theorem result_main_v30 (c : Dev nD) : bnd6 m c (Proc.devRef .tc main_v30) = (dat2 (ent5 m) c).arrAt 5 cfg2.N :=
  bnd6_arr m c 5

/-- The frame: every weakly fair execution terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c)⟩) (run_named m ρ)

/-- The same run with the result array named beside the arguments. -/
theorem run_result (ρ : Dev nD → PrngReg) : θ_run defs (onTc (τ := τ) (main (F := F))) ⟨m, fun _ => 0, ρ⟩ (fun r => ∀ c : Dev nD,
      r.2.mem ((c.tc : Thread nD τ).loc main_v30) = bnd6 m c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v30 (by decide)),
     (h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c)⟩) (run_named m ρ)

end Cert.Kernel.Hand

end
-- ==== Proof.KI.DenseInit.lean ====
/-
  The first dense layer's region: at each of its 4 grid points the body reads a 2048-row block of each
  left factor and the two weight blocks and the bias whole, and stores the 2048-row block of
  `a · wa + b · wb + bias`. Nothing is carried from point to point, so the proof data is: every input
  window's staging buffer holds its array's block, the output window's holds the body's one stored value
  of those blocks. Stated at the region's entry contents `V`.
-/
import proofs.«156653_j12429635354789_1_alg».proof.Proof.Gen.KernelIdeal.Launch
import proofs.«156653_j12429635354789_1_alg».proof.Proof.Gen.KernelIdeal.Skeleton
import proofs.«156653_j12429635354789_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- What the body stores into the output block, of the five input blocks. -/
abbrev outBlock0 (x0 : Vec F S2048x64 .f32) (x1 : Vec F S2048x16 .f32) (x2 : Vec F S64x64 .f32) (x3 : Vec F S16x64 .f32) (x4 : Vec F S1x64 .f32) : Vec F S2048x64 .f32 :=
  k0_pay1 x0 x1 x2 x3 x4

set_option maxHeartbeats 4000000 in
/-- The body on whole staging memrefs, the inputs' at contents `x0 … x4` and the output's at anything, runs to the
    continuation with the inputs as they were and the output's buffer at `outBlock0` of them. -/
theorem sound_kernel0 (c : Dev nD) (E : Set ℕ) (i : grid0.Coords)
    (arg1 : Memref sig .tc .vmem S2048x64 .f32) (harg1 : arg1.IsWhole) (arg2 : Memref sig .tc .vmem S2048x16 .f32) (harg2 : arg2.IsWhole)
    (arg3 : Memref sig .tc .vmem S64x64 .f32) (harg3 : arg3.IsWhole) (arg4 : Memref sig .tc .vmem S16x64 .f32) (harg4 : arg4.IsWhole)
    (arg5 : Memref sig .tc .vmem S1x64 .f32) (harg5 : arg5.IsWhole) (arg6 : Memref sig .tc .vmem S2048x64 .f32) (harg6 : arg6.IsWhole)
    (x0 : Vec F S2048x64 .f32) (x1 : Vec F S2048x16 .f32) (x2 : Vec F S64x64 .f32) (x3 : Vec F S16x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock0 x0 x1 x2 x3 x4)) -∗ K ⟨⟩))
      ⊢ wp frame (wpE (defs₀ (F := F)) Variants.none c none) E (cc0__dense2_kernel i arg1 harg1 arg2 harg2 arg3 harg3 arg4 harg4 arg5 harg5 arg6 harg6) K := by
  simp only [cc0__dense2_kernel_eq_skeleton]; unfold cc0__dense2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ ?_).trans ?_
  · intro y; refine ⟨_, List.mem_singleton_self _, ?_⟩; dsimp only; exact View.mem_set_unit_zero hz _ y
  · rw [View.canon_unit_zero hz]
    simp only [View.readAt_eq_ld, View.ld_unit_zero (S := S2048x64) hz, View.ld_unit_zero (S := S2048x16) hz,
      View.ld_unit_zero (S := S64x64) hz, View.ld_unit_zero (S := S16x64) hz, View.ld_unit_zero (S := S1x64) hz]

/-- The proof data of this pipeline on core `c`: the arrays as the region finds them; after the body at point `t`
    each input's buffer at its block and the output's at `outBlock0` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => outBlock0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = outBlock0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.ReverseAcc.lean ====
/-
  The reverse-edge region: a grid of 8 row blocks by 8 reduction steps. At reduction step 0 the body zeroes
  its accumulator; at every step it adds to it the product of the step's 1024 by 1024 block of 0/1 weights
  with the step's 1024 rows of edge states; at step 7 it copies the accumulator to the output block, which
  the pipeline then writes back. So the accumulator is carried from point to point, and the output window
  is left untouched at the seven earlier steps of each row block.
-/
import proofs.«156653_j12429635354789_1_alg».proof.Proof.Gen.KernelIdeal.Launch
import proofs.«156653_j12429635354789_1_alg».proof.Proof.Gen.KernelIdeal.Skeleton
import proofs.«156653_j12429635354789_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The body's two branch conditions, in closed form over the grid -/

/-- The reduction step is the first: the accumulator is zeroed. -/
abbrev isFirst (i : grid1.Coords) : Prop :=
  (Scalar.cmpi .ne (Scalar.extui (Scalar.cmpi .eq (BitVec.ofNat 32 (i 1).val) 0#32)) 0#32) = 1#1
theorem isFirst_iff : ∀ t : Fin cfg1.N, isFirst (grid1.coords t) ↔ t.val % 8 = 0 :=
  (by decide +kernel : ∀ t : Fin grid1.N, isFirst (grid1.coords t) ↔ t.val % 8 = 0)
/-- The reduction step is the last: the accumulator is copied out. -/
abbrev isLast (i : grid1.Coords) : Prop := k1_cond2 i = 1#1
theorem isLast_iff : ∀ t : Fin cfg1.N, isLast (grid1.coords t) ↔ t.val % 8 = 7 :=
  (by decide +kernel : ∀ t : Fin grid1.N, isLast (grid1.coords t) ↔ t.val % 8 = 7)

/-- The output window is idle exactly off the last step, and there the pipeline does not write it back. -/
theorem idle5_of_not_last : ∀ t : Fin cfg1.N, ¬isLast (grid1.coords t) → cfg1.idle 5 (grid1.coords t) = true := by decide +kernel
theorem noFlush5_of_not_last : ∀ t : Fin cfg1.N, ¬isLast (grid1.coords t) → (cfg1.win 5).flush t = false := by decide +kernel
theorem live5_of_last : ∀ t : Fin cfg1.N, isLast (grid1.coords t) → cfg1.idle 5 (grid1.coords t) = false := by decide +kernel

/-! ## The body's triple, case by case -/

/-- The accumulator after a step that found `prev` in it (at step 0: the zeros just stored). -/
abbrev accStep (x0 x1 : Vec F S1024x1 .i32) (x2 x3 : Vec F S1x1024 .i32) (x4 prev : Vec F S1024x64 .f32) : Vec F S1024x64 .f32 :=
  k1_pay2 x0 x1 x2 x3 x4 prev

set_option maxHeartbeats 4000000 in
/-- Step 0 of a row block: whatever the accumulator held, it ends at one step over zeros; the output's buffer is not touched. -/
theorem sound_first (c : Dev nD) (E : Set ℕ) (i : grid1.Coords) (hF : isFirst i) (hL : ¬isLast i)
    (arg2 : Memref sig .tc .vmem S1024x1 .i32) (harg2 : arg2.IsWhole) (arg3 : Memref sig .tc .vmem S1024x1 .i32) (harg3 : arg3.IsWhole)
    (arg4 : Memref sig .tc .vmem S1x1024 .i32) (harg4 : arg4.IsWhole) (arg5 : Memref sig .tc .vmem S1x1024 .i32) (harg5 : arg5.IsWhole)
    (arg6 : Memref sig .tc .vmem S1024x64 .f32) (harg6 : arg6.IsWhole) (arg7 : Memref sig .tc .vmem S1024x64 .f32) (harg7 : arg7.IsWhole)
    (arg8 : Memref sig .tc .vmem S1024x64 .f32) (harg8 : arg8.IsWhole)
    (x0 x1 : Vec F S1024x1 .i32) (x2 x3 : Vec F S1x1024 .i32) (x4 : Vec F S1024x64 .f32) (xo : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xo ∗ (∃ d, owns (c : Thread nD τ) arg8 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xo ∗ owns (c : Thread nD τ) arg8 fullShare (accStep x0 x1 x2 x3 x4 (k1_pay1 (F := F)))) -∗ K ⟨⟩))
      ⊢ wp frame (wpE (defs₀ (F := F)) Variants.none c none) E (cc1__reverse_kernel i arg2 harg2 arg3 harg3 arg4 harg4 arg5 harg5 arg6 harg6 arg7 harg7 arg8 harg8) K := by
  simp only [cc1__reverse_kernel_eq_skeleton]; unfold cc1__reverse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec (disch := first | exact hF | exact hL)
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  sl_unfold_words
  refine (View.read_writes_eq_canon _ _ _ ?_).trans ?_
  · intro y; refine ⟨_, List.mem_cons.mpr (Or.inl rfl), ?_⟩; dsimp only; exact View.mem_set_unit_zero hz _ y
  · rw [View.canon_cons_unit_zero hz]
    simp only [View.readAt_eq_ld, View.ld_unit_zero (S := S1024x1) hz, View.ld_unit_zero (S := S1x1024) hz,
      View.ld_unit_zero (S := S1024x64) hz, View.readCov_unit_zero (S := S1024x64) _ hz]

set_option maxHeartbeats 4000000 in
/-- A middle step: the accumulator goes from `xs` to one step over `xs`; the output's buffer is not touched. -/
theorem sound_mid (c : Dev nD) (E : Set ℕ) (i : grid1.Coords) (hF : ¬isFirst i) (hL : ¬isLast i)
    (arg2 : Memref sig .tc .vmem S1024x1 .i32) (harg2 : arg2.IsWhole) (arg3 : Memref sig .tc .vmem S1024x1 .i32) (harg3 : arg3.IsWhole)
    (arg4 : Memref sig .tc .vmem S1x1024 .i32) (harg4 : arg4.IsWhole) (arg5 : Memref sig .tc .vmem S1x1024 .i32) (harg5 : arg5.IsWhole)
    (arg6 : Memref sig .tc .vmem S1024x64 .f32) (harg6 : arg6.IsWhole) (arg7 : Memref sig .tc .vmem S1024x64 .f32) (harg7 : arg7.IsWhole)
    (arg8 : Memref sig .tc .vmem S1024x64 .f32) (harg8 : arg8.IsWhole)
    (x0 x1 : Vec F S1024x1 .i32) (x2 x3 : Vec F S1x1024 .i32) (x4 : Vec F S1024x64 .f32) (xo xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare xo ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare xo ∗ owns (c : Thread nD τ) arg8 fullShare (accStep x0 x1 x2 x3 x4 xs)) -∗ K ⟨⟩))
      ⊢ wp frame (wpE (defs₀ (F := F)) Variants.none c none) E (cc1__reverse_kernel i arg2 harg2 arg3 harg3 arg4 harg4 arg5 harg5 arg6 harg6 arg7 harg7 arg8 harg8) K := by
  simp only [cc1__reverse_kernel_eq_skeleton]; unfold cc1__reverse_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | exact hF | exact hL)
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  refine (View.read_writes_eq_canon _ _ _ ?_).trans ?_
  · intro y; refine ⟨_, List.mem_singleton_self _, ?_⟩; dsimp only; exact View.mem_set_unit_zero hz _ y
  · rw [View.canon_unit_zero hz]
    simp only [View.readAt_eq_ld, View.ld_unit_zero (S := S1024x1) hz, View.ld_unit_zero (S := S1x1024) hz,
      View.ld_unit_zero (S := S1024x64) hz, View.readCov_unit_zero (S := S1024x64) _ hz]

set_option maxHeartbeats 4000000 in
/-- The last step: the accumulator goes from `xs` to one step over `xs`, and the output's buffer ends holding the same. -/
theorem sound_last (c : Dev nD) (E : Set ℕ) (i : grid1.Coords) (hF : ¬isFirst i) (hL : isLast i)
    (arg2 : Memref sig .tc .vmem S1024x1 .i32) (harg2 : arg2.IsWhole) (arg3 : Memref sig .tc .vmem S1024x1 .i32) (harg3 : arg3.IsWhole)
    (arg4 : Memref sig .tc .vmem S1x1024 .i32) (harg4 : arg4.IsWhole) (arg5 : Memref sig .tc .vmem S1x1024 .i32) (harg5 : arg5.IsWhole)
    (arg6 : Memref sig .tc .vmem S1024x64 .f32) (harg6 : arg6.IsWhole) (arg7 : Memref sig .tc .vmem S1024x64 .f32) (harg7 : arg7.IsWhole)
    (arg8 : Memref sig .tc .vmem S1024x64 .f32) (harg8 : arg8.IsWhole)
    (x0 x1 : Vec F S1024x1 .i32) (x2 x3 : Vec F S1x1024 .i32) (x4 : Vec F S1024x64 .f32) (xs : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (accStep x0 x1 x2 x3 x4 xs) ∗ owns (c : Thread nD τ) arg8 fullShare (accStep x0 x1 x2 x3 x4 xs)) -∗ K ⟨⟩))
      ⊢ wp frame (wpE (defs₀ (F := F)) Variants.none c none) E (cc1__reverse_kernel i arg2 harg2 arg3 harg3 arg4 harg4 arg5 harg5 arg6 harg6 arg7 harg7 arg8 harg8) K := by
  simp only [cc1__reverse_kernel_eq_skeleton]; unfold cc1__reverse_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | exact hF | exact hL)
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    sl_unfold_words
    refine (View.read_writes_eq_canon _ _ _ ?_).trans ?_
    · intro y; refine ⟨_, List.mem_singleton_self _, ?_⟩; dsimp only; exact View.mem_set_unit_zero hz _ y
    · rw [View.canon_unit_zero hz]
      simp only [View.readAt_eq_ld, View.ld_unit_zero (S := S1024x1) hz, View.ld_unit_zero (S := S1x1024) hz,
      View.ld_unit_zero (S := S1024x64) hz, View.readCov_unit_zero (S := S1024x64) _ hz]
  iexists _; isplitr
  swap; · iexact H6
  ipureintro
  sl_unfold_words
  refine (View.read_writes_eq_canon _ _ _ ?_).trans ?_
  · intro y; refine ⟨_, List.mem_singleton_self _, ?_⟩; dsimp only; exact View.mem_set_unit_zero hz _ y
  · rw [View.canon_unit_zero hz]
    simp only [View.readAt_eq_ld, View.ld_unit_zero (S := S1024x1) hz, View.ld_unit_zero (S := S1x1024) hz,
      View.ld_unit_zero (S := S1024x64) hz, View.readCov_unit_zero (S := S1024x64) _ hz]

/-! ## The windows' blocks, the accumulator point by point, the invariant, the proof data -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- One step at point `t`'s input blocks over an accumulator `prev`. -/
abbrev stepAt (c : Dev nD) (t : Fin cfg1.N) (prev : Vec F S1024x64 .f32) : Vec F S1024x64 .f32 :=
  accStep (iblk1 V c 0 t) (iblk1 V c 1 t) (iblk1 V c 2 t) (iblk1 V c 3 t) (iblk1 V c 4 t) prev

/-- THE ACCUMULATION: what the accumulator holds after the body at position `n`. At a first reduction step it is
    one step over zeros; otherwise one step over what position `n - 1` left. -/
def accAt (c : Dev nD) : (n : ℕ) → n < cfg1.N → Vec F S1024x64 .f32
  | 0, hn => stepAt V c ⟨0, hn⟩ (k1_pay1 (F := F))
  | n + 1, hn => stepAt V c ⟨n + 1, hn⟩ (if (n + 1) % 8 = 0 then k1_pay1 (F := F) else accAt c n (Nat.lt_of_succ_lt hn))

theorem accAt_first (c : Dev nD) (t : Fin cfg1.N) (h : t.val % 8 = 0) :
    accAt V c t.val t.isLt = stepAt V c t (k1_pay1 (F := F)) := by
  obtain ⟨n, hn⟩ := t
  cases n with
  | zero => rfl
  | succ n => show stepAt V c ⟨n + 1, hn⟩ (if (n + 1) % 8 = 0 then _ else _) = _; rw [if_pos h]

theorem accAt_next (c : Dev nD) (t : Fin cfg1.N) (h : ¬t.val % 8 = 0) :
    accAt V c t.val t.isLt = stepAt V c t (accAt V c (t.val - 1) (Nat.lt_of_le_of_lt (Nat.sub_le _ _) t.isLt)) := by
  obtain ⟨n, hn⟩ := t
  cases n with
  | zero => exact absurd (Nat.zero_mod _) h
  | succ n => show stepAt V c ⟨n + 1, hn⟩ (if (n + 1) % 8 = 0 then _ else _) = _; rw [if_neg h]; rfl

/-- The accumulator as a memref: the kernel's own scoped buffer, passed whole beside the windows. -/
abbrev accM : Memref sig .tc .vmem S1024x64 .f32 := Memref.whole cc1_scratch0

/-- The core's scoped buffers other than this region's staging buffers and its accumulator, at anything. -/
abbrev restBut (c : Dev nD) : sProp 𝕄 :=
  Pipeline.scopedRestBut (Ix := Unit) (Name := ℕ) (U := UR sig nD τ) (Lvl := ℕ) (Val := Elt F) spec1 c [cc1_scratch0]

/-- The class invariant with the accumulator split out of the scoped rest. -/
theorem PhiA1_eq (c : Dev nD) :
    (Pipeline.ΦA spec1 c : sProp 𝕄)
      = iprop(iprop((∃ d, owns (c : Thread nD τ) accM fullShare d) ∗ restBut c) ∗ (∃ r, prngReg c r)) := by
  unfold Pipeline.ΦA
  rw [Pipeline.scopedRest_split_of_list (win := spec1) (c := c) [cc1_scratch0] (by decide) (by decide)]
  simp only [bigSepL_singleton, accM, owns_whole]
  try rfl

/-- The region's invariant before position `n`: before the first point the class's (the accumulator at anything);
    afterwards the accumulator at what the point before left in it, the other scoped buffers at anything, the
    generator register at some state. -/
def PhiS (c : Dev nD) : (n : ℕ) → n ≤ cfg1.N → sProp 𝕄
  | 0, _ => Pipeline.ΦA spec1 c
  | n + 1, hn => iprop(iprop(owns (c : Thread nD τ) accM fullShare (accAt V c n hn) ∗ restBut c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) accM fullShare (accAt V c n hn) ∗ restBut c) ∗ (∃ r, prngReg c r)) := rfl
theorem PhiS_pos (c : Dev nD) (n : ℕ) (h : n ≤ cfg1.N) (hz : n ≠ 0) :
    PhiS V c n h = iprop(iprop(owns (c : Thread nD τ) accM fullShare (accAt V c (n - 1) (by omega)) ∗ restBut c) ∗ (∃ r, prngReg c r)) := by
  cases n with
  | zero => exact absurd rfl hz
  | succ n => rfl

/-- The proof data of this pipeline on core `c`: the arrays as the region finds them; after the body at point `t`
    each input's buffer at its block and the output's at the accumulator's contents there (read only at the last
    reduction steps: elsewhere the window is idle); the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => accAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = accAt V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

theorem PhiS_castSucc (c : Dev nD) (t : Fin cfg1.N) :
    (dat1 V c).Φ t.castSucc = PhiS V c t.val (Nat.le_of_lt t.isLt) := by
  dsimp only [dat1]; simp only [Fin.coe_castSucc]

/-- What the launch hands the region is the invariant before the first point. -/
theorem Phi_in1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's named contents are forgotten. -/
theorem Phi_out1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨HS, Hr⟩, Hg⟩
  isplitl [HS Hr]
  · isplitl [HS]
    · iexists _; iexact HS
    iexact Hr
  iexact Hg

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns: each window's buffer at what the body leaves, the output's handed back as found where the
    window is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4000000 in
/-- The body at any point. The inputs' memrefs hold their blocks; the point's place in its row block's eight
    reduction steps says which case of the body's triple applies; the invariant hands the body the accumulator at
    what the point before left (at anything before the first point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [
    show (dat1 V c).leavesExact 0 t = owns (c : Thread nD τ) (st1_0 t) fullShare ((dat1 V c).after 0 t) from by
      unfold Dat.leavesExact; rfl,
    show (dat1 V c).leavesExact 1 t = owns (c : Thread nD τ) (st1_1 t) fullShare ((dat1 V c).after 1 t) from by
      unfold Dat.leavesExact; rfl,
    show (dat1 V c).leavesExact 2 t = owns (c : Thread nD τ) (st1_2 t) fullShare ((dat1 V c).after 2 t) from by
      unfold Dat.leavesExact; rfl,
    show (dat1 V c).leavesExact 3 t = owns (c : Thread nD τ) (st1_3 t) fullShare ((dat1 V c).after 3 t) from by
      unfold Dat.leavesExact; rfl,
    show (dat1 V c).leavesExact 4 t = owns (c : Thread nD τ) (st1_4 t) fullShare ((dat1 V c).after 4 t) from by
      unfold Dat.leavesExact; rfl]
  rw [after1_0, after1_1, after1_2, after1_3, after1_4]
  have hN : t.val < 64 := lt_of_lt_of_eq t.isLt (show cfg1.N = 64 from N_1)
  by_cases hF : t.val % 8 = 0
  · have hL : ¬t.val % 8 = 7 := by omega
    have hF' : isFirst (grid1.coords t) := (isFirst_iff t).mpr hF
    have hL' : ¬isLast (grid1.coords t) := fun h => hL ((isLast_iff t).mp h)
    rw [Dat.leavesExact_idle (dat1 V c) 5 t (idle5_of_not_last t hL') (noFlush5_of_not_last t hL')]
    rw [accAt_first V c t hF]
    by_cases hz : t.val = 0
    · rw [PhiS_castSucc V c t, PhiS_zero V c _ _ hz, PhiA1_eq]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_first c Set.univ (grid1.coords t) hF' hL' _ _ _ _ _ _ _ _ _ _ _ _ _ _ (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_first c Set.univ (grid1.coords t) hF' hL' _ _ _ _ _ _ _ _ _ _ _ _ _ _ (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexists _; iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hF' : ¬isFirst (grid1.coords t) := fun h => hF ((isFirst_iff t).mp h)
    have hz : t.val ≠ 0 := fun h => hF (by rw [h])
    by_cases hL : t.val % 8 = 7
    · have hL' : isLast (grid1.coords t) := (isLast_iff t).mpr hL
      rw [show (dat1 V c).leavesExact 5 t = owns (c : Thread nD τ) (st1_5 t) fullShare ((dat1 V c).after 5 t) from by
        unfold Dat.leavesExact; rw [live5_of_last t hL'], after1_5]
      rw [accAt_next V c t hF]
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_last c Set.univ (grid1.coords t) hF' hL' _ _ _ _ _ _ _ _ _ _ _ _ _ _ (iblk1 V c 0 t) (iblk1 V c 1 t) (iblk1 V c 2 t) (iblk1 V c 3 t) (iblk1 V c 4 t) _ _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexact H5
    · have hL' : ¬isLast (grid1.coords t) := fun h => hL ((isLast_iff t).mp h)
      rw [Dat.leavesExact_idle (dat1 V c) 5 t (idle5_of_not_last t hL') (noFlush5_of_not_last t hL')]
      rw [accAt_next V c t hF]
      rw [PhiS_castSucc V c t, PhiS_pos V c _ _ hz]
      iintro ⟨⟨⟨HS, Hr⟩, Hg⟩, Ho, ⟨%d0, H0⟩, ⟨%d1, H1⟩, ⟨%d2, H2⟩, ⟨%d3, H3⟩, ⟨%d4, H4⟩, ⟨%d5, H5⟩⟩
      iapply (sound_mid c Set.univ (grid1.coords t) hF' hL' _ _ _ _ _ _ _ _ _ _ _ _ _ _ (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.DenseUpd.lean ====
/-
  The last dense layer's region: at each of its 4 grid points the body reads a 2048-row block of each
  left factor and the two weight blocks and the bias whole, and stores the 2048-row block of
  `a · wa + b · wb + bias`. Nothing is carried from point to point, so the proof data is: every input
  window's staging buffer holds its array's block, the output window's holds the body's one stored value
  of those blocks. Stated at the region's entry contents `V`.
-/
import proofs.«156653_j12429635354789_1_alg».proof.Proof.Gen.KernelIdeal.Launch
import proofs.«156653_j12429635354789_1_alg».proof.Proof.Gen.KernelIdeal.Skeleton
import proofs.«156653_j12429635354789_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- What the body stores into the output block, of the five input blocks. -/
abbrev outBlock2 (x0 : Vec F S2048x64 .f32) (x1 : Vec F S2048x64 .f32) (x2 : Vec F S64x64 .f32) (x3 : Vec F S64x64 .f32) (x4 : Vec F S1x64 .f32) : Vec F S2048x64 .f32 :=
  k2_pay1 x0 x1 x2 x3 x4

set_option maxHeartbeats 4000000 in
/-- The body on whole staging memrefs, the inputs' at contents `x0 … x4` and the output's at anything, runs to the
    continuation with the inputs as they were and the output's buffer at `outBlock2` of them. -/
theorem sound_kernel2 (c : Dev nD) (E : Set ℕ) (i : grid2.Coords)
    (arg1 : Memref sig .tc .vmem S2048x64 .f32) (harg1 : arg1.IsWhole) (arg2 : Memref sig .tc .vmem S2048x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S2048x64 .f32) (harg6 : arg6.IsWhole)
    (x0 : Vec F S2048x64 .f32) (x1 : Vec F S2048x64 .f32) (x2 : Vec F S64x64 .f32) (x3 : Vec F S64x64 .f32) (x4 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock2 x0 x1 x2 x3 x4)) -∗ K ⟨⟩))
      ⊢ wp frame (wpE (defs₀ (F := F)) Variants.none c none) E (cc2__dense2_kernel i arg1 harg1 arg2 harg2 arg3 harg3 arg4 harg4 arg5 harg5 arg6 harg6) K := by
  simp only [cc2__dense2_kernel_eq_skeleton]; unfold cc2__dense2_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  have hz : (![0, 0] : Fin 2 → Nat) = fun _ => 0 := by funext a; match a with | ⟨0, _⟩ => rfl | ⟨1, _⟩ => rfl
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  refine (View.read_writes_eq_canon _ _ _ ?_).trans ?_
  · intro y; refine ⟨_, List.mem_singleton_self _, ?_⟩; dsimp only; exact View.mem_set_unit_zero hz _ y
  · rw [View.canon_unit_zero hz]
    simp only [View.readAt_eq_ld, View.ld_unit_zero (S := S2048x64) hz, View.ld_unit_zero (S := S2048x64) hz,
      View.ld_unit_zero (S := S64x64) hz, View.ld_unit_zero (S := S64x64) hz, View.ld_unit_zero (S := S1x64) hz]

/-- The proof data of this pipeline on core `c`: the arrays as the region finds them; after the body at point `t`
    each input's buffer at its block and the output's at `outBlock2` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => outBlock2 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t
    = outBlock2 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.ThreeRegions.lean ====
/-
  The whole program as six items in order: host stretch, first dense layer, host stretch, reverse-edge
  region, host stretch, last dense layer. The buffers' contents at every boundary are a fold from the launch
  memory: a host stretch applies its operations; a region leaves its output array at what its write-backs fold
  to and everything else as it found it. Every weakly fair execution terminates with every unscoped buffer at
  the last boundary's contents: the arguments as launched, the result at the last layer's output.
-/
import proofs.«156653_j12429635354789_1_alg».proof.Proof.KI.DenseInit
import proofs.«156653_j12429635354789_1_alg».proof.Proof.KI.ReverseAcc
import proofs.«156653_j12429635354789_1_alg».proof.Proof.KI.DenseUpd
import proofs.«156653_j12429635354789_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev bnd0 (c : Dev nD) : Valuation τ sig (Elt F) := fun b => m (c, b)

/-- After host stretch 0 (region 0's entry). -/
abbrev bnd1 (c : Dev nD) : Valuation τ sig (Elt F) := StableHlo.after hostOps0 (bnd0 m c)
/-- The same read at the TensorCore's references: what region 0's proof data take. -/
abbrev ent1 : (c : Dev nD) → (b : Ref sig .tc) → Buf (Elt F) ((c : Thread nD τ).loc b) := fun c b => bnd1 m c b
/-- At region 0's exit: its arrays at what the pipeline leaves (the inputs as entered, the output's write-backs
    folded), every other buffer as entered. -/
def bnd2 (c : Dev nD) : Valuation τ sig (Elt F) :=
  Pipeline.withArrays spec0 c (bnd1 m c) fun w => (dat0 (ent1 m) c).arrAt w cfg0.N
theorem bnd2_arr (c : Dev nD) (w : Fin cfg0.W) :
    bnd2 m c (Proc.devRef .tc (Pipeline.arrRef spec0 w)) = (dat0 (ent1 m) c).arrAt w cfg0.N := by
  unfold bnd2; exact Pipeline.withArrays_arr spec0 launch0.win.arr_inj c _ _ w
theorem bnd2_of_ne (c : Dev nD) (b : Ref sig .tc) (hb : ∀ w, Pipeline.arrRef spec0 w ≠ b) :
    bnd2 m c (Proc.devRef .tc b) = bnd1 m c (Proc.devRef .tc b) := by
  unfold bnd2; exact Pipeline.withArrays_of_ne spec0 c _ _ b hb
/-- The same read at the TensorCore's references (region 0's exit contents). -/
abbrev ext2 : (c : Dev nD) → (b : Ref sig .tc) → Buf (Elt F) ((c : Thread nD τ).loc b) := fun c b => bnd2 m c b
theorem hexit0_arr (c : Dev nD) (w : Fin cfg0.W) : (dat0 (ent1 m) c).arrAt w cfg0.N = ext2 m c (Pipeline.arrRef spec0 w) :=
  (bnd2_arr m c w).symm
theorem hexit0_rest (c : Dev nD) : ∀ b, b ∉ Finset.univ.image (Pipeline.arrRef spec0) → ext2 m c b = ent1 m c b :=
  fun b hb => bnd2_of_ne m c b fun w e => hb (Finset.mem_image.mpr ⟨w, Finset.mem_univ _, e⟩)

/-- After host stretch 1 (region 1's entry). -/
abbrev bnd3 (c : Dev nD) : Valuation τ sig (Elt F) := StableHlo.after hostOps1 (bnd2 m c)
/-- The same read at the TensorCore's references: what region 1's proof data take. -/
abbrev ent3 : (c : Dev nD) → (b : Ref sig .tc) → Buf (Elt F) ((c : Thread nD τ).loc b) := fun c b => bnd3 m c b
/-- At region 1's exit: its arrays at what the pipeline leaves (the inputs as entered, the output's write-backs
    folded), every other buffer as entered. -/
def bnd4 (c : Dev nD) : Valuation τ sig (Elt F) :=
  Pipeline.withArrays spec1 c (bnd3 m c) fun w => (dat1 (ent3 m) c).arrAt w cfg1.N
theorem bnd4_arr (c : Dev nD) (w : Fin cfg1.W) :
    bnd4 m c (Proc.devRef .tc (Pipeline.arrRef spec1 w)) = (dat1 (ent3 m) c).arrAt w cfg1.N := by
  unfold bnd4; exact Pipeline.withArrays_arr spec1 launch1.win.arr_inj c _ _ w
theorem bnd4_of_ne (c : Dev nD) (b : Ref sig .tc) (hb : ∀ w, Pipeline.arrRef spec1 w ≠ b) :
    bnd4 m c (Proc.devRef .tc b) = bnd3 m c (Proc.devRef .tc b) := by
  unfold bnd4; exact Pipeline.withArrays_of_ne spec1 c _ _ b hb
/-- The same read at the TensorCore's references (region 1's exit contents). -/
abbrev ext4 : (c : Dev nD) → (b : Ref sig .tc) → Buf (Elt F) ((c : Thread nD τ).loc b) := fun c b => bnd4 m c b
theorem hexit1_arr (c : Dev nD) (w : Fin cfg1.W) : (dat1 (ent3 m) c).arrAt w cfg1.N = ext4 m c (Pipeline.arrRef spec1 w) :=
  (bnd4_arr m c w).symm
theorem hexit1_rest (c : Dev nD) : ∀ b, b ∉ Finset.univ.image (Pipeline.arrRef spec1) → ext4 m c b = ent3 m c b :=
  fun b hb => bnd4_of_ne m c b fun w e => hb (Finset.mem_image.mpr ⟨w, Finset.mem_univ _, e⟩)

/-- After host stretch 2 (region 2's entry). -/
abbrev bnd5 (c : Dev nD) : Valuation τ sig (Elt F) := StableHlo.after hostOps2 (bnd4 m c)
/-- The same read at the TensorCore's references: what region 2's proof data take. -/
abbrev ent5 : (c : Dev nD) → (b : Ref sig .tc) → Buf (Elt F) ((c : Thread nD τ).loc b) := fun c b => bnd5 m c b
/-- At region 2's exit: its arrays at what the pipeline leaves (the inputs as entered, the output's write-backs
    folded), every other buffer as entered. -/
def bnd6 (c : Dev nD) : Valuation τ sig (Elt F) :=
  Pipeline.withArrays spec2 c (bnd5 m c) fun w => (dat2 (ent5 m) c).arrAt w cfg2.N
theorem bnd6_arr (c : Dev nD) (w : Fin cfg2.W) :
    bnd6 m c (Proc.devRef .tc (Pipeline.arrRef spec2 w)) = (dat2 (ent5 m) c).arrAt w cfg2.N := by
  unfold bnd6; exact Pipeline.withArrays_arr spec2 launch2.win.arr_inj c _ _ w
theorem bnd6_of_ne (c : Dev nD) (b : Ref sig .tc) (hb : ∀ w, Pipeline.arrRef spec2 w ≠ b) :
    bnd6 m c (Proc.devRef .tc b) = bnd5 m c (Proc.devRef .tc b) := by
  unfold bnd6; exact Pipeline.withArrays_of_ne spec2 c _ _ b hb
/-- The same read at the TensorCore's references (region 2's exit contents). -/
abbrev ext6 : (c : Dev nD) → (b : Ref sig .tc) → Buf (Elt F) ((c : Thread nD τ).loc b) := fun c b => bnd6 m c b
theorem hexit2_arr (c : Dev nD) (w : Fin cfg2.W) : (dat2 (ent5 m) c).arrAt w cfg2.N = ext6 m c (Pipeline.arrRef spec2 w) :=
  (bnd6_arr m c w).symm
theorem hexit2_rest (c : Dev nD) : ∀ b, b ∉ Finset.univ.image (Pipeline.arrRef spec2) → ext6 m c b = ent5 m c b :=
  fun b hb => bnd6_of_ne m c b fun w e => hb (Finset.mem_image.mpr ⟨w, Finset.mem_univ _, e⟩)

/-! ## The proof data family and what rides beside the buffers -/

/-- No pipeline has a prefetched table. -/
abbrev noTables : (p : Fin 3) → (pcfgs (F := F) p).Adm := fun p => (cfgs p).toPCfg_adm
/-- Every pipeline's proof data, each at its region's entry contents. -/
def pdat : (p : Fin 3) → (c : Dev nD) → Dat τ (Elt F) Unit ℕ (UR sig nD τ) ℕ (Pipeline.pin (pcfgs (F := F)) noTables p) c
  | ⟨0, _⟩ => fun c => dat0 (ent1 m) c
  | ⟨1, _⟩ => fun c => dat1 (ent3 m) c
  | ⟨2, _⟩ => fun c => dat2 (ent5 m) c
abbrev 𝒱n : Variants := Variants.none
/-- No core owes another anything: no level is assigned. -/
abbrev Ln : GSem nD τ sig → Finset Unit := fun _ => ∅
abbrev lvn : GSem nD τ sig → Unit → ℕ := fun _ _ => 0
/-- Beside the buffers through every item: the generator register at some state and the core's dues, at nothing. -/
abbrev Rest (c : Dev nD) : sProp 𝕄 := iprop((∃ r, prngReg c r) ∗ ∃ W, owes (c : Thread nD τ) (0 : CellTallies nD τ sig Unit) W)
/-- A host stretch as an item, over the unscoped references from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Ln lvn :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- The last thread state without the dues: every unscoped buffer at the last boundary's contents, the register at some state. -/
abbrev Tlast (c : Dev nD) : sProp 𝕄 := iprop(StableHlo.held (c : Thread nD τ) (Pipeline.ucRefs τ sig) (bnd6 m c) ∗ ∃ r, prngReg c r)

/-! ## The regions as items -/

set_option backward.isDefEq.respectTransparency.types false in
/-- Region 0 over the thread state: entered from every unscoped buffer at `bnd1`, left at `bnd2`. Its arrays are
    split out of the unscoped buffers and put back at the exit contents; the generator register and the scoped rest go
    into the region's invariant and come back; nothing is owed; the kernel has no semaphore of its own. -/
def reg0 : Pipeline.RegionSeg (pcfgs (F := F)) noTables (pdat m) () defs₀ 𝒱n Ln lvn 0 where
  win := launch0.win.to₀
  block_pos := launch0.block_pos
  stage_whole := launch0.stage_whole
  K := PEmpty
  osem k := k.elim
  ho := Pipeline.OwnSemFacts.none _
  hbody c := (body_obligation0 (ent1 m) c).loose
  hwaits := Pipeline.hwaits_of_owed_zero _ _ _ _ Ln lvn 0 fun _ _ => rfl
  pre c := iprop(StableHlo.held (c : Thread nD τ) (Pipeline.ucRefs τ sig) (bnd1 m c) ∗ Rest c)
  post c := iprop(StableHlo.held (c : Thread nD τ) (Pipeline.ucRefs τ sig) (bnd2 m c) ∗ Rest c)
  X c := iprop(∃ r, prngReg c r)
  Y c := iprop(∃ r, prngReg c r)
  Z c := Pipeline.unscopedRest (Ix := Unit) (Name := ℕ) (U := UR sig nD τ) (Lvl := ℕ) spec0 c (ent1 m c)
  hentry c := by
    rw [Pipeline.ownSems0_none]
    have hsplit := Pipeline.arrays_of_unscopedBufs (p := 0) (pcfgs (F := F)) noTables (pdat m) launch0.win launch0.arr_whole c
      ((pdat m 0 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdat m) ((pdat m 0 c).share_full fun _ => rfl)
      (ent1 m c) (ext2 m c) ((pdat m 0 c).arrAt · cfg0.N) (hexit0_arr m c) (hexit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `bnd3`, left at `bnd4`. Its arrays are
    split out of the unscoped buffers and put back at the exit contents; the generator register and the scoped rest go
    into the region's invariant and come back; nothing is owed; the kernel has no semaphore of its own. -/
def reg1 : Pipeline.RegionSeg (pcfgs (F := F)) noTables (pdat m) () defs₀ 𝒱n Ln lvn 1 where
  win := launch1.win.to₀
  block_pos := launch1.block_pos
  stage_whole := launch1.stage_whole
  K := PEmpty
  osem k := k.elim
  ho := Pipeline.OwnSemFacts.none _
  hbody c := (body_obligation1 (ent3 m) c).loose
  hwaits := Pipeline.hwaits_of_owed_zero _ _ _ _ Ln lvn 1 fun _ _ => rfl
  pre c := iprop(StableHlo.held (c : Thread nD τ) (Pipeline.ucRefs τ sig) (bnd3 m c) ∗ Rest c)
  post c := iprop(StableHlo.held (c : Thread nD τ) (Pipeline.ucRefs τ sig) (bnd4 m c) ∗ Rest c)
  X c := iprop(∃ r, prngReg c r)
  Y c := iprop(∃ r, prngReg c r)
  Z c := Pipeline.unscopedRest (Ix := Unit) (Name := ℕ) (U := UR sig nD τ) (Lvl := ℕ) spec1 c (ent3 m c)
  hentry c := by
    rw [Pipeline.ownSems0_none]
    have hsplit := Pipeline.arrays_of_unscopedBufs (p := 1) (pcfgs (F := F)) noTables (pdat m) launch1.win launch1.arr_whole c
      ((pdat m 1 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 1 c).Φ 0 = (dat1 (ent3 m) c).Φ 0 from rfl]
    have h := Phi_in1 (ent3 m) c
    unfold Pipeline.ΦA at h
    iintro ⟨Hp, -, Hr⟩
    iapply h
    isplitl [Hr]; · iexact Hr
    iexact Hp
  hout c := by
    rw [Pipeline.ownSems0_none, show (pdat m 1 c).Φ (Fin.last _) = (dat1 (ent3 m) c).Φ (Fin.last cfg1.N) from rfl]
    have h := Phi_out1 (ent3 m) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdat m) ((pdat m 1 c).share_full fun _ => rfl)
      (ent3 m c) (ext4 m c) ((pdat m 1 c).arrAt · cfg1.N) (hexit1_arr m c) (hexit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `bnd5`, left at `bnd6`. Its arrays are
    split out of the unscoped buffers and put back at the exit contents; the generator register and the scoped rest go
    into the region's invariant and come back; nothing is owed; the kernel has no semaphore of its own. -/
def reg2 : Pipeline.RegionSeg (pcfgs (F := F)) noTables (pdat m) () defs₀ 𝒱n Ln lvn 2 where
  win := launch2.win.to₀
  block_pos := launch2.block_pos
  stage_whole := launch2.stage_whole
  K := PEmpty
  osem k := k.elim
  ho := Pipeline.OwnSemFacts.none _
  hbody c := (body_obligation2 (ent5 m) c).loose
  hwaits := Pipeline.hwaits_of_owed_zero _ _ _ _ Ln lvn 2 fun _ _ => rfl
  pre c := iprop(StableHlo.held (c : Thread nD τ) (Pipeline.ucRefs τ sig) (bnd5 m c) ∗ Rest c)
  post c := iprop(Tlast m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (ent5 m c)
  hentry c := by
    rw [Pipeline.ownSems0_none]
    have hsplit := Pipeline.arrays_of_unscopedBufs (p := 2) (pcfgs (F := F)) noTables (pdat m) launch2.win launch2.arr_whole c
      ((pdat m 2 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdat m) ((pdat m 2 c).share_full fun _ => rfl)
      (ent5 m c) (ext6 m c) ((pdat m 2 c).arrAt · cfg2.N) (hexit2_arr m c) (hexit2_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the run -/

abbrev items : List (Pipeline.Seg (pcfgs (F := F)) noTables (pdat m) () defs₀ 𝒱n Ln lvn) :=
  [ .host (hostItem hostOps0 hostOps0_sub hostOps0_fresh (bnd0 m)),
    .region (reg0 m),
    .host (hostItem hostOps1 hostOps1_sub hostOps1_fresh (bnd2 m)),
    .region (reg1 m),
    .host (hostItem hostOps2 hostOps2_sub hostOps2_fresh (bnd4 m)),
    .region (reg2 m) ]

theorem main_items (c : Dev nD) : main (F := F) c = Pipeline.Seg.run (items m) := (main_chain c).trans (by chain_rfl)

set_option backward.isDefEq.respectTransparency.types false in
/-- THE RUN: from any memory with zero counters every weakly fair execution of the program terminates, nothing
    faulting, and every final state holds every unscoped buffer at the last boundary's contents. -/
theorem run_named (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = bnd6 m c b) :=
  Pipeline.θ_run_regions_kit (pcfgs (F := F)) noTables (pdat m) () cellOf_inj emb₁ defs₀ 𝒱n Ln lvn m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bnd0 m c) ∗ Rest c)) (Tₙ := Tlast m)
    (hch := ⟨fun _ => .rfl, fun _ => .rfl, fun _ => .rfl, fun _ => .rfl, fun _ => .rfl, fun _ => .rfl, fun _ => .rfl⟩)
    (hinit := by
      refine Pipeline.initEach Ln lvn fun c => ?_
      rw [show unscopedBufs c (fun b => m ((c : Thread nD τ).loc b)) = StableHlo.held (c : Thread nD τ) (Pipeline.ucRefs τ sig) (bnd0 m c)
        from Pipeline.unscopedBufs_held c (bnd0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bnd6 m c b)
    (hfin := fun c s' => by
      iintro ⟨⟨Hh, -⟩, HSI⟩
      unfold StableHlo.held
      imodintro
      iapply (pointsTo_read_all (Pipeline.ucRefs τ sig) (fun b => (((c : Thread nD τ)).1, b)) (bnd6 m c) s')
      isplitl [Hh] <;> iassumption)
    (hQ := fun s h c => h c)

end Cert.KernelIdeal.Hand

end
-- ==== Proof.KI.ArgsKept.lean ====
/-
  What the run leaves where the claims look: no host stretch writes an argument array and no region's
  output window is one, so each argument is read back through the boundaries to its launch contents; the
  result array is the last dense layer's output window at the last boundary.
-/
import proofs.«156653_j12429635354789_1_alg».proof.Proof.KI.ThreeRegions

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A host stretch leaves every buffer it does not write. -/
theorem bnd1_keep (c : Dev nD) (r : Ref sig .tc) (h : r ∉ hostOps0_W) : bnd1 m c r = bnd0 m c r :=
  StableHlo.after_of_writes_sub hostOps0 _ hostOps0_writes h
theorem bnd3_keep (c : Dev nD) (r : Ref sig .tc) (h : r ∉ hostOps1_W) : bnd3 m c r = bnd2 m c r :=
  StableHlo.after_of_writes_sub hostOps1 _ hostOps1_writes h
theorem bnd5_keep (c : Dev nD) (r : Ref sig .tc) (h : r ∉ hostOps2_W) : bnd5 m c r = bnd4 m c r :=
  StableHlo.after_of_writes_sub hostOps2 _ hostOps2_writes h

theorem kept_main_arg0 (c : Dev nD) : bnd6 m c (Proc.devRef .tc main_arg0) = m ((c : Thread nD τ).loc main_arg0) :=
  (bnd6_of_ne m c main_arg0 (by decide)).trans <| (bnd5_keep m c main_arg0 (by decide)).trans <| (bnd4_of_ne m c main_arg0 (by decide)).trans <|
    (bnd3_keep m c main_arg0 (by decide)).trans <| (bnd2_of_ne m c main_arg0 (by decide)).trans <| (bnd1_keep m c main_arg0 (by decide)).trans rfl

theorem kept_main_arg1 (c : Dev nD) : bnd6 m c (Proc.devRef .tc main_arg1) = m ((c : Thread nD τ).loc main_arg1) :=
  (bnd6_of_ne m c main_arg1 (by decide)).trans <| (bnd5_keep m c main_arg1 (by decide)).trans <| (bnd4_of_ne m c main_arg1 (by decide)).trans <|
    (bnd3_keep m c main_arg1 (by decide)).trans <|
    ((bnd2_arr m c 1).trans (((dat0 (ent1 m) c).arrAt_in 1 rfl _).trans (A_eq0 (ent1 m) c 1))).trans <| (bnd1_keep m c main_arg1 (by decide)).trans rfl

theorem kept_main_arg2 (c : Dev nD) : bnd6 m c (Proc.devRef .tc main_arg2) = m ((c : Thread nD τ).loc main_arg2) :=
  (bnd6_of_ne m c main_arg2 (by decide)).trans <| (bnd5_keep m c main_arg2 (by decide)).trans <| (bnd4_of_ne m c main_arg2 (by decide)).trans <|
    (bnd3_keep m c main_arg2 (by decide)).trans <| (bnd2_of_ne m c main_arg2 (by decide)).trans <| (bnd1_keep m c main_arg2 (by decide)).trans rfl

theorem kept_main_arg3 (c : Dev nD) : bnd6 m c (Proc.devRef .tc main_arg3) = m ((c : Thread nD τ).loc main_arg3) :=
  (bnd6_of_ne m c main_arg3 (by decide)).trans <| (bnd5_keep m c main_arg3 (by decide)).trans <| (bnd4_of_ne m c main_arg3 (by decide)).trans <|
    (bnd3_keep m c main_arg3 (by decide)).trans <| (bnd2_of_ne m c main_arg3 (by decide)).trans <| (bnd1_keep m c main_arg3 (by decide)).trans rfl

theorem kept_main_arg4 (c : Dev nD) : bnd6 m c (Proc.devRef .tc main_arg4) = m ((c : Thread nD τ).loc main_arg4) :=
  (bnd6_of_ne m c main_arg4 (by decide)).trans <| (bnd5_keep m c main_arg4 (by decide)).trans <| (bnd4_of_ne m c main_arg4 (by decide)).trans <|
    (bnd3_keep m c main_arg4 (by decide)).trans <| (bnd2_of_ne m c main_arg4 (by decide)).trans <| (bnd1_keep m c main_arg4 (by decide)).trans rfl

theorem kept_main_arg5 (c : Dev nD) : bnd6 m c (Proc.devRef .tc main_arg5) = m ((c : Thread nD τ).loc main_arg5) :=
  (bnd6_of_ne m c main_arg5 (by decide)).trans <| (bnd5_keep m c main_arg5 (by decide)).trans <| (bnd4_of_ne m c main_arg5 (by decide)).trans <|
    (bnd3_keep m c main_arg5 (by decide)).trans <| (bnd2_of_ne m c main_arg5 (by decide)).trans <| (bnd1_keep m c main_arg5 (by decide)).trans rfl

theorem kept_main_arg6 (c : Dev nD) : bnd6 m c (Proc.devRef .tc main_arg6) = m ((c : Thread nD τ).loc main_arg6) :=
  (bnd6_of_ne m c main_arg6 (by decide)).trans <| (bnd5_keep m c main_arg6 (by decide)).trans <| (bnd4_of_ne m c main_arg6 (by decide)).trans <|
    (bnd3_keep m c main_arg6 (by decide)).trans <| (bnd2_of_ne m c main_arg6 (by decide)).trans <| (bnd1_keep m c main_arg6 (by decide)).trans rfl

theorem kept_main_arg7 (c : Dev nD) : bnd6 m c (Proc.devRef .tc main_arg7) = m ((c : Thread nD τ).loc main_arg7) :=
  (bnd6_of_ne m c main_arg7 (by decide)).trans <| (bnd5_keep m c main_arg7 (by decide)).trans <| (bnd4_of_ne m c main_arg7 (by decide)).trans <|
    (bnd3_keep m c main_arg7 (by decide)).trans <| (bnd2_of_ne m c main_arg7 (by decide)).trans <| (bnd1_keep m c main_arg7 (by decide)).trans rfl

/-- The result array at the last boundary is the last dense layer's output after its four write-backs. -/
theorem result_main_v30 (c : Dev nD) : bnd6 m c (Proc.devRef .tc main_v30) = (dat2 (ent5 m) c).arrAt 5 cfg2.N :=
  bnd6_arr m c 5

/-- The frame: every weakly fair execution terminates, nothing faulting, with every argument array as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c)⟩) (run_named m ρ)

/-- The same run with the result array named beside the arguments. -/
theorem run_result (ρ : Dev nD → PrngReg) : θ_run defs (onTc (τ := τ) (main (F := F))) ⟨m, fun _ => 0, ρ⟩ (fun r => ∀ c : Dev nD,
      r.2.mem ((c.tc : Thread nD τ).loc main_v30) = bnd6 m c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v30 (by decide)),
     (h c _ (mem_uc main_arg0 (by decide))).trans (kept_main_arg0 m c),
     (h c _ (mem_uc main_arg1 (by decide))).trans (kept_main_arg1 m c),
     (h c _ (mem_uc main_arg2 (by decide))).trans (kept_main_arg2 m c),
     (h c _ (mem_uc main_arg3 (by decide))).trans (kept_main_arg3 m c),
     (h c _ (mem_uc main_arg4 (by decide))).trans (kept_main_arg4 m c),
     (h c _ (mem_uc main_arg5 (by decide))).trans (kept_main_arg5 m c),
     (h c _ (mem_uc main_arg6 (by decide))).trans (kept_main_arg6 m c),
     (h c _ (mem_uc main_arg7 (by decide))).trans (kept_main_arg7 m c)⟩) (run_named m ρ)

end Cert.KernelIdeal.Hand

end
-- ==== Proof.EdgeSpec.lean ====
/-
  The mathematics both programs compute, as functions of arrays over the extended reals, index by index.

  An edge's initial state is one affine map of the concatenation [source-node features, edge features]:
  a sum over the 64 node coordinates plus a sum over the 16 edge coordinates plus a bias (`edgeInit`).
  The reverse-edge term of edge `p` sums the states of every edge `k` that runs the opposite way
  (its destination is `p`'s source and its source is `p`'s destination): a 0/1-weighted sum over all
  8192 edges (`reverseSum`, over `revWeight`). The update is again an affine map of a concatenation,
  64 + 64 coordinates (`edgeUpd`). Only sums of products appear: no law beyond commutativity and
  associativity of addition joins the two programs.
-/
import Idealize.ShloMosaic.PureOps.Ideal
import Idealize.ShloMosaic.Lib.ValueIdx

noncomputable section

open scoped BigOperators

namespace Cert.EdgeSpec

open Idealize.ShloMosaic Idealize.ShloMosaic.ValueIdx

/-- A matrix of extended reals with literal extents. -/
abbrev Mat (r c : Nat) : Type := (⟨2, ![r, c]⟩ : Shape).Idx → EReal
/-- A matrix of 32-bit words with literal extents. -/
abbrev IMat (r c : Nat) : Type := (⟨2, ![r, c]⟩ : Shape).Idx → BitVec 32

/-- Row `p`, column `q` of `a · wa + b · wb + bias` for a 64-wide and a 16-wide left factor. -/
def edgeInitAt (a : Mat 8192 64) (b : Mat 8192 16) (wa : Mat 64 64) (wb : Mat 16 64) (bias : Mat 1 64)
    (p : Fin 8192) (q : Fin 64) : EReal :=
  ((∑ k : Fin 64, a (ix2 p k) * wa (ix2 k q)) + ∑ k : Fin 16, b (ix2 p k) * wb (ix2 k q)) + bias (ix2 (0 : Fin 1) q)

/-- The initial edge state as an array. -/
def edgeInit (a : Mat 8192 64) (b : Mat 8192 16) (wa : Mat 64 64) (wb : Mat 16 64) (bias : Mat 1 64) : Mat 8192 64 :=
  fun j => edgeInitAt a b wa wb bias (j 0) (j 1)

/-- Row `p`, column `q` of `a · wa + b · wb + bias` for two 64-wide left factors. -/
def edgeUpdAt (a : Mat 8192 64) (b : Mat 8192 64) (wa : Mat 64 64) (wb : Mat 64 64) (bias : Mat 1 64)
    (p : Fin 8192) (q : Fin 64) : EReal :=
  ((∑ k : Fin 64, a (ix2 p k) * wa (ix2 k q)) + ∑ k : Fin 64, b (ix2 p k) * wb (ix2 k q)) + bias (ix2 (0 : Fin 1) q)

/-- The updated edge state as an array. -/
def edgeUpd (a : Mat 8192 64) (b : Mat 8192 64) (wa : Mat 64 64) (wb : Mat 64 64) (bias : Mat 1 64) : Mat 8192 64 :=
  fun j => edgeUpdAt a b wa wb bias (j 0) (j 1)

/-- The weight edge `k` has in edge `p`'s reverse term: one when `k` runs from `p`'s destination to `p`'s
    source, else zero. Sources and destinations come as a column (per row edge) and as a row (per summed edge). -/
def revWeight (srcCol dstCol : IMat 8192 1) (srcRow dstRow : IMat 1 8192) (p k : Fin 8192) : EReal :=
  if srcCol (ix2 p (0 : Fin 1)) = dstRow (ix2 (0 : Fin 1) k) ∧ dstCol (ix2 p (0 : Fin 1)) = srcRow (ix2 (0 : Fin 1) k) then 1 else 0

/-- Row `p`, column `q` of the reverse-edge term: the weighted sum of every edge's state. -/
def reverseSumAt (srcCol dstCol : IMat 8192 1) (srcRow dstRow : IMat 1 8192) (es : Mat 8192 64)
    (p : Fin 8192) (q : Fin 64) : EReal :=
  ∑ k : Fin 8192, revWeight srcCol dstCol srcRow dstRow p k * es (ix2 k q)

/-- The reverse-edge term as an array. -/
def reverseSum (srcCol dstCol : IMat 8192 1) (srcRow dstRow : IMat 1 8192) (es : Mat 8192 64) : Mat 8192 64 :=
  fun j => reverseSumAt srcCol dstCol srcRow dstRow es (j 0) (j 1)

end Cert.EdgeSpec

end
-- ==== Proof.KI.InitValue.lean ====
/-
  The first dense layer's result as one function of the arrays the region finds. At each of its 4 points the
  body stores, at row r and column q of its 2048-row block, the sum over the 64 node coordinates of a · wa, plus
  the sum over the 16 edge coordinates of b · wb, plus the bias at q: each product into a zero accumulator is the
  plain sum over the shared coordinate, the narrowing casts are the identity on extended reals, and the bias row
  is spread over the rows. Point t's block is rows 2048 t … 2048 t + 2047 of the two left factors and of the result,
  the weights and the bias are read whole, and the 4 blocks tile the 8192 rows: so the result array ends holding
  `a · wa + b · wb + bias` index by index.
-/
import proofs.«156653_j12429635354789_1_alg».proof.Proof.KI.DenseInit
import proofs.«156653_j12429635354789_1_alg».proof.Proof.EdgeSpec
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## The two products of the body at an index -/

theorem lhsA_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhsA_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhsA_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhsA_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- The node-feature product into the zero accumulator, at row `r` and column `q`: the sum over the 64 shared coordinates. -/
theorem matmulA_at (x : FVec Ideal S2048x64 .bf16) (y : FVec Ideal S64x64 .bf16) (r : Fin 2048) (q : Fin 64) :
    matmul dot_S2048x64_S64x64_S2048x64_1_0_0_1_n_n none x y (constant (F := Ideal) S2048x64 .f32 0x00000000#32) (ix2 r q)
      = ∑ k : Fin 64, x (ix2 r k) * y (ix2 k q) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r q) ((contrEquiv1 dot_S2048x64_S64x64_S2048x64_1_0_0_1_n_n 64 rfl rfl).symm k) = ix2 r k := funext fun a => Fin.ext (by
    match a with
    | ⟨0, _⟩ => exact lhsA_0 _ _
    | ⟨1, _⟩ => exact (lhsA_1 _ _).trans hk)
  have er : dot_S2048x64_S64x64_S2048x64_1_0_0_1_n_n.rhsIdx (ix2 r q) ((contrEquiv1 dot_S2048x64_S64x64_S2048x64_1_0_0_1_n_n 64 rfl rfl).symm k) = ix2 k q := funext fun a => Fin.ext (by
    match a with
    | ⟨0, _⟩ => exact (rhsA_0 _ _).trans hk
    | ⟨1, _⟩ => exact rhsA_1 _ _)
  rw [el, er]

theorem lhsB_0 (i : S2048x64.Idx) (q : dot_S2048x16_S16x64_S2048x64_1_0_0_1_n_n.contr.Idx) :
    (dot_S2048x16_S16x64_S2048x64_1_0_0_1_n_n.lhsIdx i q 0).val = (i 0).val := by
  unfold DotDims.lhsIdx
  rw [dif_neg (show ¬(0 : Fin S2048x16.rank) ∈ dot_S2048x16_S16x64_S2048x64_1_0_0_1_n_n.lhsBatch by decide), dif_pos (show (0 : Fin S2048x16.rank) ∈ dot_S2048x16_S16x64_S2048x64_1_0_0_1_n_n.lhsNonContracting by decide)]
  rfl
theorem lhsB_1 (i : S2048x64.Idx) (q : dot_S2048x16_S16x64_S2048x64_1_0_0_1_n_n.contr.Idx) :
    (dot_S2048x16_S16x64_S2048x64_1_0_0_1_n_n.lhsIdx i q 1).val = (q ⟨0, by decide⟩).val :=
  dot_S2048x16_S16x64_S2048x64_1_0_0_1_n_n.lhsIdx_val_of_single rfl i q
theorem rhsB_0 (i : S2048x64.Idx) (q : dot_S2048x16_S16x64_S2048x64_1_0_0_1_n_n.contr.Idx) :
    (dot_S2048x16_S16x64_S2048x64_1_0_0_1_n_n.rhsIdx i q 0).val = (q ⟨0, by decide⟩).val :=
  dot_S2048x16_S16x64_S2048x64_1_0_0_1_n_n.rhsIdx_val_of_single rfl i q
theorem rhsB_1 (i : S2048x64.Idx) (q : dot_S2048x16_S16x64_S2048x64_1_0_0_1_n_n.contr.Idx) :
    (dot_S2048x16_S16x64_S2048x64_1_0_0_1_n_n.rhsIdx i q 1).val = (i 1).val := by
  unfold DotDims.rhsIdx
  rw [dif_neg (show ¬(1 : Fin S16x64.rank) ∈ dot_S2048x16_S16x64_S2048x64_1_0_0_1_n_n.rhsBatch by decide), dif_pos (show (1 : Fin S16x64.rank) ∈ dot_S2048x16_S16x64_S2048x64_1_0_0_1_n_n.rhsNonContracting by decide)]
  rfl

/-- The edge-feature product into the zero accumulator, at row `r` and column `q`: the sum over the 16 shared coordinates. -/
theorem matmulB_at (x : FVec Ideal S2048x16 .bf16) (y : FVec Ideal S16x64 .bf16) (r : Fin 2048) (q : Fin 64) :
    matmul dot_S2048x16_S16x64_S2048x64_1_0_0_1_n_n none x y (constant (F := Ideal) S2048x64 .f32 0x00000000#32) (ix2 r q)
      = ∑ k : Fin 16, x (ix2 r k) * y (ix2 k q) := by
  simp only [matmul]
  rw [Ideal.matmul_constant_zero_apply, ← Equiv.sum_comp (contrEquiv1 dot_S2048x16_S16x64_S2048x64_1_0_0_1_n_n 16 rfl rfl).symm]
  refine Finset.sum_congr rfl fun k _ => ?_
  have hk := contrEquiv1_symm_val dot_S2048x16_S16x64_S2048x64_1_0_0_1_n_n 16 rfl rfl k
  have el : dot_S2048x16_S16x64_S2048x64_1_0_0_1_n_n.lhsIdx (ix2 r q) ((contrEquiv1 dot_S2048x16_S16x64_S2048x64_1_0_0_1_n_n 16 rfl rfl).symm k) = ix2 r k := funext fun a => Fin.ext (by
    match a with
    | ⟨0, _⟩ => exact lhsB_0 _ _
    | ⟨1, _⟩ => exact (lhsB_1 _ _).trans hk)
  have er : dot_S2048x16_S16x64_S2048x64_1_0_0_1_n_n.rhsIdx (ix2 r q) ((contrEquiv1 dot_S2048x16_S16x64_S2048x64_1_0_0_1_n_n 16 rfl rfl).symm k) = ix2 k q := funext fun a => Fin.ext (by
    match a with
    | ⟨0, _⟩ => exact (rhsB_0 _ _).trans hk
    | ⟨1, _⟩ => exact rhsB_1 _ _)
  rw [el, er]

/-- The bias row spread over the 2048 rows reads the bias at the column. -/
theorem bias_rows_init_at (v : FVec Ideal S1x64 .f32) (r : Fin 2048) (q : Fin 64) :
    broadcastTo S2048x64 v broadcasts_S1x64_S2048x64 (ix2 r q) = v (ix2 (0 : Fin 1) q) := by
  refine broadcastTo_apply _ _ _ _ fun a => ?_
  match a with
  | ⟨0, _⟩ => rfl
  | ⟨1, _⟩ => rfl

/-- What the body stores, at row `r` and column `q` of the block: the two sums of products and the bias. -/
theorem pay_init_at (x0 : Vec Ideal S2048x64 .f32) (x1 : Vec Ideal S2048x16 .f32) (x2 : Vec Ideal S64x64 .f32) (x3 : Vec Ideal S16x64 .f32)
    (x4 : Vec Ideal S1x64 .f32) (r : Fin 2048) (q : Fin 64) :
    k0_pay1 (F := Ideal) x0 x1 x2 x3 x4 (ix2 r q)
      = ((∑ k : Fin 64, x0 (ix2 r k) * x2 (ix2 k q)) + ∑ k : Fin 16, x1 (ix2 r k) * x3 (ix2 k q)) + x4 (ix2 (0 : Fin 1) q) := by
  unfold k0_pay1
  rw [addf_apply, addf_apply, matmulA_at, matmulB_at, bias_rows_init_at]
  simp only [truncf_apply, shapeCast_self]

/-! ## From the blocks to the array -/

-- the region's entry contents
variable (V : (c : Dev nD) → (b : Ref sig .tc) → Buf (Elt Ideal) ((c : Thread nD τ).loc b))

/-- The printed index maps over the grid: the two left factors' and the result's row blocks move with the point,
    the weights and the bias stay. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node-feature block at point `t` is rows `2048 t … 2048 t + 2047` of its array. -/
theorem rows_a0 (c : Dev nD) (t : Fin cfg0.N) (x : S2048x64.Idx) (k : S8192x64.Idx)
    (hk0 : (k 0).val = t.val * 2048 + (x 0).val) (hk1 : (k 1).val = (x 1).val) :
    (iblk0 (F := Ideal) V c 0 t : Vec Ideal S2048x64 .f32) x = (V c main_v6 : S8192x64.Idx → Elt Ideal .f32) k := by
  obtain ⟨e0, e1, -⟩ := index_facts0 t
  unfold iblk0
  rw [View.read_apply]
  show V c main_v6 _ = V c main_v6 _
  congr 1
  funext a
  apply Fin.ext
  match a with
  | ⟨0, _⟩ => show win0_0.index t 0 * 2048 + 1 * (x 0).val = (k 0).val; rw [e0, hk0]; omega
  | ⟨1, _⟩ => show win0_0.index t 1 * 64 + 1 * (x 1).val = (k 1).val; rw [e1, hk1]; omega

/-- The edge-feature block at point `t` is the same rows of its array. -/
theorem rows_b0 (c : Dev nD) (t : Fin cfg0.N) (x : S2048x16.Idx) (k : S8192x16.Idx)
    (hk0 : (k 0).val = t.val * 2048 + (x 0).val) (hk1 : (k 1).val = (x 1).val) :
    (iblk0 (F := Ideal) V c 1 t : Vec Ideal S2048x16 .f32) x = (V c main_arg1 : S8192x16.Idx → Elt Ideal .f32) k := by
  obtain ⟨-, -, e0, e1, -⟩ := index_facts0 t
  unfold iblk0
  rw [View.read_apply]
  show V c main_arg1 _ = V c main_arg1 _
  congr 1
  funext a
  apply Fin.ext
  match a with
  | ⟨0, _⟩ => show win0_1.index t 0 * 2048 + 1 * (x 0).val = (k 0).val; rw [e0, hk0]; omega
  | ⟨1, _⟩ => show win0_1.index t 1 * 16 + 1 * (x 1).val = (k 1).val; rw [e1, hk1]; omega

/-- The node weights' block is the whole array at every point. -/
theorem whole_wa0 (c : Dev nD) (t : Fin cfg0.N) :
    (iblk0 (F := Ideal) V c 2 t : Vec Ideal S64x64 .f32) = (V c main_v7 : S64x64.Idx → Elt Ideal .f32) := by
  obtain ⟨-, -, -, -, e0, e1, -⟩ := index_facts0 t
  funext x
  unfold iblk0
  rw [View.read_apply]
  show V c main_v7 _ = V c main_v7 _
  congr 1
  funext a
  apply Fin.ext
  match a with
  | ⟨0, _⟩ => show win0_2.index t 0 * 64 + 1 * (x 0).val = (x 0).val; rw [e0]; omega
  | ⟨1, _⟩ => show win0_2.index t 1 * 64 + 1 * (x 1).val = (x 1).val; rw [e1]; omega

/-- So is the edge weights' … -/
theorem whole_wb0 (c : Dev nD) (t : Fin cfg0.N) :
    (iblk0 (F := Ideal) V c 3 t : Vec Ideal S16x64 .f32) = (V c main_v8 : S16x64.Idx → Elt Ideal .f32) := by
  obtain ⟨-, -, -, -, -, -, e0, e1, -⟩ := index_facts0 t
  funext x
  unfold iblk0
  rw [View.read_apply]
  show V c main_v8 _ = V c main_v8 _
  congr 1
  funext a
  apply Fin.ext
  match a with
  | ⟨0, _⟩ => show win0_3.index t 0 * 16 + 1 * (x 0).val = (x 0).val; rw [e0]; omega
  | ⟨1, _⟩ => show win0_3.index t 1 * 64 + 1 * (x 1).val = (x 1).val; rw [e1]; omega

/-- … and the bias's. -/
theorem whole_bias0 (c : Dev nD) (t : Fin cfg0.N) :
    (iblk0 (F := Ideal) V c 4 t : Vec Ideal S1x64 .f32) = (V c main_v9 : S1x64.Idx → Elt Ideal .f32) := by
  obtain ⟨-, -, -, -, -, -, -, -, e0, e1, -⟩ := index_facts0 t
  funext x
  unfold iblk0
  rw [View.read_apply]
  show V c main_v9 _ = V c main_v9 _
  congr 1
  funext a
  apply Fin.ext
  match a with
  | ⟨0, _⟩ => show win0_4.index t 0 * 1 + 1 * (x 0).val = (x 0).val; rw [e0]; omega
  | ⟨1, _⟩ => show win0_4.index t 1 * 64 + 1 * (x 1).val = (x 1).val; rw [e1]; omega

/-- One element of a point's stored block: when the two left blocks hold row `i 0` of their arrays at the block's row
    `j 0`, and the weight and bias blocks are the arrays, the stored value at `j` is the affine map at `i`. -/
theorem stored_init_at (a : Cert.EdgeSpec.Mat 8192 64) (b : Cert.EdgeSpec.Mat 8192 16) (wa : Cert.EdgeSpec.Mat 64 64)
    (wb : Cert.EdgeSpec.Mat 16 64) (bias : Cert.EdgeSpec.Mat 1 64)
    (x0 : Vec Ideal S2048x64 .f32) (x1 : Vec Ideal S2048x16 .f32) (x2 : Vec Ideal S64x64 .f32) (x3 : Vec Ideal S16x64 .f32)
    (x4 : Vec Ideal S1x64 .f32) (j : S2048x64.Idx) (i : S8192x64.Idx)
    (h0 : ∀ k : Fin 64, x0 (ix2 (j 0) k) = a (ix2 (i 0) k)) (h1 : ∀ k : Fin 16, x1 (ix2 (j 0) k) = b (ix2 (i 0) k))
    (h2 : x2 = wa) (h3 : x3 = wb) (h4 : x4 = bias) (hq : j 1 = i 1) :
    k0_pay1 (F := Ideal) x0 x1 x2 x3 x4 j = Cert.EdgeSpec.edgeInit a b wa wb bias i := by
  subst h2 h3 h4
  obtain ⟨r, q, rfl⟩ : ∃ (r : Fin 2048) (q : Fin 64), j = ix2 r q := ⟨j 0, j 1, eq_ix2 j⟩
  have h0' : ∀ k : Fin 64, x0 (ix2 r k) = a (ix2 (i 0) k) := h0
  have h1' : ∀ k : Fin 16, x1 (ix2 r k) = b (ix2 (i 0) k) := h1
  have hq' : q = i 1 := hq
  unfold Cert.EdgeSpec.edgeInit Cert.EdgeSpec.edgeInitAt
  rw [pay_init_at]
  simp only [h0', h1', hq']

/-- What point `t` writes back is block `t` of the affine map of the arrays as the region finds them. -/
theorem flushed_init (c : Dev nD) (t : Fin cfg0.N) :
    (dat0 (F := Ideal) V c).flushed 5 t = ((cfg0.win 5).blk t).view.read (Elt Ideal)
      (Cert.EdgeSpec.edgeInit (V c main_v6) (V c main_arg1) (V c main_v7) (V c main_v8) (V c main_v9)) := by
  show (cfg0.win 5).cut (grid0.coords t) ((dat0 V c).after 5 t) = _
  rw [after0_5]
  obtain ⟨-, -, -, -, -, -, -, -, -, -, e0, e1⟩ := index_facts0 t
  funext j
  rw [View.read_apply]
  refine stored_init_at (V c main_v6) (V c main_arg1) (V c main_v7) (V c main_v8) (V c main_v9)
    (iblk0 V c 0 t) (iblk0 V c 1 t) (iblk0 V c 2 t) (iblk0 V c 3 t) (iblk0 V c 4 t) j (((cfg0.win 5).blk t).view.emb j)
    (fun k => rows_a0 V c t _ _ ?_ rfl) (fun k => rows_b0 V c t _ _ ?_ rfl) (whole_wa0 V c t) (whole_wb0 V c t) (whole_bias0 V c t) ?_
  · show win0_5.index t 0 * 2048 + 1 * (j 0).val = t.val * 2048 + (j 0).val
    rw [e0]; omega
  · show win0_5.index t 0 * 2048 + 1 * (j 0).val = t.val * 2048 + (j 0).val
    rw [e0]; omega
  · apply Fin.ext
    show (j 1).val = win0_5.index t 1 * 64 + 1 * (j 1).val
    rw [e1]; omega

/-- Every index of the result is in the block of the point its row falls in. -/
theorem cover_init (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  have hN : cfg0.N = 4 := N_0
  obtain ⟨t, ht⟩ : ∃ t : Fin cfg0.N, t.val = (i 0).val / 2048 := ⟨⟨(i 0).val / 2048, by rw [hN]; omega⟩, rfl⟩
  obtain ⟨-, -, -, -, -, -, -, -, -, -, e0, e1⟩ := index_facts0 t
  refine ⟨t, flush0_5 t, ?_⟩
  show i ∈ ((View.whole main_v10).slice (win0_5.rect t)).set
  rw [View.set_slice_whole, Rect.mem_set_unit]
  intro a
  match a with
  | ⟨0, _⟩ => show win0_5.index t 0 * 2048 ≤ (i 0).val ∧ (i 0).val < win0_5.index t 0 * 2048 + 2048
              rw [e0, ht]; omega
  | ⟨1, _⟩ => show win0_5.index t 1 * 64 ≤ (i 1).val ∧ (i 1).val < win0_5.index t 1 * 64 + 64
              rw [e1]; omega

/-- THE FIRST DENSE LAYER'S RESULT: after the region the result array holds `a · wa + b · wb + bias` of the arrays the
    region found. -/
theorem initValue (c : Dev nD) :
    (dat0 (F := Ideal) V c).arrAt 5 cfg0.N
      = Cert.EdgeSpec.edgeInit (V c main_v6) (V c main_arg1) (V c main_v7) (V c main_v8) (V c main_v9) :=
  (dat0 (F := Ideal) V c).arrAt_eq_of_cover 5 _ (fun t _ => flushed_init V c t) cover_init

end Cert.KernelIdeal.Hand

end
-- ==== Proof.KI.ReverseValueStep.lean ====
/-
  One reduction step of the reverse-edge region, read at an entry over the extended reals.

  The step builds a 1024 by 1024 block of 0/1 weights: the weight at (r, k) is 1 exactly when row r's source
  column word equals column k's destination row word and row r's destination column word equals column k's
  source row word. It multiplies that block with the step's 1024 rows of edge states and adds the product to
  the accumulator it found. At an entry (r, q) this is the accumulator's entry plus the sum over k of
  weight (r, k) times state (k, q). The block stored at the first step of a row block is zero everywhere.
-/
import proofs.«156653_j12429635354789_1_alg».proof.Proof.Gen.KernelIdeal.Skeleton
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

/-- The 0/1 weight of one pair of words pairs, as the step computes it: the conjunction of two equalities, widened
    to a 32-bit integer and converted exactly. -/
theorem weight_word (a b c d : BitVec 32) :
    (FloatOps.sitofp (F := Ideal) .f32 ((IntOp.andi (IntOp.cmpi .eq a b) (IntOp.cmpi .eq c d)).setWidth 32) : EReal)
      = if a = b ∧ c = d then 1 else 0 := by
  by_cases h : a = b ∧ c = d
  · rw [if_pos h, IntOp.andi_eq_one.mpr ⟨IntOp.cmpi_eq.mpr h.1, IntOp.cmpi_eq.mpr h.2⟩]
    show ((((1#1 : BitVec 1).setWidth 32).toInt : ℝ) : EReal) = 1
    rw [show ((1#1 : BitVec 1).setWidth 32).toInt = 1 from by decide]
    norm_num
  · rw [if_neg h, eq_zero_of_ne_one (fun h1 => h ⟨IntOp.cmpi_eq.mp (IntOp.andi_eq_one.mp h1).1, IntOp.cmpi_eq.mp (IntOp.andi_eq_one.mp h1).2⟩)]
    show ((((0#1 : BitVec 1).setWidth 32).toInt : ℝ) : EReal) = 0
    rw [show ((0#1 : BitVec 1).setWidth 32).toInt = 0 from by decide]
    norm_num

/-- A column of 1024 words broadcast along a new second axis reads row r's word at (r, k). -/
theorem bcast_col (x : Vec Ideal S1024x1 .i32) (r k : Fin 1024) :
    broadcastTo S1024x1024 x broadcasts_S1024x1_S1024x1024 (ix2 r k) = x (ix2 r (0 : Fin 1)) :=
  broadcastTo_apply x broadcasts_S1024x1_S1024x1024 (ix2 r k) (ix2 r (0 : Fin 1)) (fun a => by
    match a with
    | ⟨0, _⟩ => rfl
    | ⟨1, _⟩ => rfl)

/-- A row of 1024 words broadcast along the first axis reads column k's word at (r, k). -/
theorem bcast_row (x : Vec Ideal S1x1024 .i32) (r k : Fin 1024) :
    broadcastTo S1024x1024 x broadcasts_S1x1024_S1024x1024 (ix2 r k) = x (ix2 (0 : Fin 1) k) :=
  broadcastTo_apply x broadcasts_S1x1024_S1024x1024 (ix2 r k) (ix2 (0 : Fin 1) k) (fun a => by
    match a with
    | ⟨0, _⟩ => rfl
    | ⟨1, _⟩ => rfl)

theorem lhs_step_0 (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem lhs_step_1 (i : S1024x64.Idx) (q : dot_S1024x1024_S1024x64_S1024x64_1_0_0_1_n_n.contr.Idx) :
    (dot_S1024x1024_S1024x64_S1024x64_1_0_0_1_n_n.lhsIdx i q 1).val = (q ⟨0, by decide⟩).val :=
  dot_S1024x1024_S1024x64_S1024x64_1_0_0_1_n_n.lhsIdx_val_of_single rfl i q
theorem rhs_step_0 (i : S1024x64.Idx) (q : dot_S1024x1024_S1024x64_S1024x64_1_0_0_1_n_n.contr.Idx) :
    (dot_S1024x1024_S1024x64_S1024x64_1_0_0_1_n_n.rhsIdx i q 0).val = (q ⟨0, by decide⟩).val :=
  dot_S1024x1024_S1024x64_S1024x64_1_0_0_1_n_n.rhsIdx_val_of_single rfl i q
theorem rhs_step_1 (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- The product of a 1024 by 1024 block with a 1024 by 64 block, from a zero accumulator, at an entry. -/
theorem matmul_step_apply (y0 : FVec Ideal S1024x1024 .bf16) (y1 : FVec Ideal S1024x64 .bf16) (r : Fin 1024) (q : Fin 64) :
    matmul dot_S1024x1024_S1024x64_S1024x64_1_0_0_1_n_n none y0 y1 (constant (F := Ideal) S1024x64 .f32 0x00000000#32) (ix2 r q)
      = ∑ k : Fin 1024, y0 (ix2 r k) * y1 (ix2 k q) := by
  show FloatOps.matmul dot_S1024x1024_S1024x64_S1024x64_1_0_0_1_n_n none y0 y1 (constant S1024x64 .f32 0x00000000#32) (ix2 r q) = _
  rw [Ideal.matmul_constant_zero_apply, ← Equiv.sum_comp (ValueIdx.contrEquiv1 dot_S1024x1024_S1024x64_S1024x64_1_0_0_1_n_n 1024 rfl rfl).symm]
  refine Finset.sum_congr rfl fun k _ => ?_
  have hk := ValueIdx.contrEquiv1_symm_val dot_S1024x1024_S1024x64_S1024x64_1_0_0_1_n_n 1024 rfl rfl k
  have el : dot_S1024x1024_S1024x64_S1024x64_1_0_0_1_n_n.lhsIdx (ix2 r q) ((ValueIdx.contrEquiv1 dot_S1024x1024_S1024x64_S1024x64_1_0_0_1_n_n 1024 rfl rfl).symm k) = ix2 r k := funext fun a => Fin.ext (by
    match a with
    | ⟨0, _⟩ => exact lhs_step_0 _ _
    | ⟨1, _⟩ => exact (lhs_step_1 _ _).trans hk)
  have er : dot_S1024x1024_S1024x64_S1024x64_1_0_0_1_n_n.rhsIdx (ix2 r q) ((ValueIdx.contrEquiv1 dot_S1024x1024_S1024x64_S1024x64_1_0_0_1_n_n 1024 rfl rfl).symm k) = ix2 k q := funext fun a => Fin.ext (by
    match a with
    | ⟨0, _⟩ => exact (rhs_step_0 _ _).trans hk
    | ⟨1, _⟩ => exact rhs_step_1 _ _)
  rw [el, er]

/-- THE STEP AT AN ENTRY: the accumulator's entry plus the weighted sum of the step's 1024 rows of edge states. -/
theorem step_apply (x0 x1 : Vec Ideal S1024x1 .i32) (x2 x3 : Vec Ideal S1x1024 .i32) (x4 prev : Vec Ideal S1024x64 .f32)
    (r : Fin 1024) (q : Fin 64) :
    k1_pay2 (F := Ideal) x0 x1 x2 x3 x4 prev (ix2 r q)
      = prev (ix2 r q) + ∑ k : Fin 1024,
          (if x0 (ix2 r (0 : Fin 1)) = x3 (ix2 (0 : Fin 1) k) ∧ x1 (ix2 r (0 : Fin 1)) = x2 (ix2 (0 : Fin 1) k) then (1 : EReal) else 0)
            * x4 (ix2 k q) := by
  unfold k1_pay2
  simp only [shapeCast_self]
  rw [addf_apply, matmul_step_apply]
  refine congrArg (prev (ix2 r q) + ·) (Finset.sum_congr rfl fun k _ => ?_)
  rw [truncf_apply, truncf_apply, sitofp_apply, extui_apply]
  show FloatOps.sitofp (F := Ideal) .f32 ((IntOp.andi (IntOp.cmpi .eq (broadcastTo S1024x1024 x0 broadcasts_S1024x1_S1024x1024 (ix2 r k)) (broadcastTo S1024x1024 x3 broadcasts_S1x1024_S1024x1024 (ix2 r k)))
      (IntOp.cmpi .eq (broadcastTo S1024x1024 x1 broadcasts_S1024x1_S1024x1024 (ix2 r k)) (broadcastTo S1024x1024 x2 broadcasts_S1x1024_S1024x1024 (ix2 r k)))).setWidth 32) * x4 (ix2 k q) = _
  rw [bcast_col, bcast_col, bcast_row, bcast_row, weight_word]

/-- The block stored at the first step of a row block is zero at every entry. -/
theorem zero_apply (r : Fin 1024) (q : Fin 64) : k1_pay1 (F := Ideal) (ix2 r q) = 0 := by
  unfold k1_pay1
  simp only [shapeCast_self]
  show Ideal.ofBits .f32 0x00000000#32 = 0
  exact Ideal.ofBits_zero_f32

end Cert.KernelIdeal.Hand

end
-- ==== Proof.KI.ReverseValueAcc.lean ====
/-
  The reverse-edge region's accumulator, read at an entry after every grid point.

  The grid has 8 row blocks by 8 reduction steps; point t works on row block t / 8 at step t % 8. At step j the
  body reads rows 1024 (t / 8) .. of the two column arrays, columns 1024 j .. of the two row arrays, and rows
  1024 j .. of the edge states. So after point t the accumulator's entry (r, q) is the reverse-edge sum of edge
  1024 (t / 8) + r restricted to the first 1024 (t % 8 + 1) summed edges: the first step starts from zero, and
  every later step appends its 1024 terms to the sum the step before left.
-/
import proofs.«156653_j12429635354789_1_alg».proof.Proof.KI.ReverseAcc
import proofs.«156653_j12429635354789_1_alg».proof.Proof.KI.ReverseValueStep
import proofs.«156653_j12429635354789_1_alg».proof.Proof.EdgeSpec
import Idealize.ShloMosaic.Lib.ValueIdx
import Idealize.ShloMosaic.Lib.ValueLayout
import Idealize.ShloMosaic.PureOps.Ideal.Laws
import Mathlib.Algebra.BigOperators.Fin
import Mathlib.Algebra.BigOperators.Intervals

set_option maxRecDepth 16384

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

-- the TensorCore's buffer contents when the region is entered, over the extended reals
variable (V : (c : Dev nD) → (b : Ref sig .tc) → Buf (Elt Ideal) ((c : Thread nD τ).loc b))

/-! ## The arrays and the blocks, by their literal types -/

/-- Each edge's source, as a column. -/
abbrev srcColArr (c : Dev nD) : Cert.EdgeSpec.IMat 8192 1 := V c main_v21
/-- Each edge's destination, as a column. -/
abbrev dstColArr (c : Dev nD) : Cert.EdgeSpec.IMat 8192 1 := V c main_v22
/-- Each edge's source, as a row. -/
abbrev srcRowArr (c : Dev nD) : Cert.EdgeSpec.IMat 1 8192 := V c main_v23
/-- Each edge's destination, as a row. -/
abbrev dstRowArr (c : Dev nD) : Cert.EdgeSpec.IMat 1 8192 := V c main_v24
/-- The edge states. -/
abbrev statesArr (c : Dev nD) : Cert.EdgeSpec.Mat 8192 64 := V c main_v10

abbrev srcColBlk (c : Dev nD) (t : Fin cfg1.N) : Vec Ideal S1024x1 .i32 := iblk1 V c 0 t
abbrev dstColBlk (c : Dev nD) (t : Fin cfg1.N) : Vec Ideal S1024x1 .i32 := iblk1 V c 1 t
abbrev srcRowBlk (c : Dev nD) (t : Fin cfg1.N) : Vec Ideal S1x1024 .i32 := iblk1 V c 2 t
abbrev dstRowBlk (c : Dev nD) (t : Fin cfg1.N) : Vec Ideal S1x1024 .i32 := iblk1 V c 3 t
abbrev statesBlk (c : Dev nD) (t : Fin cfg1.N) : Vec Ideal S1024x64 .f32 := iblk1 V c 4 t

/-- The windows' block indices at point t: the column arrays and the output move with the row block t / 8, the row
    arrays and the edge states with the reduction step t % 8. -/
theorem idx_facts1 : ∀ t : Fin cfg1.N,
    win1_0.index t (0 : Fin 2) = t.val / 8 ∧ win1_0.index t (1 : Fin 2) = 0
    ∧ win1_1.index t (0 : Fin 2) = t.val / 8 ∧ win1_1.index t (1 : Fin 2) = 0
    ∧ win1_2.index t (0 : Fin 2) = 0 ∧ win1_2.index t (1 : Fin 2) = t.val % 8
    ∧ win1_3.index t (0 : Fin 2) = 0 ∧ win1_3.index t (1 : Fin 2) = t.val % 8
    ∧ win1_4.index t (0 : Fin 2) = t.val % 8 ∧ win1_4.index t (1 : Fin 2) = 0
    ∧ win1_5.index t (0 : Fin 2) = t.val / 8 ∧ win1_5.index t (1 : Fin 2) = 0 :=
  (by decide +kernel : ∀ t : Fin grid1.N, _)

/-- Row r of the source column's block at point t is edge 1024 (t / 8) + r's source. -/
theorem srcColBlk_apply (c : Dev nD) (t : Fin cfg1.N) (r : Fin 1024) (p : Fin 8192) (hp : p.val = 1024 * (t.val / 8) + r.val) :
    srcColBlk V c t (ix2 r (0 : Fin 1)) = srcColArr V c (ix2 p (0 : Fin 1)) := by
  obtain ⟨e00, e01, -⟩ := idx_facts1 t
  show iblk1 V c 0 t (ix2 r (0 : Fin 1)) = V c main_v21 (ix2 p (0 : Fin 1))
  unfold iblk1
  rw [View.read_apply]
  show V c main_v21 _ = V c main_v21 _
  refine congrArg (V c main_v21) (funext fun a => Fin.ext ?_)
  match a with
  | ⟨0, _⟩ => show win1_0.index t (0 : Fin 2) * 1024 + 1 * r.val = p.val; omega
  | ⟨1, _⟩ => show win1_0.index t (1 : Fin 2) * 1 + 1 * 0 = 0; omega

/-- Row r of the destination column's block at point t is edge 1024 (t / 8) + r's destination. -/
theorem dstColBlk_apply (c : Dev nD) (t : Fin cfg1.N) (r : Fin 1024) (p : Fin 8192) (hp : p.val = 1024 * (t.val / 8) + r.val) :
    dstColBlk V c t (ix2 r (0 : Fin 1)) = dstColArr V c (ix2 p (0 : Fin 1)) := by
  obtain ⟨-, -, e10, e11, -⟩ := idx_facts1 t
  show iblk1 V c 1 t (ix2 r (0 : Fin 1)) = V c main_v22 (ix2 p (0 : Fin 1))
  unfold iblk1
  rw [View.read_apply]
  show V c main_v22 _ = V c main_v22 _
  refine congrArg (V c main_v22) (funext fun a => Fin.ext ?_)
  match a with
  | ⟨0, _⟩ => show win1_1.index t (0 : Fin 2) * 1024 + 1 * r.val = p.val; omega
  | ⟨1, _⟩ => show win1_1.index t (1 : Fin 2) * 1 + 1 * 0 = 0; omega

/-- Column k of the source row's block at point t is edge 1024 (t % 8) + k's source. -/
theorem srcRowBlk_apply (c : Dev nD) (t : Fin cfg1.N) (k : Fin 1024) (e : Fin 8192) (he : e.val = 1024 * (t.val % 8) + k.val) :
    srcRowBlk V c t (ix2 (0 : Fin 1) k) = srcRowArr V c (ix2 (0 : Fin 1) e) := by
  obtain ⟨-, -, -, -, e20, e21, -⟩ := idx_facts1 t
  show iblk1 V c 2 t (ix2 (0 : Fin 1) k) = V c main_v23 (ix2 (0 : Fin 1) e)
  unfold iblk1
  rw [View.read_apply]
  show V c main_v23 _ = V c main_v23 _
  refine congrArg (V c main_v23) (funext fun a => Fin.ext ?_)
  match a with
  | ⟨0, _⟩ => show win1_2.index t (0 : Fin 2) * 1 + 1 * 0 = 0; omega
  | ⟨1, _⟩ => show win1_2.index t (1 : Fin 2) * 1024 + 1 * k.val = e.val; omega

/-- Column k of the destination row's block at point t is edge 1024 (t % 8) + k's destination. -/
theorem dstRowBlk_apply (c : Dev nD) (t : Fin cfg1.N) (k : Fin 1024) (e : Fin 8192) (he : e.val = 1024 * (t.val % 8) + k.val) :
    dstRowBlk V c t (ix2 (0 : Fin 1) k) = dstRowArr V c (ix2 (0 : Fin 1) e) := by
  obtain ⟨-, -, -, -, -, -, e30, e31, -⟩ := idx_facts1 t
  show iblk1 V c 3 t (ix2 (0 : Fin 1) k) = V c main_v24 (ix2 (0 : Fin 1) e)
  unfold iblk1
  rw [View.read_apply]
  show V c main_v24 _ = V c main_v24 _
  refine congrArg (V c main_v24) (funext fun a => Fin.ext ?_)
  match a with
  | ⟨0, _⟩ => show win1_3.index t (0 : Fin 2) * 1 + 1 * 0 = 0; omega
  | ⟨1, _⟩ => show win1_3.index t (1 : Fin 2) * 1024 + 1 * k.val = e.val; omega

/-- Row k of the edge states' block at point t is edge 1024 (t % 8) + k's state. -/
theorem statesBlk_apply (c : Dev nD) (t : Fin cfg1.N) (k : Fin 1024) (q : Fin 64) (e : Fin 8192) (he : e.val = 1024 * (t.val % 8) + k.val) :
    statesBlk V c t (ix2 k q) = statesArr V c (ix2 e q) := by
  obtain ⟨-, -, -, -, -, -, -, -, e40, e41, -⟩ := idx_facts1 t
  show iblk1 V c 4 t (ix2 k q) = V c main_v10 (ix2 e q)
  unfold iblk1
  rw [View.read_apply]
  show V c main_v10 _ = V c main_v10 _
  refine congrArg (V c main_v10) (funext fun a => Fin.ext ?_)
  match a with
  | ⟨0, _⟩ => show win1_4.index t (0 : Fin 2) * 1024 + 1 * k.val = e.val; omega
  | ⟨1, _⟩ => show win1_4.index t (1 : Fin 2) * 64 + 1 * q.val = q.val; omega

/-! ## The partial sums -/

/-- Summed edge number n's term of edge p's reverse sum at column q (zero past the 8192 edges). -/
def revTerm (c : Dev nD) (p : Fin 8192) (q : Fin 64) (n : ℕ) : EReal :=
  if h : n < 8192 then
    Cert.EdgeSpec.revWeight (srcColArr V c) (dstColArr V c) (srcRowArr V c) (dstRowArr V c) p ⟨n, h⟩ * statesArr V c (ix2 (⟨n, h⟩ : Fin 8192) q)
  else 0

/-- The sum over all 8192 summed edges is the specification's reverse sum. -/
theorem sum_revTerm (c : Dev nD) (p : Fin 8192) (q : Fin 64) :
    ∑ n ∈ Finset.range 8192, revTerm V c p q n
      = Cert.EdgeSpec.reverseSumAt (srcColArr V c) (dstColArr V c) (srcRowArr V c) (dstRowArr V c) (statesArr V c) p q := by
  unfold Cert.EdgeSpec.reverseSumAt
  rw [← Fin.sum_univ_eq_sum_range (fun n => revTerm V c p q n) 8192]
  refine Finset.sum_congr rfl fun k _ => ?_
  unfold revTerm
  rw [dif_pos k.isLt]

/-- The 1024 terms a step at point t adds to row r's entry are the summed edges 1024 (t % 8) .. of edge
    1024 (t / 8) + r's reverse sum. -/
theorem step_terms (c : Dev nD) (t : Fin cfg1.N) (r : Fin 1024) (q : Fin 64) (p : Fin 8192) (hp : p.val = 1024 * (t.val / 8) + r.val) :
    (∑ k : Fin 1024,
        (if srcColBlk V c t (ix2 r (0 : Fin 1)) = dstRowBlk V c t (ix2 (0 : Fin 1) k)
            ∧ dstColBlk V c t (ix2 r (0 : Fin 1)) = srcRowBlk V c t (ix2 (0 : Fin 1) k) then (1 : EReal) else 0)
          * statesBlk V c t (ix2 k q))
      = ∑ m ∈ Finset.range 1024, revTerm V c p q (1024 * (t.val % 8) + m) := by
  have hN : t.val < 64 := lt_of_lt_of_eq t.isLt (show cfg1.N = 64 from N_1)
  rw [← Fin.sum_univ_eq_sum_range (fun m => revTerm V c p q (1024 * (t.val % 8) + m)) 1024]
  refine Finset.sum_congr rfl fun k _ => ?_
  have hk : 1024 * (t.val % 8) + k.val < 8192 := by have := k.isLt; omega
  unfold revTerm
  rw [dif_pos hk]
  unfold Cert.EdgeSpec.revWeight
  rw [srcColBlk_apply V c t r p hp, dstColBlk_apply V c t r p hp,
    srcRowBlk_apply V c t k ⟨1024 * (t.val % 8) + k.val, hk⟩ rfl, dstRowBlk_apply V c t k ⟨1024 * (t.val % 8) + k.val, hk⟩ rfl,
    statesBlk_apply V c t k q ⟨1024 * (t.val % 8) + k.val, hk⟩ rfl]

/-- One step at point t over an accumulator, at an entry: the accumulator's entry plus the step's 1024 terms. -/
theorem stepAt_apply (c : Dev nD) (t : Fin cfg1.N) (prev : Vec Ideal S1024x64 .f32) (r : Fin 1024) (q : Fin 64) (p : Fin 8192)
    (hp : p.val = 1024 * (t.val / 8) + r.val) :
    stepAt V c t prev (ix2 r q) = prev (ix2 r q) + ∑ m ∈ Finset.range 1024, revTerm V c p q (1024 * (t.val % 8) + m) :=
  (step_apply (srcColBlk V c t) (dstColBlk V c t) (srcRowBlk V c t) (dstRowBlk V c t) (statesBlk V c t) prev r q).trans
    (congrArg (prev (ix2 r q) + ·) (step_terms V c t r q p hp))

/-- THE INVARIANT: after point n the accumulator's entry (r, q) is edge 1024 (n / 8) + r's reverse sum over the first
    1024 (n % 8 + 1) summed edges. -/
theorem accAt_apply (c : Dev nD) : ∀ (n : ℕ) (hn : n < cfg1.N) (r : Fin 1024) (q : Fin 64) (p : Fin 8192),
    p.val = 1024 * (n / 8) + r.val →
    accAt V c n hn (ix2 r q) = ∑ m ∈ Finset.range (1024 * (n % 8 + 1)), revTerm V c p q m := by
  intro n
  induction n with
  | zero =>
    intro hn r q p hp
    rw [accAt_first V c ⟨0, hn⟩ rfl, stepAt_apply V c ⟨0, hn⟩ _ r q p hp, zero_apply, zero_add]
    refine Finset.sum_congr rfl fun m _ => ?_
    show revTerm V c p q (1024 * (0 % 8) + m) = _
    rw [show 1024 * (0 % 8) + m = m from by omega]
  | succ n ih =>
    intro hn r q p hp
    by_cases h : (n + 1) % 8 = 0
    · rw [accAt_first V c ⟨n + 1, hn⟩ h, stepAt_apply V c ⟨n + 1, hn⟩ _ r q p hp, zero_apply, zero_add]
      show ∑ m ∈ Finset.range 1024, revTerm V c p q (1024 * ((n + 1) % 8) + m) = _
      rw [h]
      refine Finset.sum_congr rfl fun m _ => ?_
      rw [show 1024 * 0 + m = m from by omega]
    · have e := accAt_next V c ⟨n + 1, hn⟩ h
      have e' : accAt V c (n + 1) hn = stepAt V c ⟨n + 1, hn⟩ (accAt V c n (Nat.lt_of_succ_lt hn)) := e
      rw [e', stepAt_apply V c ⟨n + 1, hn⟩ _ r q p hp, ih (Nat.lt_of_succ_lt hn) r q p (by omega)]
      show _ + ∑ m ∈ Finset.range 1024, revTerm V c p q (1024 * ((n + 1) % 8) + m) = _
      rw [show 1024 * ((n + 1) % 8 + 1) = 1024 * (n % 8 + 1) + 1024 from by omega, Finset.sum_range_add,
        show 1024 * ((n + 1) % 8) = 1024 * (n % 8 + 1) from by omega]

end Cert.KernelIdeal.Hand

end
-- ==== Proof.KI.ReverseValue.lean ====
/-
  The reverse-edge region's output array, as a whole-array function of the arrays the region finds.

  The output block of row block i is written back once, at the last reduction step (point 8 i + 7). There the
  accumulator's entry (r, q) is edge 1024 i + r's reverse sum over all 8192 summed edges. The eight written blocks
  tile the 8192 rows: row p lies in the block written at point 8 (p / 1024) + 7. So the array ends holding the
  specification's reverse-edge term at every entry.
-/
import proofs.«156653_j12429635354789_1_alg».proof.Proof.KI.ReverseAcc
import proofs.«156653_j12429635354789_1_alg».proof.Proof.KI.ReverseValueAcc
import proofs.«156653_j12429635354789_1_alg».proof.Proof.EdgeSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe
open Idealize.ShloMosaic.Pipeline (Dat Cfg Window)
open Idealize.ShloMosaic.ValueIdx
open Cert.KernelIdeal Cert.KernelIdeal.Gen

-- the TensorCore's buffer contents when the region is entered, over the extended reals
variable (V : (c : Dev nD) → (b : Ref sig .tc) → Buf (Elt Ideal) ((c : Thread nD τ).loc b))

/-- The specification's reverse-edge term of the arrays as the region finds them. -/
abbrev revResult (c : Dev nD) : Cert.EdgeSpec.Mat 8192 64 :=
  Cert.EdgeSpec.reverseSum (srcColArr V c) (dstColArr V c) (srcRowArr V c) (dstRowArr V c) (statesArr V c)

/-- At a last reduction step the accumulator's entry (r, q) is the whole reverse sum of the edge its row stands for. -/
theorem accAt_last_apply (c : Dev nD) (t : Fin cfg1.N) (h7 : t.val % 8 = 7) (r : Fin 1024) (q : Fin 64) (p : Fin 8192)
    (hp : p.val = 1024 * (t.val / 8) + r.val) :
    accAt V c t.val t.isLt (ix2 r q) = revResult V c (ix2 p q) := by
  rw [accAt_apply V c t.val t.isLt r q p hp, h7]
  show ∑ m ∈ Finset.range 8192, revTerm V c p q m = _
  rw [sum_revTerm]
  rfl

/-- What a last step writes back is its block of the reverse-edge term. -/
theorem flushed1_5_eq (c : Dev nD) (t : Fin cfg1.N) (hf : (cfg1.win 5).flush t = true) :
    (dat1 V c).flushed 5 t = ((cfg1.win 5).blk t).view.read (Elt Ideal) (revResult V c) := by
  have h7 : t.val % 8 = 7 := (flush1_5 t).mp hf
  have hN : t.val < 64 := lt_of_lt_of_eq t.isLt (show cfg1.N = 64 from N_1)
  obtain ⟨-, -, -, -, -, -, -, -, -, -, e50, e51⟩ := idx_facts1 t
  show (cfg1.win 5).cut (grid1.coords t) ((dat1 V c).after 5 t) = _
  rw [after1_5]
  funext j
  rw [View.read_apply]
  have hj0 : (j 0).val < 1024 := (j 0).isLt
  have hj1 : (j 1).val < 64 := (j 1).isLt
  have hp : 1024 * (t.val / 8) + (j 0).val < 8192 := by omega
  show accAt V c t.val t.isLt j = revResult V c (((cfg1.win 5).blk t).view.emb j)
  have ej : j = ix2 (⟨(j 0).val, hj0⟩ : Fin 1024) (⟨(j 1).val, hj1⟩ : Fin 64) := by
    funext a
    match a with
    | ⟨0, _⟩ => rfl
    | ⟨1, _⟩ => rfl
  have ee : ((cfg1.win 5).blk t).view.emb j = ix2 (⟨1024 * (t.val / 8) + (j 0).val, hp⟩ : Fin 8192) (⟨(j 1).val, hj1⟩ : Fin 64) := by
    funext a
    apply Fin.ext
    match a with
    | ⟨0, _⟩ => show win1_5.index t (0 : Fin 2) * 1024 + 1 * (j 0).val = 1024 * (t.val / 8) + (j 0).val; omega
    | ⟨1, _⟩ => show win1_5.index t (1 : Fin 2) * 64 + 1 * (j 1).val = (j 1).val; omega
  rw [ee]
  exact (congrArg (accAt V c t.val t.isLt) ej).trans (accAt_last_apply V c t h7 _ _ _ rfl)

/-- The array after the region: the reverse-edge term of the arrays the region finds. -/
theorem reverseValue (c : Dev nD) :
    (dat1 (F := Ideal) V c).arrAt 5 cfg1.N
      = Cert.EdgeSpec.reverseSum (V c main_v21) (V c main_v22) (V c main_v23) (V c main_v24) (V c main_v10) :=
  (dat1 (F := Ideal) V c).arrAt_eq_of_cover 5 (revResult V c) (flushed1_5_eq V c) fun i => by
    have hi0 : (i 0).val < 8192 := (i 0).isLt
    have hi1 : (i 1).val < 64 := (i 1).isLt
    have hN : cfg1.N = 64 := N_1
    have ht : 8 * ((i 0).val / 1024) + 7 < cfg1.N := by rw [hN]; omega
    obtain ⟨-, -, -, -, -, -, -, -, -, -, e50, e51⟩ := idx_facts1 ⟨8 * ((i 0).val / 1024) + 7, ht⟩
    have e50' : win1_5.index ⟨8 * ((i 0).val / 1024) + 7, ht⟩ (0 : Fin 2) = (8 * ((i 0).val / 1024) + 7) / 8 := e50
    refine ⟨⟨8 * ((i 0).val / 1024) + 7, ht⟩, (flush1_5 _).mpr (by show (8 * ((i 0).val / 1024) + 7) % 8 = 7; omega), ?_⟩
    show i ∈ ((View.whole main_v25).slice (win1_5.rect ⟨8 * ((i 0).val / 1024) + 7, ht⟩)).set
    rw [View.set_slice_whole, Rect.mem_set_unit]
    intro a
    match a with
    | ⟨0, _⟩ =>
      show win1_5.index ⟨8 * ((i 0).val / 1024) + 7, ht⟩ (0 : Fin 2) * 1024 ≤ (i 0).val
        ∧ (i 0).val < win1_5.index ⟨8 * ((i 0).val / 1024) + 7, ht⟩ (0 : Fin 2) * 1024 + 1024
      omega
    | ⟨1, _⟩ =>
      show win1_5.index ⟨8 * ((i 0).val / 1024) + 7, ht⟩ (1 : Fin 2) * 64 ≤ (i 1).val
        ∧ (i 1).val < win1_5.index ⟨8 * ((i 0).val / 1024) + 7, ht⟩ (1 : Fin 2) * 64 + 64
      omega

end Cert.KernelIdeal.Hand

end
-- ==== Proof.KI.UpdValue.lean ====
/-
  The update layer's result as one function of the arrays the region finds. At each of its 4 points the body stores,
  at row r and column q of its 2048-row block, the sum over 64 coordinates of a · wa (a the edge states), plus the
  sum over 64 coordinates of b · wb (b the reverse-edge term), plus the bias at q: each product into a zero
  accumulator is the plain sum over the shared coordinate, the narrowing casts are the identity on extended reals,
  and the bias row is spread over the rows. Point t's block is rows 2048 t … 2048 t + 2047 of the two left factors
  and of the result, the weights and the bias are read whole, and the 4 blocks tile the 8192 rows: so the result
  array ends holding `a · wa + b · wb + bias` index by index.
-/
import proofs.«156653_j12429635354789_1_alg».proof.Proof.KI.DenseUpd
import proofs.«156653_j12429635354789_1_alg».proof.Proof.EdgeSpec
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open scoped BigOperators

/-! ## The two products of the body at an index -/

theorem lhsU_0 (i : S2048x64.Idx) (q : dot_S2048x64_S64x64_S2048x64_1_0_0_1_n_n.contr.Idx) :
    (dot_S2048x64_S64x64_S2048x64_1_0_0_1_n_n.lhsIdx i q 0).val = (i 0).val := by
  unfold DotDims.lhsIdx
  rw [dif_neg (show ¬(0 : Fin S2048x64.rank) ∈ dot_S2048x64_S64x64_S2048x64_1_0_0_1_n_n.lhsBatch by decide), dif_pos (show (0 : Fin S2048x64.rank) ∈ dot_S2048x64_S64x64_S2048x64_1_0_0_1_n_n.lhsNonContracting by decide)]
  rfl
theorem lhsU_1 (i : S2048x64.Idx) (q : dot_S2048x64_S64x64_S2048x64_1_0_0_1_n_n.contr.Idx) :
    (dot_S2048x64_S64x64_S2048x64_1_0_0_1_n_n.lhsIdx i q 1).val = (q ⟨0, by decide⟩).val :=
  dot_S2048x64_S64x64_S2048x64_1_0_0_1_n_n.lhsIdx_val_of_single rfl i q
theorem rhsU_0 (i : S2048x64.Idx) (q : dot_S2048x64_S64x64_S2048x64_1_0_0_1_n_n.contr.Idx) :
    (dot_S2048x64_S64x64_S2048x64_1_0_0_1_n_n.rhsIdx i q 0).val = (q ⟨0, by decide⟩).val :=
  dot_S2048x64_S64x64_S2048x64_1_0_0_1_n_n.rhsIdx_val_of_single rfl i q
theorem rhsU_1 (i : S2048x64.Idx) (q : dot_S2048x64_S64x64_S2048x64_1_0_0_1_n_n.contr.Idx) :
    (dot_S2048x64_S64x64_S2048x64_1_0_0_1_n_n.rhsIdx i q 1).val = (i 1).val := by
  unfold DotDims.rhsIdx
  rw [dif_neg (show ¬(1 : Fin S64x64.rank) ∈ dot_S2048x64_S64x64_S2048x64_1_0_0_1_n_n.rhsBatch by decide), dif_pos (show (1 : Fin S64x64.rank) ∈ dot_S2048x64_S64x64_S2048x64_1_0_0_1_n_n.rhsNonContracting by decide)]
  rfl

/-- A 2048×64 by 64×64 product into the zero accumulator, at row `r` and column `q`: the sum over the 64 shared
    coordinates. Both products of the update layer have this shape. -/
theorem matmulU_at (x : FVec Ideal S2048x64 .bf16) (y : FVec Ideal S64x64 .bf16) (r : Fin 2048) (q : Fin 64) :
    matmul dot_S2048x64_S64x64_S2048x64_1_0_0_1_n_n none x y (constant (F := Ideal) S2048x64 .f32 0x00000000#32) (ix2 r q)
      = ∑ k : Fin 64, x (ix2 r k) * y (ix2 k q) := by
  simp only [matmul]
  rw [Ideal.matmul_constant_zero_apply, ← Equiv.sum_comp (contrEquiv1 dot_S2048x64_S64x64_S2048x64_1_0_0_1_n_n 64 rfl rfl).symm]
  refine Finset.sum_congr rfl fun k _ => ?_
  have hk := contrEquiv1_symm_val dot_S2048x64_S64x64_S2048x64_1_0_0_1_n_n 64 rfl rfl k
  have el : dot_S2048x64_S64x64_S2048x64_1_0_0_1_n_n.lhsIdx (ix2 r q) ((contrEquiv1 dot_S2048x64_S64x64_S2048x64_1_0_0_1_n_n 64 rfl rfl).symm k) = ix2 r k := funext fun a => Fin.ext (by
    match a with
    | ⟨0, _⟩ => exact lhsU_0 _ _
    | ⟨1, _⟩ => exact (lhsU_1 _ _).trans hk)
  have er : dot_S2048x64_S64x64_S2048x64_1_0_0_1_n_n.rhsIdx (ix2 r q) ((contrEquiv1 dot_S2048x64_S64x64_S2048x64_1_0_0_1_n_n 64 rfl rfl).symm k) = ix2 k q := funext fun a => Fin.ext (by
    match a with
    | ⟨0, _⟩ => exact (rhsU_0 _ _).trans hk
    | ⟨1, _⟩ => exact rhsU_1 _ _)
  rw [el, er]

/-- The bias row spread over the 2048 rows reads the bias at the column. -/
theorem bias_rows_upd_at (v : FVec Ideal S1x64 .f32) (r : Fin 2048) (q : Fin 64) :
    broadcastTo S2048x64 v broadcasts_S1x64_S2048x64 (ix2 r q) = v (ix2 (0 : Fin 1) q) := by
  refine broadcastTo_apply _ _ _ _ fun a => ?_
  match a with
  | ⟨0, _⟩ => rfl
  | ⟨1, _⟩ => rfl

/-- What the body stores, at row `r` and column `q` of the block: the two sums of products and the bias. -/
theorem pay_upd_at (x0 : Vec Ideal S2048x64 .f32) (x1 : Vec Ideal S2048x64 .f32) (x2 : Vec Ideal S64x64 .f32) (x3 : Vec Ideal S64x64 .f32)
    (x4 : Vec Ideal S1x64 .f32) (r : Fin 2048) (q : Fin 64) :
    k2_pay1 (F := Ideal) x0 x1 x2 x3 x4 (ix2 r q)
      = ((∑ k : Fin 64, x0 (ix2 r k) * x2 (ix2 k q)) + ∑ k : Fin 64, x1 (ix2 r k) * x3 (ix2 k q)) + x4 (ix2 (0 : Fin 1) q) := by
  unfold k2_pay1
  rw [addf_apply, addf_apply, matmulU_at, matmulU_at, bias_rows_upd_at]
  simp only [truncf_apply, shapeCast_self]

/-! ## From the blocks to the array -/

-- the region's entry contents
variable (V : (c : Dev nD) → (b : Ref sig .tc) → Buf (Elt Ideal) ((c : Thread nD τ).loc b))

/-- The printed index maps over the grid: the two left factors' and the result's row blocks move with the point,
    the weights and the bias stay. -/
theorem index_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The edge-state block at point `t` is rows `2048 t … 2048 t + 2047` of its array. -/
theorem rows_a2 (c : Dev nD) (t : Fin cfg2.N) (x : S2048x64.Idx) (k : S8192x64.Idx)
    (hk0 : (k 0).val = t.val * 2048 + (x 0).val) (hk1 : (k 1).val = (x 1).val) :
    (iblk2 (F := Ideal) V c 0 t : Vec Ideal S2048x64 .f32) x = (V c main_v10 : S8192x64.Idx → Elt Ideal .f32) k := by
  obtain ⟨e0, e1, -⟩ := index_facts2 t
  unfold iblk2
  rw [View.read_apply]
  show V c main_v10 _ = V c main_v10 _
  congr 1
  funext a
  apply Fin.ext
  match a with
  | ⟨0, _⟩ => show win2_0.index t 0 * 2048 + 1 * (x 0).val = (k 0).val; rw [e0, hk0]; omega
  | ⟨1, _⟩ => show win2_0.index t 1 * 64 + 1 * (x 1).val = (k 1).val; rw [e1, hk1]; omega

/-- The reverse-term block at point `t` is the same rows of its array. -/
theorem rows_b2 (c : Dev nD) (t : Fin cfg2.N) (x : S2048x64.Idx) (k : S8192x64.Idx)
    (hk0 : (k 0).val = t.val * 2048 + (x 0).val) (hk1 : (k 1).val = (x 1).val) :
    (iblk2 (F := Ideal) V c 1 t : Vec Ideal S2048x64 .f32) x = (V c main_v26 : S8192x64.Idx → Elt Ideal .f32) k := by
  obtain ⟨-, -, e0, e1, -⟩ := index_facts2 t
  unfold iblk2
  rw [View.read_apply]
  show V c main_v26 _ = V c main_v26 _
  congr 1
  funext a
  apply Fin.ext
  match a with
  | ⟨0, _⟩ => show win2_1.index t 0 * 2048 + 1 * (x 0).val = (k 0).val; rw [e0, hk0]; omega
  | ⟨1, _⟩ => show win2_1.index t 1 * 64 + 1 * (x 1).val = (k 1).val; rw [e1, hk1]; omega

/-- The first weights' block is the whole array at every point. -/
theorem whole_wa2 (c : Dev nD) (t : Fin cfg2.N) :
    (iblk2 (F := Ideal) V c 2 t : Vec Ideal S64x64 .f32) = (V c main_v27 : S64x64.Idx → Elt Ideal .f32) := by
  obtain ⟨-, -, -, -, e0, e1, -⟩ := index_facts2 t
  funext x
  unfold iblk2
  rw [View.read_apply]
  show V c main_v27 _ = V c main_v27 _
  congr 1
  funext a
  apply Fin.ext
  match a with
  | ⟨0, _⟩ => show win2_2.index t 0 * 64 + 1 * (x 0).val = (x 0).val; rw [e0]; omega
  | ⟨1, _⟩ => show win2_2.index t 1 * 64 + 1 * (x 1).val = (x 1).val; rw [e1]; omega

/-- So is the second weights' … -/
theorem whole_wb2 (c : Dev nD) (t : Fin cfg2.N) :
    (iblk2 (F := Ideal) V c 3 t : Vec Ideal S64x64 .f32) = (V c main_v28 : S64x64.Idx → Elt Ideal .f32) := by
  obtain ⟨-, -, -, -, -, -, e0, e1, -⟩ := index_facts2 t
  funext x
  unfold iblk2
  rw [View.read_apply]
  show V c main_v28 _ = V c main_v28 _
  congr 1
  funext a
  apply Fin.ext
  match a with
  | ⟨0, _⟩ => show win2_3.index t 0 * 64 + 1 * (x 0).val = (x 0).val; rw [e0]; omega
  | ⟨1, _⟩ => show win2_3.index t 1 * 64 + 1 * (x 1).val = (x 1).val; rw [e1]; omega

/-- … and the bias's. -/
theorem whole_bias2 (c : Dev nD) (t : Fin cfg2.N) :
    (iblk2 (F := Ideal) V c 4 t : Vec Ideal S1x64 .f32) = (V c main_v29 : S1x64.Idx → Elt Ideal .f32) := by
  obtain ⟨-, -, -, -, -, -, -, -, e0, e1, -⟩ := index_facts2 t
  funext x
  unfold iblk2
  rw [View.read_apply]
  show V c main_v29 _ = V c main_v29 _
  congr 1
  funext a
  apply Fin.ext
  match a with
  | ⟨0, _⟩ => show win2_4.index t 0 * 1 + 1 * (x 0).val = (x 0).val; rw [e0]; omega
  | ⟨1, _⟩ => show win2_4.index t 1 * 64 + 1 * (x 1).val = (x 1).val; rw [e1]; omega

/-- One element of a point's stored block: when the two left blocks hold row `i 0` of their arrays at the block's row
    `j 0`, and the weight and bias blocks are the arrays, the stored value at `j` is the affine map at `i`. -/
theorem stored_upd_at (a : Cert.EdgeSpec.Mat 8192 64) (b : Cert.EdgeSpec.Mat 8192 64) (wa : Cert.EdgeSpec.Mat 64 64)
    (wb : Cert.EdgeSpec.Mat 64 64) (bias : Cert.EdgeSpec.Mat 1 64)
    (x0 : Vec Ideal S2048x64 .f32) (x1 : Vec Ideal S2048x64 .f32) (x2 : Vec Ideal S64x64 .f32) (x3 : Vec Ideal S64x64 .f32)
    (x4 : Vec Ideal S1x64 .f32) (j : S2048x64.Idx) (i : S8192x64.Idx)
    (h0 : ∀ k : Fin 64, x0 (ix2 (j 0) k) = a (ix2 (i 0) k)) (h1 : ∀ k : Fin 64, x1 (ix2 (j 0) k) = b (ix2 (i 0) k))
    (h2 : x2 = wa) (h3 : x3 = wb) (h4 : x4 = bias) (hq : j 1 = i 1) :
    k2_pay1 (F := Ideal) x0 x1 x2 x3 x4 j = Cert.EdgeSpec.edgeUpd a b wa wb bias i := by
  subst h2 h3 h4
  obtain ⟨r, q, rfl⟩ : ∃ (r : Fin 2048) (q : Fin 64), j = ix2 r q := ⟨j 0, j 1, eq_ix2 j⟩
  have h0' : ∀ k : Fin 64, x0 (ix2 r k) = a (ix2 (i 0) k) := h0
  have h1' : ∀ k : Fin 64, x1 (ix2 r k) = b (ix2 (i 0) k) := h1
  have hq' : q = i 1 := hq
  unfold Cert.EdgeSpec.edgeUpd Cert.EdgeSpec.edgeUpdAt
  rw [pay_upd_at]
  simp only [h0', h1', hq']

/-- What point `t` writes back is block `t` of the affine map of the arrays as the region finds them. -/
theorem flushed_upd (c : Dev nD) (t : Fin cfg2.N) :
    (dat2 (F := Ideal) V c).flushed 5 t = ((cfg2.win 5).blk t).view.read (Elt Ideal)
      (Cert.EdgeSpec.edgeUpd (V c main_v10) (V c main_v26) (V c main_v27) (V c main_v28) (V c main_v29)) := by
  show (cfg2.win 5).cut (grid2.coords t) ((dat2 V c).after 5 t) = _
  rw [after2_5]
  obtain ⟨-, -, -, -, -, -, -, -, -, -, e0, e1⟩ := index_facts2 t
  funext j
  rw [View.read_apply]
  refine stored_upd_at (V c main_v10) (V c main_v26) (V c main_v27) (V c main_v28) (V c main_v29)
    (iblk2 V c 0 t) (iblk2 V c 1 t) (iblk2 V c 2 t) (iblk2 V c 3 t) (iblk2 V c 4 t) j (((cfg2.win 5).blk t).view.emb j)
    (fun k => rows_a2 V c t _ _ ?_ rfl) (fun k => rows_b2 V c t _ _ ?_ rfl) (whole_wa2 V c t) (whole_wb2 V c t) (whole_bias2 V c t) ?_
  · show win2_5.index t 0 * 2048 + 1 * (j 0).val = t.val * 2048 + (j 0).val
    rw [e0]; omega
  · show win2_5.index t 0 * 2048 + 1 * (j 0).val = t.val * 2048 + (j 0).val
    rw [e0]; omega
  · apply Fin.ext
    show (j 1).val = win2_5.index t 1 * 64 + 1 * (j 1).val
    rw [e1]; omega

/-- Every index of the result is in the block of the point its row falls in. -/
theorem cover_upd (i : S8192x64.Idx) : ∃ t : Fin cfg2.N, (cfg2.win 5).flush t = true ∧ i ∈ ((cfg2.win 5).blk t).view.set := by
  have hi0 : (i 0).val < 8192 := (i 0).isLt
  have hi1 : (i 1).val < 64 := (i 1).isLt
  have hN : cfg2.N = 4 := N_2
  obtain ⟨t, ht⟩ : ∃ t : Fin cfg2.N, t.val = (i 0).val / 2048 := ⟨⟨(i 0).val / 2048, by rw [hN]; omega⟩, rfl⟩
  obtain ⟨-, -, -, -, -, -, -, -, -, -, e0, e1⟩ := index_facts2 t
  refine ⟨t, flush2_5 t, ?_⟩
  show i ∈ ((View.whole main_v30).slice (win2_5.rect t)).set
  rw [View.set_slice_whole, Rect.mem_set_unit]
  intro a
  match a with
  | ⟨0, _⟩ => show win2_5.index t 0 * 2048 ≤ (i 0).val ∧ (i 0).val < win2_5.index t 0 * 2048 + 2048
              rw [e0, ht]; omega
  | ⟨1, _⟩ => show win2_5.index t 1 * 64 ≤ (i 1).val ∧ (i 1).val < win2_5.index t 1 * 64 + 64
              rw [e1]; omega

/-- THE UPDATE LAYER'S RESULT: after the region the result array holds `a · wa + b · wb + bias` of the arrays the region
    found, `a` the edge states and `b` the reverse-edge term. -/
theorem updValue (c : Dev nD) :
    (dat2 (F := Ideal) V c).arrAt 5 cfg2.N
      = Cert.EdgeSpec.edgeUpd (V c main_v10) (V c main_v26) (V c main_v27) (V c main_v28) (V c main_v29) :=
  (dat2 (F := Ideal) V c).arrAt_eq_of_cover 5 _ (fun t _ => flushed_upd V c t) cover_upd

end Cert.KernelIdeal.Hand

end
-- ==== Proof.KI.HostReads.lean ====
/-
  What each host stretch leaves in the buffers the regions read, as functions of the buffers it found:
  the gather index (a negative node id wrapped once by the table's length), the gathered node features,
  the two row blocks of each weight matrix, the biases as rows, the edge endpoints as columns and rows, the
  per-node sums gathered back at the sources, and the message (gathered sums minus the reverse-edge term).
-/
import proofs.«156653_j12429635354789_1_alg».proof.Proof.Gen.KernelIdeal.Launch
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- A node id as a gather index: a negative id wrapped once by the table's 20000 rows, as a column. -/
def nodeIdx (ids : (⟨S8192, .i32⟩ : BufTy).Contents (Elt F)) : (⟨S8192x1, .i32⟩ : BufTy).Contents (Elt F) :=
  broadcastInDim S8192x1 ![0] bcast_S8192_S8192x1_0
    (select (cmpi .slt ids (broadcastInDim S8192 ![] bcast_S_S8192 (constantI S_ 32 0#32)))
      (addi ids (broadcastInDim S8192 ![] bcast_S_S8192 (constantI S_ 32 20000#32))) ids)

/-- The rows of a node table at the edges' node ids. -/
def rowsAt (table : (⟨S20000x64, .f32⟩ : BufTy).Contents (Elt F)) (ids : (⟨S8192, .i32⟩ : BufTy).Contents (Elt F)) :
    (⟨S8192x64, .f32⟩ : BufTy).Contents (Elt F) :=
  Host.gather gather_S20000x64_S8192x1_S8192x64_1_0_n_n_0_1_164 table (nodeIdx ids)

/-- The per-node sums of edge rows `e` over the edges' node ids `ids`. -/
def nodeSums (ids : (⟨S8192, .i32⟩ : BufTy).Contents (Elt F)) (e : (⟨S8192x64, .f32⟩ : BufTy).Contents (Elt F)) :
    (⟨S20000x64, .f32⟩ : BufTy).Contents (Elt F) :=
  Host.scatterAdd scatter_S20000x64_S8192x1_S8192x64_1_0_0_1
    (broadcastInDim S20000x64 ![] bcast_S_S20000x64 (constant S_ .f32 0x00000000#32))
    (broadcastInDim S8192x1 ![0] bcast_S8192_S8192x1_0 ids) e

variable (W : Valuation τ sig (Elt F))

/-! ## Before the first dense layer -/

theorem read0_v6 : after hostOps0 W (Proc.devRef .tc main_v6) = rowsAt (W (Proc.devRef .tc main_arg0)) (W (Proc.devRef .tc main_arg6)) := by
  dsimp only [hostOps0]; after_results; try rfl
theorem read0_v7 : after hostOps0 W (Proc.devRef .tc main_v7)
    = extractStridedSlice S64x64 ![0, 0] (W (Proc.devRef .tc main_arg2)) slices_S80x64_S64x64_0_0 := by
  dsimp only [hostOps0]; after_results; try rfl
theorem read0_v8 : after hostOps0 W (Proc.devRef .tc main_v8)
    = extractStridedSlice S16x64 ![64, 0] (W (Proc.devRef .tc main_arg2)) slices_S80x64_S16x64_64_0 := by
  dsimp only [hostOps0]; after_results; try rfl
theorem read0_v9 : after hostOps0 W (Proc.devRef .tc main_v9)
    = shapeCast S1x64 (W (Proc.devRef .tc main_arg3)) shapeCasts_S64_S1x64 := by
  dsimp only [hostOps0]; after_results; try rfl

/-! ## Between the first dense layer and the reverse-edge region -/

theorem read1_v20 : after hostOps1 W (Proc.devRef .tc main_v20)
    = rowsAt (nodeSums (W (Proc.devRef .tc main_arg7)) (W (Proc.devRef .tc main_v10))) (W (Proc.devRef .tc main_arg6)) := by
  dsimp only [hostOps1]; after_results; try rfl
theorem read1_v21 : after hostOps1 W (Proc.devRef .tc main_v21) = shapeCast S8192x1 (W (Proc.devRef .tc main_arg6)) shapeCasts_S8192_S8192x1 := by
  dsimp only [hostOps1]; after_results; try rfl
theorem read1_v22 : after hostOps1 W (Proc.devRef .tc main_v22) = shapeCast S8192x1 (W (Proc.devRef .tc main_arg7)) shapeCasts_S8192_S8192x1 := by
  dsimp only [hostOps1]; after_results; try rfl
theorem read1_v23 : after hostOps1 W (Proc.devRef .tc main_v23) = shapeCast S1x8192 (W (Proc.devRef .tc main_arg6)) shapeCasts_S8192_S1x8192 := by
  dsimp only [hostOps1]; after_results; try rfl
theorem read1_v24 : after hostOps1 W (Proc.devRef .tc main_v24) = shapeCast S1x8192 (W (Proc.devRef .tc main_arg7)) shapeCasts_S8192_S1x8192 := by
  dsimp only [hostOps1]; after_results; try rfl

/-! ## Between the reverse-edge region and the last dense layer -/

theorem read2_v26 : after hostOps2 W (Proc.devRef .tc main_v26) = subf (W (Proc.devRef .tc main_v20)) (W (Proc.devRef .tc main_v25)) := by
  dsimp only [hostOps2]; after_results; try rfl
theorem read2_v27 : after hostOps2 W (Proc.devRef .tc main_v27)
    = extractStridedSlice S64x64 ![0, 0] (W (Proc.devRef .tc main_arg4)) slices_S128x64_S64x64_0_0 := by
  dsimp only [hostOps2]; after_results; try rfl
theorem read2_v28 : after hostOps2 W (Proc.devRef .tc main_v28)
    = extractStridedSlice S64x64 ![64, 0] (W (Proc.devRef .tc main_arg4)) slices_S128x64_S64x64_64_0 := by
  dsimp only [hostOps2]; after_results; try rfl
theorem read2_v29 : after hostOps2 W (Proc.devRef .tc main_v29)
    = shapeCast S1x64 (W (Proc.devRef .tc main_arg5)) shapeCasts_S64_S1x64 := by
  dsimp only [hostOps2]; after_results; try rfl

end Cert.KernelIdeal.Hand

end
-- ==== Proof.KI.LayerSpec.lean ====
/-
  The layer as one function of its eight arguments: the last dense map of the first layer's edge states and
  the message (the states' per-node sums over the destinations, gathered back at the sources, minus their
  reverse-edge term), with the weight matrices cut into their two row blocks and the biases read as rows.
-/
import proofs.«156653_j12429635354789_1_alg».proof.Proof.KI.HostReads
import proofs.«156653_j12429635354789_1_alg».proof.Proof.EdgeSpec

noncomputable section

namespace Cert.KernelIdeal.Hand

open Idealize.ShloMosaic
open Cert.KernelIdeal Cert.KernelIdeal.Gen Cert.EdgeSpec

/-- The first layer's edge states, of the node table, the edge features, the first weights and bias, and the sources. -/
def edgeStateK (nf : (⟨S20000x64, .f32⟩ : BufTy).Contents (Elt Ideal)) (ef : (⟨S8192x16, .f32⟩ : BufTy).Contents (Elt Ideal))
    (W : (⟨S80x64, .f32⟩ : BufTy).Contents (Elt Ideal)) (b : (⟨S64, .f32⟩ : BufTy).Contents (Elt Ideal))
    (src : (⟨S8192, .i32⟩ : BufTy).Contents (Elt Ideal)) : Mat 8192 64 :=
  edgeInit (rowsAt nf src) ef (extractStridedSlice S64x64 ![0, 0] W slices_S80x64_S64x64_0_0)
    (extractStridedSlice S16x64 ![64, 0] W slices_S80x64_S16x64_64_0) (shapeCast S1x64 b shapeCasts_S64_S1x64)

/-- The message of edge states `E`: their per-node sums over the destinations gathered at the sources, minus their reverse-edge term. -/
def messageK (E : Mat 8192 64) (src dst : (⟨S8192, .i32⟩ : BufTy).Contents (Elt Ideal)) : Mat 8192 64 :=
  subf (F := Ideal) (φ := .f32) (rowsAt (nodeSums dst E) src)
    (reverseSum (shapeCast S8192x1 src shapeCasts_S8192_S8192x1) (shapeCast S8192x1 dst shapeCasts_S8192_S8192x1)
      (shapeCast S1x8192 src shapeCasts_S8192_S1x8192) (shapeCast S1x8192 dst shapeCasts_S8192_S1x8192) E)

/-- The whole layer. -/
def layerK (nf : (⟨S20000x64, .f32⟩ : BufTy).Contents (Elt Ideal)) (ef : (⟨S8192x16, .f32⟩ : BufTy).Contents (Elt Ideal))
    (W : (⟨S80x64, .f32⟩ : BufTy).Contents (Elt Ideal)) (b : (⟨S64, .f32⟩ : BufTy).Contents (Elt Ideal))
    (W' : (⟨S128x64, .f32⟩ : BufTy).Contents (Elt Ideal)) (b' : (⟨S64, .f32⟩ : BufTy).Contents (Elt Ideal))
    (src dst : (⟨S8192, .i32⟩ : BufTy).Contents (Elt Ideal)) : Mat 8192 64 :=
  edgeUpd (edgeStateK nf ef W b src) (messageK (edgeStateK nf ef W b src) src dst)
    (extractStridedSlice S64x64 ![0, 0] W' slices_S128x64_S64x64_0_0)
    (extractStridedSlice S64x64 ![64, 0] W' slices_S128x64_S64x64_64_0) (shapeCast S1x64 b' shapeCasts_S64_S1x64)

end Cert.KernelIdeal.Hand

end
-- ==== Proof.KI.ResultValue.lean ====
/-
  The idealized kernel's result as ONE function of the eight argument arrays: the last dense layer of the
  first layer's edge states and the message — the per-node sums of those states over the destinations,
  gathered back at the sources, minus the reverse-edge term of the same states. Each region contributes its
  output array as a whole-array function of the arrays it staged; each host stretch contributes its
  operations; the boundaries chain them.
-/
import proofs.«156653_j12429635354789_1_alg».proof.Proof.KI.ArgsKept
import proofs.«156653_j12429635354789_1_alg».proof.Proof.KI.LayerSpec

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen Cert.EdgeSpec

/-- A region's entry contents at the ideal instance. -/
abbrev EntryV : Type := (c : Dev nD) → (b : Ref sig .tc) → Buf (Elt Ideal) ((c : Thread nD τ).loc b)

/-- The last dense map at equal arguments. -/
theorem edgeUpd_congr {a a' b b' : Mat 8192 64} {wa wa' wb wb' : Mat 64 64} {bias bias' : Mat 1 64}
    (ha : a = a') (hb : b = b') (hwa : wa = wa') (hwb : wb = wb') (hbias : bias = bias') :
    edgeUpd a b wa wb bias = edgeUpd a' b' wa' wb' bias' := by
  subst ha hb hwa hwb hbias; rfl

/-- The first dense map at equal arguments. -/
theorem edgeInit_congr {a a' : Mat 8192 64} {b b' : Mat 8192 16} {wa wa' : Mat 64 64} {wb wb' : Mat 16 64} {bias bias' : Mat 1 64}
    (ha : a = a') (hb : b = b') (hwa : wa = wa') (hwb : wb = wb') (hbias : bias = bias') :
    edgeInit a b wa wb bias = edgeInit a' b' wa' wb' bias' := by
  subst ha hb hwa hwb hbias; rfl

variable (m : (ℓ : Loc nD τ sig) → Buf (Elt Ideal) ℓ)

/-- THE VALUE of the idealized kernel's result array, given each region's output as a function of what it staged. -/
theorem result_value
    (hInit : ∀ (V : EntryV) (c : Dev nD), (dat0 (F := Ideal) V c).arrAt 5 cfg0.N
      = edgeInit (V c main_v6) (V c main_arg1) (V c main_v7) (V c main_v8) (V c main_v9))
    (hRev : ∀ (V : EntryV) (c : Dev nD), (dat1 (F := Ideal) V c).arrAt 5 cfg1.N
      = reverseSum (V c main_v21) (V c main_v22) (V c main_v23) (V c main_v24) (V c main_v10))
    (hUpd : ∀ (V : EntryV) (c : Dev nD), (dat2 (F := Ideal) V c).arrAt 5 cfg2.N
      = edgeUpd (V c main_v10) (V c main_v26) (V c main_v27) (V c main_v28) (V c main_v29))
    (c : Dev nD) :
    bnd6 m c (Proc.devRef .tc main_v30)
      = layerK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold layerK
  -- the first stretch and the first layer
  have h6 : ent1 m c main_v6 = rowsAt (m ((c : Thread nD τ).loc main_arg0)) (m ((c : Thread nD τ).loc main_arg6)) := read0_v6 (bnd0 m c)
  have h7 : ent1 m c main_v7 = extractStridedSlice S64x64 ![0, 0] (m ((c : Thread nD τ).loc main_arg2)) slices_S80x64_S64x64_0_0 := read0_v7 (bnd0 m c)
  have h8 : ent1 m c main_v8 = extractStridedSlice S16x64 ![64, 0] (m ((c : Thread nD τ).loc main_arg2)) slices_S80x64_S16x64_64_0 := read0_v8 (bnd0 m c)
  have h9 : ent1 m c main_v9 = shapeCast S1x64 (m ((c : Thread nD τ).loc main_arg3)) shapeCasts_S64_S1x64 := read0_v9 (bnd0 m c)
  have h1 : ent1 m c main_arg1 = (m ((c : Thread nD τ).loc main_arg1)) := bnd1_keep m c main_arg1 (by decide)
  have E2 : bnd2 m c (Proc.devRef .tc main_v10) = edgeStateK (m ((c : Thread nD τ).loc main_arg0)) (m ((c : Thread nD τ).loc main_arg1)) (m ((c : Thread nD τ).loc main_arg2)) (m ((c : Thread nD τ).loc main_arg3)) (m ((c : Thread nD τ).loc main_arg6)) :=
    (bnd2_arr m c 5).trans ((hInit (ent1 m) c).trans (by rw [h6, h1, h7, h8, h9]; rfl))
  -- the second stretch and the reverse-edge region
  have k6 : bnd2 m c (Proc.devRef .tc main_arg6) = (m ((c : Thread nD τ).loc main_arg6)) :=
    (bnd2_of_ne m c main_arg6 (by decide)).trans ((bnd1_keep m c main_arg6 (by decide)).trans rfl)
  have k7 : bnd2 m c (Proc.devRef .tc main_arg7) = (m ((c : Thread nD τ).loc main_arg7)) :=
    (bnd2_of_ne m c main_arg7 (by decide)).trans ((bnd1_keep m c main_arg7 (by decide)).trans rfl)
  have h20 : bnd3 m c (Proc.devRef .tc main_v20)
      = rowsAt (nodeSums (m ((c : Thread nD τ).loc main_arg7)) (edgeStateK (m ((c : Thread nD τ).loc main_arg0)) (m ((c : Thread nD τ).loc main_arg1)) (m ((c : Thread nD τ).loc main_arg2)) (m ((c : Thread nD τ).loc main_arg3)) (m ((c : Thread nD τ).loc main_arg6)))) (m ((c : Thread nD τ).loc main_arg6)) :=
    (read1_v20 (bnd2 m c)).trans (by rw [k7, E2, k6])
  have h21 : ent3 m c main_v21 = shapeCast S8192x1 (m ((c : Thread nD τ).loc main_arg6)) shapeCasts_S8192_S8192x1 := (read1_v21 (bnd2 m c)).trans (by rw [k6])
  have h22 : ent3 m c main_v22 = shapeCast S8192x1 (m ((c : Thread nD τ).loc main_arg7)) shapeCasts_S8192_S8192x1 := (read1_v22 (bnd2 m c)).trans (by rw [k7])
  have h23 : ent3 m c main_v23 = shapeCast S1x8192 (m ((c : Thread nD τ).loc main_arg6)) shapeCasts_S8192_S1x8192 := (read1_v23 (bnd2 m c)).trans (by rw [k6])
  have h24 : ent3 m c main_v24 = shapeCast S1x8192 (m ((c : Thread nD τ).loc main_arg7)) shapeCasts_S8192_S1x8192 := (read1_v24 (bnd2 m c)).trans (by rw [k7])
  have E3 : ent3 m c main_v10 = edgeStateK (m ((c : Thread nD τ).loc main_arg0)) (m ((c : Thread nD τ).loc main_arg1)) (m ((c : Thread nD τ).loc main_arg2)) (m ((c : Thread nD τ).loc main_arg3)) (m ((c : Thread nD τ).loc main_arg6)) :=
    (bnd3_keep m c main_v10 (by decide)).trans E2
  have R4 : bnd4 m c (Proc.devRef .tc main_v25)
      = reverseSum (shapeCast S8192x1 (m ((c : Thread nD τ).loc main_arg6)) shapeCasts_S8192_S8192x1) (shapeCast S8192x1 (m ((c : Thread nD τ).loc main_arg7)) shapeCasts_S8192_S8192x1)
          (shapeCast S1x8192 (m ((c : Thread nD τ).loc main_arg6)) shapeCasts_S8192_S1x8192) (shapeCast S1x8192 (m ((c : Thread nD τ).loc main_arg7)) shapeCasts_S8192_S1x8192)
          (edgeStateK (m ((c : Thread nD τ).loc main_arg0)) (m ((c : Thread nD τ).loc main_arg1)) (m ((c : Thread nD τ).loc main_arg2)) (m ((c : Thread nD τ).loc main_arg3)) (m ((c : Thread nD τ).loc main_arg6))) :=
    (bnd4_arr m c 5).trans ((hRev (ent3 m) c).trans (by rw [h21, h22, h23, h24, E3]))
  have G4 : bnd4 m c (Proc.devRef .tc main_v20)
      = rowsAt (nodeSums (m ((c : Thread nD τ).loc main_arg7)) (edgeStateK (m ((c : Thread nD τ).loc main_arg0)) (m ((c : Thread nD τ).loc main_arg1)) (m ((c : Thread nD τ).loc main_arg2)) (m ((c : Thread nD τ).loc main_arg3)) (m ((c : Thread nD τ).loc main_arg6)))) (m ((c : Thread nD τ).loc main_arg6)) :=
    (bnd4_of_ne m c main_v20 (by decide)).trans h20
  have E4 : bnd4 m c (Proc.devRef .tc main_v10) = edgeStateK (m ((c : Thread nD τ).loc main_arg0)) (m ((c : Thread nD τ).loc main_arg1)) (m ((c : Thread nD τ).loc main_arg2)) (m ((c : Thread nD τ).loc main_arg3)) (m ((c : Thread nD τ).loc main_arg6)) :=
    (bnd4_arr m c 4).trans (((dat1 (ent3 m) c).arrAt_in 4 rfl _).trans ((A_eq1 (ent3 m) c 4).trans E3))
  have k4 : bnd4 m c (Proc.devRef .tc main_arg4) = (m ((c : Thread nD τ).loc main_arg4)) :=
    (bnd4_of_ne m c main_arg4 (by decide)).trans <| (bnd3_keep m c main_arg4 (by decide)).trans <|
      (bnd2_of_ne m c main_arg4 (by decide)).trans ((bnd1_keep m c main_arg4 (by decide)).trans rfl)
  have k5 : bnd4 m c (Proc.devRef .tc main_arg5) = (m ((c : Thread nD τ).loc main_arg5)) :=
    (bnd4_of_ne m c main_arg5 (by decide)).trans <| (bnd3_keep m c main_arg5 (by decide)).trans <|
      (bnd2_of_ne m c main_arg5 (by decide)).trans ((bnd1_keep m c main_arg5 (by decide)).trans rfl)
  -- the third stretch and the last layer
  have h26 : ent5 m c main_v26 = messageK (edgeStateK (m ((c : Thread nD τ).loc main_arg0)) (m ((c : Thread nD τ).loc main_arg1)) (m ((c : Thread nD τ).loc main_arg2)) (m ((c : Thread nD τ).loc main_arg3)) (m ((c : Thread nD τ).loc main_arg6))) (m ((c : Thread nD τ).loc main_arg6)) (m ((c : Thread nD τ).loc main_arg7)) :=
    (read2_v26 (bnd4 m c)).trans (by rw [G4, R4]; rfl)
  have h27 : ent5 m c main_v27 = extractStridedSlice S64x64 ![0, 0] (m ((c : Thread nD τ).loc main_arg4)) slices_S128x64_S64x64_0_0 := (read2_v27 (bnd4 m c)).trans (by rw [k4])
  have h28 : ent5 m c main_v28 = extractStridedSlice S64x64 ![64, 0] (m ((c : Thread nD τ).loc main_arg4)) slices_S128x64_S64x64_64_0 := (read2_v28 (bnd4 m c)).trans (by rw [k4])
  have h29 : ent5 m c main_v29 = shapeCast S1x64 (m ((c : Thread nD τ).loc main_arg5)) shapeCasts_S64_S1x64 := (read2_v29 (bnd4 m c)).trans (by rw [k5])
  have E5 : ent5 m c main_v10 = edgeStateK (m ((c : Thread nD τ).loc main_arg0)) (m ((c : Thread nD τ).loc main_arg1)) (m ((c : Thread nD τ).loc main_arg2)) (m ((c : Thread nD τ).loc main_arg3)) (m ((c : Thread nD τ).loc main_arg6)) :=
    (bnd5_keep m c main_v10 (by decide)).trans E4
  exact (result_main_v30 m c).trans ((hUpd (ent5 m) c).trans (edgeUpd_congr E5 h26 h27 h28 h29))

end Cert.KernelIdeal.Hand

end
-- ==== Proof.RefStages.lean ====
/-
  The reference's host operations, composed, as the specification's functions.

  Three facts, each read index by index. A dot_general over one contracted axis is a finite sum of products;
  a concatenation along the columns reads its first piece below the first extent and its second piece,
  shifted, from there on, so a sum over the joined columns is the sum over the first piece's columns plus
  the sum over the second's; a bias broadcast down the rows reads the bias at the column. The reverse term's
  mask is the conversion of a one-bit word, the conjunction of two equality tests: one when both hold, zero
  otherwise. Only associativity and commutativity of addition are used: no product is distributed and no
  term is cancelled, so nothing is asked of the extended reals beyond their being an additive commutative monoid.
-/
import proofs.«156653_j12429635354789_1_alg».proof.Proof.Gen.ReferenceIdeal.Read
import proofs.«156653_j12429635354789_1_alg».proof.Proof.EdgeSpec
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin

noncomputable section

open scoped BigOperators

namespace Cert.ReferenceIdeal.Stages

open Cert.ReferenceIdeal Cert.ReferenceIdeal.Gen Idealize.ShloMosaic Idealize.ShloMosaic.TcCoe Idealize.SL.Sem Idealize.ShloMosaic.StableHlo
open Idealize.ShloMosaic.ValueIdx Cert.EdgeSpec

/-! ## Sums over a joined range -/

/-- A sum over m + n consecutive positions is the sum over the first m plus the sum over the n after them. -/
theorem sum_split (m n N : Nat) (h : m + n = N) {M : Type} [AddCommMonoid M] (f : Fin N → M) :
    ∑ k : Fin N, f k
      = (∑ k : Fin m, f ⟨k.val, by omega⟩) + ∑ k : Fin n, f ⟨m + k.val, by omega⟩ := by
  subst h
  exact Fin.sum_univ_add f

/-! ## The three contractions as sums of products -/

/-- The contraction over the 80 joined columns, at row p and column q. -/
theorem dot80_apply (l : FVec Ideal S8192x80 .f32) (r : FVec Ideal S80x64 .f32) (p : Fin 8192) (q : Fin 64) :
    Host.dotGeneral (F := Ideal) dot_S8192x80_S80x64_S8192x64_1_0_0_1_n_n none l r (ix2 p q)
      = ∑ k : Fin 80, l (ix2 p k) * r (ix2 k q) := by
  simp only [Host.dotGeneral]
  rw [Ideal.dotGeneral_apply, ← Equiv.sum_comp (contrEquiv1 dot_S8192x80_S80x64_S8192x64_1_0_0_1_n_n 80 rfl rfl).symm]
  refine Finset.sum_congr rfl fun k _ => ?_
  have hk := contrEquiv1_symm_val dot_S8192x80_S80x64_S8192x64_1_0_0_1_n_n 80 rfl rfl k
  have el : dot_S8192x80_S80x64_S8192x64_1_0_0_1_n_n.lhsIdx (ix2 p q) ((contrEquiv1 dot_S8192x80_S80x64_S8192x64_1_0_0_1_n_n 80 rfl rfl).symm k) = ix2 p k := funext fun a => Fin.ext (by
    match a with
    | ⟨0, _⟩ => exact Read.lhs_main_v8_0 _ _
    | ⟨1, _⟩ => exact (Read.lhs_main_v8_1 _ _).trans hk)
  have er : dot_S8192x80_S80x64_S8192x64_1_0_0_1_n_n.rhsIdx (ix2 p q) ((contrEquiv1 dot_S8192x80_S80x64_S8192x64_1_0_0_1_n_n 80 rfl rfl).symm k) = ix2 k q := funext fun a => Fin.ext (by
    match a with
    | ⟨0, _⟩ => exact (Read.rhs_main_v8_0 _ _).trans hk
    | ⟨1, _⟩ => exact Read.rhs_main_v8_1 _ _)
  rw [el, er]

/-- The contraction over the 128 joined columns, at row p and column q. -/
theorem dot128_apply (l : FVec Ideal S8192x128 .f32) (r : FVec Ideal S128x64 .f32) (p : Fin 8192) (q : Fin 64) :
    Host.dotGeneral (F := Ideal) dot_S8192x128_S128x64_S8192x64_1_0_0_1_n_n none l r (ix2 p q)
      = ∑ k : Fin 128, l (ix2 p k) * r (ix2 k q) := by
  simp only [Host.dotGeneral]
  rw [Ideal.dotGeneral_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 p q) ((contrEquiv1 dot_S8192x128_S128x64_S8192x64_1_0_0_1_n_n 128 rfl rfl).symm k) = ix2 p k := funext fun a => Fin.ext (by
    match a with
    | ⟨0, _⟩ => exact Read.lhs_main_v37_0 _ _
    | ⟨1, _⟩ => exact (Read.lhs_main_v37_1 _ _).trans hk)
  have er : dot_S8192x128_S128x64_S8192x64_1_0_0_1_n_n.rhsIdx (ix2 p q) ((contrEquiv1 dot_S8192x128_S128x64_S8192x64_1_0_0_1_n_n 128 rfl rfl).symm k) = ix2 k q := funext fun a => Fin.ext (by
    match a with
    | ⟨0, _⟩ => exact (Read.rhs_main_v37_0 _ _).trans hk
    | ⟨1, _⟩ => exact Read.rhs_main_v37_1 _ _)
  rw [el, er]

/-- The contraction over all 8192 edges, at row p and column q. -/
theorem dot8192_apply (l : FVec Ideal S8192x8192 .f32) (r : FVec Ideal S8192x64 .f32) (p : Fin 8192) (q : Fin 64) :
    Host.dotGeneral (F := Ideal) dot_S8192x8192_S8192x64_S8192x64_1_0_0_1_n_n none l r (ix2 p q)
      = ∑ k : Fin 8192, l (ix2 p k) * r (ix2 k q) := by
  simp only [Host.dotGeneral]
  rw [Ideal.dotGeneral_apply, ← Equiv.sum_comp (contrEquiv1 dot_S8192x8192_S8192x64_S8192x64_1_0_0_1_n_n 8192 rfl rfl).symm]
  refine Finset.sum_congr rfl fun k _ => ?_
  have hk := contrEquiv1_symm_val dot_S8192x8192_S8192x64_S8192x64_1_0_0_1_n_n 8192 rfl rfl k
  have el : dot_S8192x8192_S8192x64_S8192x64_1_0_0_1_n_n.lhsIdx (ix2 p q) ((contrEquiv1 dot_S8192x8192_S8192x64_S8192x64_1_0_0_1_n_n 8192 rfl rfl).symm k) = ix2 p k := funext fun a => Fin.ext (by
    match a with
    | ⟨0, _⟩ => exact Read.lhs_main_v34_0 _ _
    | ⟨1, _⟩ => exact (Read.lhs_main_v34_1 _ _).trans hk)
  have er : dot_S8192x8192_S8192x64_S8192x64_1_0_0_1_n_n.rhsIdx (ix2 p q) ((contrEquiv1 dot_S8192x8192_S8192x64_S8192x64_1_0_0_1_n_n 8192 rfl rfl).symm k) = ix2 k q := funext fun a => Fin.ext (by
    match a with
    | ⟨0, _⟩ => exact (Read.rhs_main_v34_0 _ _).trans hk
    | ⟨1, _⟩ => exact Read.rhs_main_v34_1 _ _)
  rw [el, er]

/-! ## The joined operands at a column -/

/-- Below column 64 the 64 + 16 concatenation reads its first piece. -/
theorem cat80_left (g : S8192x64.Idx → EReal) (ef : S8192x16.Idx → EReal) (p : Fin 8192) (k : Fin 64) :
    concatenate S8192x80 1 [⟨S8192x64, g⟩, ⟨S8192x16, ef⟩] concatenates_S8192x64_S8192x16_S8192x80_d1
        (ix2 p (⟨k.val, by omega⟩ : Fin 80)) = g (ix2 p k) :=
  concatenate_pair_apply_left 1 g ef concatenates_S8192x64_S8192x16_S8192x80_d1 _ rfl (ix2 p k) (fun b => by
    match b with
    | ⟨0, _⟩ => rfl
    | ⟨1, _⟩ => rfl)

/-- From column 64 on the 64 + 16 concatenation reads its second piece, 64 columns back. -/
theorem cat80_right (g : S8192x64.Idx → EReal) (ef : S8192x16.Idx → EReal) (p : Fin 8192) (k : Fin 16) :
    concatenate S8192x80 1 [⟨S8192x64, g⟩, ⟨S8192x16, ef⟩] concatenates_S8192x64_S8192x16_S8192x80_d1
        (ix2 p (⟨64 + k.val, by omega⟩ : Fin 80)) = ef (ix2 p k) :=
  concatenate_pair_apply_right 1 g ef concatenates_S8192x64_S8192x16_S8192x80_d1 _ rfl rfl (ix2 p k) (fun b hb => by
    match b with
    | ⟨0, _⟩ => rfl
    | ⟨1, _⟩ => exact absurd rfl hb) (by show k.val + 64 = 64 + k.val; omega)

/-- Below column 64 the 64 + 64 concatenation reads its first piece. -/
theorem cat128_left (e msg : S8192x64.Idx → EReal) (p : Fin 8192) (k : Fin 64) :
    concatenate S8192x128 1 [⟨S8192x64, e⟩, ⟨S8192x64, msg⟩] concatenates_S8192x64_S8192x64_S8192x128_d1
        (ix2 p (⟨k.val, by omega⟩ : Fin 128)) = e (ix2 p k) :=
  concatenate_pair_apply_left 1 e msg concatenates_S8192x64_S8192x64_S8192x128_d1 _ rfl (ix2 p k) (fun b => by
    match b with
    | ⟨0, _⟩ => rfl
    | ⟨1, _⟩ => rfl)

/-- From column 64 on the 64 + 64 concatenation reads its second piece, 64 columns back. -/
theorem cat128_right (e msg : S8192x64.Idx → EReal) (p : Fin 8192) (k : Fin 64) :
    concatenate S8192x128 1 [⟨S8192x64, e⟩, ⟨S8192x64, msg⟩] concatenates_S8192x64_S8192x64_S8192x128_d1
        (ix2 p (⟨64 + k.val, by omega⟩ : Fin 128)) = msg (ix2 p k) :=
  concatenate_pair_apply_right 1 e msg concatenates_S8192x64_S8192x64_S8192x128_d1 _ rfl rfl (ix2 p k) (fun b hb => by
    match b with
    | ⟨0, _⟩ => rfl
    | ⟨1, _⟩ => exact absurd rfl hb) (by show k.val + 64 = 64 + k.val; omega)

/-! ## The bias, broadcast to a row and then down the rows -/

/-- The bias vector made a one-row matrix and repeated down the 8192 rows reads the vector at the column. -/
theorem bias_apply (b : S64.Idx → EReal) (p : Fin 8192) (q : Fin 64) :
    broadcastInDim S8192x64 ![0, 1] bcast_S1x64_S8192x64_0_1 (broadcastInDim S1x64 ![1] bcast_S64_S1x64_1 b) (ix2 p q)
      = b (ix1 q) := by
  rw [broadcastInDim_apply _ bcast_S1x64_S8192x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])]
  exact broadcastInDim_apply _ bcast_S64_S1x64_1 b (ix2 (0 : Fin 1) q) (ix1 q) (fun a => match a with
    | ⟨0, _⟩ => by show q.val = if (64 : Nat) = 1 then 0 else q.val; rw [if_neg (by decide)])

/-! ## The source and destination words, broadcast to a column or a row and then to the square -/

/-- A vector of words made a column and repeated along the columns reads the vector at the row. -/
theorem col_apply (v : S8192.Idx → BitVec 32) (p k : Fin 8192) :
    broadcastInDim S8192x8192 ![0, 1] bcast_S8192x1_S8192x8192_0_1 (broadcastInDim S8192x1 ![0] bcast_S8192_S8192x1_0 v) (ix2 p k)
      = v (ix1 p) := by
  rw [broadcastInDim_apply _ bcast_S8192x1_S8192x8192_0_1 _ (ix2 p k) (ix2 p (0 : Fin 1)) (fun a => match a with
    | ⟨0, _⟩ => by show p.val = if (8192 : Nat) = 1 then 0 else p.val; rw [if_neg (by decide)]
    | ⟨1, _⟩ => by show 0 = if (1 : Nat) = 1 then 0 else k.val; rw [if_pos rfl])]
  exact broadcastInDim_apply _ bcast_S8192_S8192x1_0 v (ix2 p (0 : Fin 1)) (ix1 p) (fun a => match a with
    | ⟨0, _⟩ => by show p.val = if (8192 : Nat) = 1 then 0 else p.val; rw [if_neg (by decide)])

/-- A vector of words made a row and repeated down the rows reads the vector at the column. -/
theorem row_apply (v : S8192.Idx → BitVec 32) (p k : Fin 8192) :
    broadcastInDim S8192x8192 ![0, 1] bcast_S1x8192_S8192x8192_0_1 (broadcastInDim S1x8192 ![1] bcast_S8192_S1x8192_1 v) (ix2 p k)
      = v (ix1 k) := by
  rw [broadcastInDim_apply _ bcast_S1x8192_S8192x8192_0_1 _ (ix2 p k) (ix2 (0 : Fin 1) k) (fun a => match a with
    | ⟨0, _⟩ => by show 0 = if (1 : Nat) = 1 then 0 else p.val; rw [if_pos rfl]
    | ⟨1, _⟩ => by show k.val = if (8192 : Nat) = 1 then 0 else k.val; rw [if_neg (by decide)])]
  exact broadcastInDim_apply _ bcast_S8192_S1x8192_1 v (ix2 (0 : Fin 1) k) (ix1 k) (fun a => match a with
    | ⟨0, _⟩ => by show k.val = if (8192 : Nat) = 1 then 0 else k.val; rw [if_neg (by decide)])

/-! ## The mask: a conjunction of two equality tests, converted -/

/-- The equality test of two words is the bit one when they are equal and the bit zero otherwise. -/
theorem cmpi_eq_ite (a b : BitVec 32) : IntOp.cmpi .eq a b = if a = b then 1#1 else 0#1 := by
  unfold IntOp.cmpi
  by_cases h : a = b
  · rw [if_pos h]; subst h; simp
  · rw [if_neg h, show (a == b) = false from beq_eq_false_iff_ne.mpr h]; rfl

/-- The unsigned conversion of a one-bit word is its number: one for the bit one. -/
theorem uitofp_bit_one : (FloatOps.uitofp (F := Ideal) .f32 (1#1) : EReal) = 1 := by
  show (((1#1 : BitVec 1).toNat : ℝ) : EReal) = 1
  simp

/-- The unsigned conversion of a one-bit word is its number: zero for the bit zero. -/
theorem uitofp_bit_zero : (FloatOps.uitofp (F := Ideal) .f32 (0#1) : EReal) = 0 := by
  show (((0#1 : BitVec 1).toNat : ℝ) : EReal) = 0
  simp

/-- The converted conjunction of two equality tests is one when both equalities hold and zero otherwise. -/
theorem mask_val (x y u v : BitVec 32) :
    (FloatOps.uitofp (F := Ideal) .f32 (IntOp.andi (IntOp.cmpi .eq x y) (IntOp.cmpi .eq u v)) : EReal)
      = if x = y ∧ u = v then 1 else 0 := by
  rw [cmpi_eq_ite, cmpi_eq_ite]
  by_cases hx : x = y
  · by_cases hu : u = v
    · rw [if_pos hx, if_pos hu, if_pos ⟨hx, hu⟩, show IntOp.andi 1#1 1#1 = 1#1 from by decide]
      exact uitofp_bit_one
    · rw [if_pos hx, if_neg hu, if_neg (fun h => hu h.2), show IntOp.andi 1#1 0#1 = 0#1 from by decide]
      exact uitofp_bit_zero
  · by_cases hu : u = v
    · rw [if_neg hx, if_pos hu, if_neg (fun h => hx h.1), show IntOp.andi 0#1 1#1 = 0#1 from by decide]
      exact uitofp_bit_zero
    · rw [if_neg hx, if_neg hu, if_neg (fun h => hx h.1), show IntOp.andi 0#1 0#1 = 0#1 from by decide]
      exact uitofp_bit_zero

/-- The mask array at an index. -/
theorem mask_apply {s : Shape} (A B C D : IVec s 32) (i : s.Idx) :
    (uitofp (F := Ideal) .f32 (andi (cmpi .eq A B) (cmpi .eq C D)) : FVec Ideal s .f32) i
      = if A i = B i ∧ C i = D i then 1 else 0 :=
  mask_val _ _ _ _

/-! ## The three stages -/

/-- The initial edge state: the contraction of [g, ef] with W over the 80 joined columns plus the broadcast bias
    is the sum over g's 64 columns against W's first 64 rows, plus the sum over ef's 16 columns against W's last
    16 rows, plus the bias at the column. -/
theorem init_eq (g : Mat 8192 64) (ef : Mat 8192 16) (W : Mat 80 64) (b : (⟨1, ![64]⟩ : Shape).Idx → EReal)
    (wa : Mat 64 64) (wb : Mat 16 64) (bias : Mat 1 64)
    (hwa : ∀ (k q : Fin 64), wa (ix2 k q) = W (ix2 (⟨k.val, by omega⟩ : Fin 80) q))
    (hwb : ∀ (k : Fin 16) (q : Fin 64), wb (ix2 k q) = W (ix2 (⟨64 + k.val, by omega⟩ : Fin 80) q))
    (hb : ∀ q : Fin 64, bias (ix2 (0 : Fin 1) q) = b (ix1 q)) :
    addf (F := Ideal) (Host.dotGeneral (F := Ideal) (φ₁ := .f32) (φ₂ := .f32) dot_S8192x80_S80x64_S8192x64_1_0_0_1_n_n none (concatenate S8192x80 1 [⟨S8192x64, g⟩, ⟨S8192x16, ef⟩] concatenates_S8192x64_S8192x16_S8192x80_d1) W)
         (broadcastInDim S8192x64 ![0, 1] bcast_S1x64_S8192x64_0_1 (broadcastInDim S1x64 ![1] bcast_S64_S1x64_1 b))
      = edgeInit g ef wa wb bias := by
  funext j
  obtain ⟨p, q, rfl⟩ : ∃ (p : Fin 8192) (q : Fin 64), j = ix2 p q := ⟨j 0, j 1, eq_ix2 j⟩
  rw [addf_apply, dot80_apply, bias_apply, sum_split 64 16 80 rfl]
  show _ = ((∑ k : Fin 64, g (ix2 p k) * wa (ix2 k q)) + ∑ k : Fin 16, ef (ix2 p k) * wb (ix2 k q)) + bias (ix2 (0 : Fin 1) q)
  refine congrArg₂ (· + ·) (congrArg₂ (· + ·) (Finset.sum_congr rfl fun k _ => ?_) (Finset.sum_congr rfl fun k _ => ?_)) (hb q).symm
  · rw [cat80_left, hwa]
  · rw [cat80_right, hwb]

/-- The updated edge state: the same reading of the contraction of [e, msg] with W over the 128 joined columns. -/
theorem upd_eq (e msg : Mat 8192 64) (W : Mat 128 64) (b : (⟨1, ![64]⟩ : Shape).Idx → EReal)
    (wa wb : Mat 64 64) (bias : Mat 1 64)
    (hwa : ∀ (k q : Fin 64), wa (ix2 k q) = W (ix2 (⟨k.val, by omega⟩ : Fin 128) q))
    (hwb : ∀ (k q : Fin 64), wb (ix2 k q) = W (ix2 (⟨64 + k.val, by omega⟩ : Fin 128) q))
    (hb : ∀ q : Fin 64, bias (ix2 (0 : Fin 1) q) = b (ix1 q)) :
    addf (F := Ideal) (Host.dotGeneral (F := Ideal) (φ₁ := .f32) (φ₂ := .f32) dot_S8192x128_S128x64_S8192x64_1_0_0_1_n_n none (concatenate S8192x128 1 [⟨S8192x64, e⟩, ⟨S8192x64, msg⟩] concatenates_S8192x64_S8192x64_S8192x128_d1) W)
         (broadcastInDim S8192x64 ![0, 1] bcast_S1x64_S8192x64_0_1 (broadcastInDim S1x64 ![1] bcast_S64_S1x64_1 b))
      = edgeUpd e msg wa wb bias := by
  funext j
  obtain ⟨p, q, rfl⟩ : ∃ (p : Fin 8192) (q : Fin 64), j = ix2 p q := ⟨j 0, j 1, eq_ix2 j⟩
  rw [addf_apply, dot128_apply, bias_apply, sum_split 64 64 128 rfl]
  show _ = ((∑ k : Fin 64, e (ix2 p k) * wa (ix2 k q)) + ∑ k : Fin 64, msg (ix2 p k) * wb (ix2 k q)) + bias (ix2 (0 : Fin 1) q)
  refine congrArg₂ (· + ·) (congrArg₂ (· + ·) (Finset.sum_congr rfl fun k _ => ?_) (Finset.sum_congr rfl fun k _ => ?_)) (hb q).symm
  · rw [cat128_left, hwa]
  · rw [cat128_right, hwb]

/-- The reverse-edge term: the contraction of the converted mask with the edge states over all 8192 edges is
    the weighted sum, the weight of edge k in row p one when p's source is k's destination and p's destination
    is k's source, and zero otherwise. -/
theorem reverse_eq (src dst : (⟨1, ![8192]⟩ : Shape).Idx → BitVec 32) (es : Mat 8192 64)
    (sc dc : IMat 8192 1) (sr dr : IMat 1 8192)
    (hsc : ∀ p : Fin 8192, sc (ix2 p (0 : Fin 1)) = src (ix1 p)) (hdc : ∀ p : Fin 8192, dc (ix2 p (0 : Fin 1)) = dst (ix1 p))
    (hsr : ∀ k : Fin 8192, sr (ix2 (0 : Fin 1) k) = src (ix1 k)) (hdr : ∀ k : Fin 8192, dr (ix2 (0 : Fin 1) k) = dst (ix1 k)) :
    Host.dotGeneral (F := Ideal) (φ₁ := .f32) (φ₂ := .f32) dot_S8192x8192_S8192x64_S8192x64_1_0_0_1_n_n none
      (uitofp (F := Ideal) .f32 (andi
        (cmpi .eq (broadcastInDim S8192x8192 ![0, 1] bcast_S8192x1_S8192x8192_0_1 (broadcastInDim S8192x1 ![0] bcast_S8192_S8192x1_0 src))
                  (broadcastInDim S8192x8192 ![0, 1] bcast_S1x8192_S8192x8192_0_1 (broadcastInDim S1x8192 ![1] bcast_S8192_S1x8192_1 dst)))
        (cmpi .eq (broadcastInDim S8192x8192 ![0, 1] bcast_S8192x1_S8192x8192_0_1 (broadcastInDim S8192x1 ![0] bcast_S8192_S8192x1_0 dst))
                  (broadcastInDim S8192x8192 ![0, 1] bcast_S1x8192_S8192x8192_0_1 (broadcastInDim S1x8192 ![1] bcast_S8192_S1x8192_1 src)))))
      es
      = reverseSum sc dc sr dr es := by
  funext j
  obtain ⟨p, q, rfl⟩ : ∃ (p : Fin 8192) (q : Fin 64), j = ix2 p q := ⟨j 0, j 1, eq_ix2 j⟩
  rw [dot8192_apply]
  show _ = ∑ k : Fin 8192, revWeight sc dc sr dr p k * es (ix2 k q)
  refine Finset.sum_congr rfl fun k _ => congrArg (· * es (ix2 k q)) ?_
  rw [mask_apply, col_apply, row_apply, col_apply, row_apply]
  unfold revWeight
  rw [hsc, hdc, hsr, hdr]

end Cert.ReferenceIdeal.Stages

end
-- ==== Proof.RefLayer.lean ====
/-
  The reference's whole result as the layer function of its own eight arguments.

  The reference and the kernel-side specification share their host operations: the node ids wrapped into
  gather indices, the gather of the node table's rows, the scatter-add of edge rows into per-node sums, and
  the subtraction. What differs is only how the dense maps and the reverse-edge term are spelled. The
  reference contracts a concatenation against a whole weight matrix and adds a twice-broadcast bias; the
  specification sums against the matrix's two row blocks, cut out as slices, and reads the bias reshaped to
  a row. A slice at offset (o, 0) read at (k, q) is the matrix at (o + k, q); a vector reshaped to a row, or
  to a column, read at its one free coordinate is the vector there, because the two row-major positions
  coincide. With these readings the three stage equations carry the reference's result to the layer function.
-/
import proofs.«156653_j12429635354789_1_alg».proof.Proof.RefStages
import proofs.«156653_j12429635354789_1_alg».proof.Proof.KI.LayerSpec
import proofs.«156653_j12429635354789_1_alg».proof.Proof.Gen.ReferenceIdeal.Read
import Idealize.ShloMosaic.Lib.Pipeline.Value

noncomputable section

open scoped BigOperators

namespace Cert.ReferenceIdeal.Layer

open Idealize.ShloMosaic Idealize.ShloMosaic.TcCoe Idealize.SL.Sem Idealize.ShloMosaic.StableHlo
open Idealize.ShloMosaic.ValueIdx Cert.EdgeSpec Cert.ReferenceIdeal.Stages
open Cert.ReferenceIdeal Cert.ReferenceIdeal.Gen

/-! ## Slices and reshapes at an index -/

section Readings
variable {α : Type}

/-- The leading M rows of a 64-column matrix, read at (k, q), are the matrix at (k, q). -/
theorem slice_top {N M : Nat} (W : (⟨2, ![N, 64]⟩ : Shape).Idx → α)
    (h : (⟨2, ![N, 64]⟩ : Shape).Slices ![0, 0] (⟨2, ![M, 64]⟩ : Shape)) (k : Fin M) (q : Fin 64) (hk : k.val < N) :
    extractStridedSlice (⟨2, ![M, 64]⟩ : Shape) ![0, 0] W h (ix2 k q) = W (ix2 (⟨k.val, hk⟩ : Fin N) q) :=
  extractStridedSlice_apply _ W h (ix2 k q) (ix2 (⟨k.val, hk⟩ : Fin N) q) (fun a => match a with
    | ⟨0, _⟩ => by show k.val = 0 + k.val; omega
    | ⟨1, _⟩ => by show q.val = 0 + q.val; omega)

/-- The M rows from row 64 on of a 64-column matrix, read at (k, q), are the matrix at (64 + k, q). -/
theorem slice_from64 {N M : Nat} (W : (⟨2, ![N, 64]⟩ : Shape).Idx → α)
    (h : (⟨2, ![N, 64]⟩ : Shape).Slices ![64, 0] (⟨2, ![M, 64]⟩ : Shape)) (k : Fin M) (q : Fin 64) (hk : 64 + k.val < N) :
    extractStridedSlice (⟨2, ![M, 64]⟩ : Shape) ![64, 0] W h (ix2 k q) = W (ix2 (⟨64 + k.val, hk⟩ : Fin N) q) :=
  extractStridedSlice_apply _ W h (ix2 k q) (ix2 (⟨64 + k.val, hk⟩ : Fin N) q) (fun a => match a with
    | ⟨0, _⟩ => by show 64 + k.val = 64 + k.val; rfl
    | ⟨1, _⟩ => by show q.val = 0 + q.val; omega)

/-- A vector reshaped to a one-row matrix, read at column k, is the vector at k. -/
theorem cast_row {n : Nat} (v : (⟨1, ![n]⟩ : Shape).Idx → α)
    (h : (⟨1, ![n]⟩ : Shape).ShapeCasts (⟨2, ![1, n]⟩ : Shape)) (k : Fin n) :
    shapeCast (⟨2, ![1, n]⟩ : Shape) v h (ix2 (0 : Fin 1) k) = v (ix1 k) :=
  shapeCast_apply v h _ _ (by
    rw [Shape.rowMajor_val_one, Shape.rowMajor_val_two]
    show k.val = 0 * n + k.val
    omega)

/-- A vector reshaped to a one-column matrix, read at row p, is the vector at p. -/
theorem cast_col {n : Nat} (v : (⟨1, ![n]⟩ : Shape).Idx → α)
    (h : (⟨1, ![n]⟩ : Shape).ShapeCasts (⟨2, ![n, 1]⟩ : Shape)) (p : Fin n) :
    shapeCast (⟨2, ![n, 1]⟩ : Shape) v h (ix2 p (0 : Fin 1)) = v (ix1 p) :=
  shapeCast_apply v h _ _ (by
    rw [Shape.rowMajor_val_one, Shape.rowMajor_val_two]
    show p.val = p.val * 1 + 0
    omega)

end Readings

/-! ## The shared host operations: one function in both programs -/

section Shared
variable (x0 : (⟨S20000x64, .f32⟩ : BufTy).Contents (Elt Ideal)) (x1 : (⟨S8192x16, .f32⟩ : BufTy).Contents (Elt Ideal))
  (x2 : (⟨S80x64, .f32⟩ : BufTy).Contents (Elt Ideal)) (x3 : (⟨S64, .f32⟩ : BufTy).Contents (Elt Ideal))
  (x4 : (⟨S128x64, .f32⟩ : BufTy).Contents (Elt Ideal)) (x5 : (⟨S64, .f32⟩ : BufTy).Contents (Elt Ideal))
  (x6 x7 : (⟨S8192, .i32⟩ : BufTy).Contents (Elt Ideal))

/-- The reference's gather of a node table at the wrapped ids is the specification's. -/
theorem rows_eq (t : (⟨S20000x64, .f32⟩ : BufTy).Contents (Elt Ideal)) (ids : (⟨S8192, .i32⟩ : BufTy).Contents (Elt Ideal)) :
    Read.val_main_v6 (F := Ideal) t ids = Cert.KernelIdeal.Hand.rowsAt (F := Ideal) t ids := rfl

/-- The reference's per-node sums of edge rows, gathered back at the wrapped ids, are the specification's. -/
theorem gathered_sums_eq (ids ids' : (⟨S8192, .i32⟩ : BufTy).Contents (Elt Ideal)) (e : (⟨S8192x64, .f32⟩ : BufTy).Contents (Elt Ideal)) :
    Host.gather gather_S20000x64_S8192x1_S8192x64_1_0_n_n_0_1_164
        (Host.scatterAdd (F := Ideal) (φ := .f32) scatter_S20000x64_S8192x1_S8192x64_1_0_0_1 (Read.val_main_v12 (F := Ideal)) (Read.val_main_v13 (F := Ideal) ids') e)
        (Read.val_main_v20 (F := Ideal) ids)
      = Cert.KernelIdeal.Hand.rowsAt (F := Ideal) (Cert.KernelIdeal.Hand.nodeSums (F := Ideal) ids' e) ids := rfl

/-! ## The stages -/

/-- The reference's first dense map is the specification's first-layer edge states. -/
theorem edgeState_eq :
    Read.val_main_v11 (F := Ideal) x0 x1 x2 x3 x6 = Cert.KernelIdeal.Hand.edgeStateK x0 x1 x2 x3 x6 := by
  unfold Cert.KernelIdeal.Hand.edgeStateK
  rw [← rows_eq]
  exact init_eq _ x1 x2 x3 _ _ _
    (fun k q => slice_top x2 _ k q _)
    (fun k q => slice_from64 x2 _ k q _)
    (fun q => cast_row x3 _ q)

/-- The reference's message (gathered per-node sums minus the reverse-edge term) is the specification's, of any
    edge states the reference's first dense map equals. -/
theorem message_eq (E : Mat 8192 64) (hE : Read.val_main_v11 (F := Ideal) x0 x1 x2 x3 x6 = E) :
    Read.val_main_v35 (F := Ideal) x0 x1 x2 x3 x6 x7 = Cert.KernelIdeal.Hand.messageK E x6 x7 := by
  have hR : Read.val_main_v34 (F := Ideal) x0 x1 x2 x3 x6 x7
      = reverseSum (shapeCast Cert.KernelIdeal.S8192x1 x6 Cert.KernelIdeal.Gen.shapeCasts_S8192_S8192x1)
          (shapeCast Cert.KernelIdeal.S8192x1 x7 Cert.KernelIdeal.Gen.shapeCasts_S8192_S8192x1)
          (shapeCast Cert.KernelIdeal.S1x8192 x6 Cert.KernelIdeal.Gen.shapeCasts_S8192_S1x8192)
          (shapeCast Cert.KernelIdeal.S1x8192 x7 Cert.KernelIdeal.Gen.shapeCasts_S8192_S1x8192)
          (Read.val_main_v11 (F := Ideal) x0 x1 x2 x3 x6) :=
    reverse_eq x6 x7 _ _ _ _ _
      (fun p => cast_col x6 _ p) (fun p => cast_col x7 _ p) (fun k => cast_row x6 _ k) (fun k => cast_row x7 _ k)
  unfold Read.val_main_v35
  rw [hR]
  unfold Read.val_main_v21 Read.val_main_v14
  rw [hE, gathered_sums_eq]
  rfl

/-- The reference's last stage is the layer function. -/
theorem stage_eq :
    Read.val_main_v40 (F := Ideal) x0 x1 x2 x3 x4 x5 x6 x7 = Cert.KernelIdeal.Hand.layerK x0 x1 x2 x3 x4 x5 x6 x7 := by
  have hE := edgeState_eq x0 x1 x2 x3 x6
  have hM := message_eq x0 x1 x2 x3 x6 x7 _ hE
  unfold Cert.KernelIdeal.Hand.layerK
  rw [← hM, ← hE]
  exact upd_eq _ _ x4 x5 _ _ _
    (fun k q => slice_top x4 _ k q _)
    (fun k q => slice_from64 x4 _ k q _)
    (fun q => cast_row x5 _ q)

end Shared

/-- The reference's composed result term is the layer function of the reference's own arguments. -/
theorem ref_result_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v40 (F := Ideal) m' c
      = Cert.KernelIdeal.Hand.layerK
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) :=
  (Read.val_main_v40_eq (F := Ideal) m' c).trans (stage_eq _ _ _ _ _ _ _ _)

end Cert.ReferenceIdeal.Layer

end
-- ==== Proof.lean ====
/-
  An edge-network layer over 8192 edges, a Pallas kernel against its jnp reference, equal over the extended reals.

  Both programs compute, for every edge, an affine map of [source-node features, edge features] (the edge
  state); then the message: the edge states summed per destination node and gathered back at each edge's source,
  minus the states of the edges running the opposite way; then an affine map of [edge state, message]. The
  gathers and the per-node sum are the same host operations in both. The kernel differs in two ways only. It
  splits each affine map of a concatenation into two matrix products plus the bias, which is the same sum over
  the concatenated coordinates split in two. And it forms the reverse-edge term block by block: for each block of
  1024 edges it zeroes an accumulator, adds over eight steps the product of a 1024 by 1024 block of 0/1 weights
  with 1024 edge states, and copies the accumulator out at the last step — the same weighted sum over all 8192
  edges, split in eight. Only commutativity and associativity of addition are used, so the inputs' finiteness is
  never needed. The reduced-precision casts inside the kernel are the identity over the extended reals.

  Each program's frame — it runs to the end, nothing faults, the arguments end as launched — comes from one run
  theorem per program: the six items of the kernel's program (three host stretches, three kernel regions)
  chained through the contents of every buffer at each boundary; the reference's run read back.
-/
import proofs.«156653_j12429635354789_1_alg».proof.Defs
import proofs.«156653_j12429635354789_1_alg».proof.Proof.Gen.Kernel
import proofs.«156653_j12429635354789_1_alg».proof.Proof.Gen.KernelIdeal
import proofs.«156653_j12429635354789_1_alg».proof.Proof.Gen.ReferenceIdeal
import proofs.«156653_j12429635354789_1_alg».proof.Proof.Gen.Pre_finite_inputs
import proofs.«156653_j12429635354789_1_alg».proof.Proof.Gen.ReferenceIdeal.Run
import proofs.«156653_j12429635354789_1_alg».proof.Proof.KB.ArgsKept
import proofs.«156653_j12429635354789_1_alg».proof.Proof.KI.ArgsKept
import proofs.«156653_j12429635354789_1_alg».proof.Proof.KI.InitValue
import proofs.«156653_j12429635354789_1_alg».proof.Proof.KI.ReverseValue
import proofs.«156653_j12429635354789_1_alg».proof.Proof.KI.UpdValue
import proofs.«156653_j12429635354789_1_alg».proof.Proof.KI.ResultValue
import proofs.«156653_j12429635354789_1_alg».proof.Proof.RefLayer
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k [Cert.Kernel.Facts] [Cert.Pre_finite_inputs.Facts] : Cert.frame_Kernel :=
  fun m ρ _ => Cert.Kernel.Hand.frame m ρ

/-- The idealized kernel runs and keeps its arguments. -/
theorem frame_ki [Cert.KernelIdeal.Facts] [Cert.Pre_finite_inputs.Facts] : Cert.frame_KernelIdeal :=
  fun m ρ _ => Cert.KernelIdeal.Hand.frame m ρ

/-- The idealized reference runs and keeps its arguments: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments both programs end with the layer function of the arguments in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Hand.bnd6 m c (Proc.devRef .tc Cert.KernelIdeal.main_v30), Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layer.ref_result_eq m' c,
    (hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.KernelIdeal.Hand.result_value m
    (fun V c => Cert.KernelIdeal.Hand.initValue V c) (fun V c => Cert.KernelIdeal.Hand.reverseValue V c)
    (fun V c => Cert.KernelIdeal.Hand.updValue V c) c).symm

theorem claim : Cert.Claim :=
  ⟨Cert.Kernel.Gen.facts, Cert.KernelIdeal.Gen.facts, Cert.ReferenceIdeal.Gen.facts, Cert.Pre_finite_inputs.Gen.facts,
    @frame_k Cert.Kernel.Gen.facts Cert.Pre_finite_inputs.Gen.facts,
    @frame_ki Cert.KernelIdeal.Gen.facts Cert.Pre_finite_inputs.Gen.facts,
    @frame_ri Cert.ReferenceIdeal.Gen.facts Cert.Pre_finite_inputs.Gen.facts,
    preserves,
    @algebraic Cert.KernelIdeal.Gen.facts Cert.ReferenceIdeal.Gen.facts Cert.Pre_finite_inputs.Gen.facts⟩

end Cert.Proof

end
